-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1000x4096 : Shape := ⟨2, ![1000, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  reducesTo_S_S_d : S_.ReducesTo [] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_v12 : IVec S_ 1) (main_v14 : IVec S4096 1) (main_v15 : IVec S4096 32) : IVec S_ 1 :=
  let main_v16 : IVec S4096 1 := cmpi .slt main_arg3 main_v15
  let main_v17 : IVec S4096 1 := andi main_v14 main_v16
  let main_c_6 : IVec S_ 1 := constantI S_ 1 1#1
  let main_v18 : IVec S_ 1 := (fun x v => Host.reduce IntOp.andi x v reducesTo_S4096_S_d0 h_S_) main_v17 main_c_6
  let main_v19 : IVec S_ 1 := andi main_v12 main_v18
  main_v19

def fn {F : FTy → Type} [FloatOps F] (main_arg0 : FVec F S4096x1024 .f32) (main_arg1 : FVec F S4096x1024 .f32) (main_arg2 : IVec S1000x4096 32) (main_arg3 : IVec S4096 32) (main_arg4 : FVec F S_ .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S4096 32 := broadcastInDim S4096 ![] bcast_S_S4096 main_c_4
  let main_v14 : IVec S4096 1 := cmpi .sge main_arg3 main_v13
  let main_c_5 : IVec S_ 32 := constantI S_ 32 1000#32
  let main_v15 : IVec S4096 32 := broadcastInDim S4096 ![] bcast_S_S4096 main_c_5
  fn_part1 (F := F) main_arg3 main_v12 main_v14 main_v15
-- ==== Kernel.lean ====
abbrev S4096x1024 : Shape := ⟨2, ![4096, 1024]⟩
abbrev S1000x4096 : Shape := ⟨2, ![1000, 4096]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S1x1 : Shape := ⟨2, ![1, 1]⟩
abbrev S256x1024 : Shape := ⟨2, ![256, 1024]⟩
abbrev S256x1 : Shape := ⟨2, ![256, 1]⟩
abbrev S1024x256 : Shape := ⟨2, ![1024, 256]⟩
abbrev S256 : Shape := ⟨1, ![256]⟩
abbrev S256x256 : Shape := ⟨2, ![256, 256]⟩
abbrev S1x256 : Shape := ⟨2, ![1, 256]⟩

abbrev nBuf : Space → Nat
  | .hbm => 43
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1000x4096, .i32⟩
  | .hbm, ⟨3, _⟩ => ⟨S4096, .i32⟩
  | .hbm, ⟨4, _⟩ => ⟨S_, .f32⟩
  | .hbm, ⟨5, _⟩ => ⟨S4096x1, .i32⟩
  | .hbm, ⟨6, _⟩ => ⟨S1000x4096, .bf16⟩
  | .hbm, ⟨7, _⟩ => ⟨S_, .i32⟩
  | .hbm, ⟨8, _⟩ => ⟨S_, .bf16⟩
  | .hbm, ⟨9, _⟩ => ⟨S1024x4096, .bf16⟩
  | .hbm, ⟨10, _⟩ => ⟨S1x1, .f32⟩
  | .hbm, ⟨11, _⟩ => ⟨S4096x1, .f32⟩
  | .hbm, ⟨12, _⟩ => ⟨S4096x1, .f32⟩
  | .hbm, ⟨13, _⟩ => ⟨S4096, .f32⟩
  | .hbm, ⟨14, _⟩ => ⟨S4096, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x1, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1, .i32⟩
  | .local _ .vmem, ⟨6, _⟩ => ⟨S256x1, .i32⟩
  | .local _ .vmem, ⟨7, _⟩ => ⟨S1024x256, .bf16⟩
  | .local _ .vmem, ⟨8, _⟩ => ⟨S1024x256, .bf16⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v9 : Ref sig .tc := ⟨.hbm, 21, rfl⟩
abbrev main_call2_v0 : Ref sig .tc := ⟨.hbm, 22, rfl⟩
abbrev main_call2_cst : Ref sig .tc := ⟨.hbm, 23, rfl⟩
abbrev main_call2_v1 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4096_S4096x1 : S4096.ShapeCasts S4096x1
  pads_S1000x4096_S1024x4096_0240_000 : S1000x4096.Pads (![0, 0] : Fin 2 → Nat) ![24, 0] ![0, 0] S1024x4096
  h_S_ : 0 < S_.numel
  shapeCasts_S_S1x1 : S_.ShapeCasts S1x1
  inb_S256x1_S256x1_0_0 : ∀ a, (![0, 0] : Fin 2 → Nat) a + S256x1.size a ≤ S256x1.size a
  h_S256x1 : 0 < S256x1.numel
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  bitsLt_bf16_f32 : FTy.bits .bf16 < FTy.bits .f32
  transposes_S256x1024_p1_0_S1024x256 : S256x1024.Transposes [1, 0] S1024x256
  transposes_S256x1_p1_0_S1x256 : S256x1.Transposes [1, 0] S1x256
  broadcasts_S256x1_S256x256 : S256x1.Broadcasts S256x256
  broadcasts_S1x256_S256x256 : S1x256.Broadcasts S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x256 : S1x1.Broadcasts S256x256
  shapeCasts_S256x1_S256x1 : S256x1.ShapeCasts S256x1
  iota_S256x1024_d1_w32 : S256x1024.Iotas .tc 32 [1]
  broadcasts_S256x1_S256x1024 : S256x1.Broadcasts S256x1024
  natLt_1_32 : 1 < 32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S256x256_d0_w32 : S256x256.Iotas .tc 32 [0]
  iota_S256x256_d1_w32 : S256x256.Iotas .tc 32 [1]
  reduces_S256x256_S256 : S256x256.Reduces [1] S256
  shapeCasts_S4096x1_S4096 : S4096x1.ShapeCasts S4096
  reducesTo_S4096x1024_S4096_d1 : S4096x1024.ReducesTo [1] S4096
  bcast_S_S4096 : S_.BroadcastsInDim S4096 (![] : Fin 0 → Fin S4096.rank)
  reducesTo_S4096_S_d0 : S4096.ReducesTo [0] S_
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .i32 = 32 ∨ (Rect.block (s := S4096x1) S256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x4096.size a
  hwx0_4 : ∀ i : grid0.Coords, EltTy.bits .bf16 = 32 ∨ (Rect.block (s := S1024x4096) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_v3) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1000x4096 : Shape := ⟨2, ![1000, 4096]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩
abbrev S16777216 : Shape := ⟨1, ![16777216]⟩
abbrev S16777215 : Shape := ⟨1, ![16777215]⟩
abbrev S4095x4097 : Shape := ⟨2, ![4095, 4097]⟩
abbrev S4095x4096 : Shape := ⟨2, ![4095, 4096]⟩
abbrev S4096x4095 : Shape := ⟨2, ![4096, 4095]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1000x4096, .i32⟩
  | .hbm, ⟨3, _⟩ => ⟨S4096, .i32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S16777216, .f32⟩
  | .hbm, ⟨25, _⟩ => ⟨S16777215, .f32⟩
  | .hbm, ⟨26, _⟩ => ⟨S4095x4097, .f32⟩
  | .hbm, ⟨27, _⟩ => ⟨S4095x4096, .f32⟩
  | .hbm, ⟨28, _⟩ => ⟨S4096x4095, .f32⟩
  | .hbm, ⟨29, _⟩ => ⟨S4096x4095, .f32⟩
  | .hbm, ⟨30, _⟩ => ⟨S4096x4095, .f32⟩
  | .hbm, ⟨31, _⟩ => ⟨S4096x4095, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x4096, .i32⟩
  | .hbm, ⟨41, _⟩ => ⟨S4096x4096, .f32⟩
  | .hbm, ⟨42, _⟩ => ⟨S16777216, .f32⟩
  | .hbm, ⟨43, _⟩ => ⟨S16777215, .f32⟩
  | .hbm, ⟨44, _⟩ => ⟨S4095x4097, .f32⟩
  | .hbm, ⟨45, _⟩ => ⟨S4095x4096, .f32⟩
  | .hbm, ⟨46, _⟩ => ⟨S4096x4095, .f32⟩
  | .hbm, ⟨47, _⟩ => ⟨S4096x4095, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_v34 : Ref sig .tc := ⟨.hbm, 54, rfl⟩
abbrev main_call3_v0 : Ref sig .tc := ⟨.hbm, 55, rfl⟩
abbrev main_call3_cst : Ref sig .tc := ⟨.hbm, 56, rfl⟩
abbrev main_call3_v1 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  shapeCasts_S4096x4096_S16777216 : S4096x4096.ShapeCasts S16777216
  slices_S16777216_S16777215_1 : S16777216.Slices ![1] S16777215
  shapeCasts_S16777215_S4095x4097 : S16777215.ShapeCasts S4095x4097
  slices_S4095x4097_S4095x4096_0_0 : S4095x4097.Slices ![0, 0] S4095x4096
  shapeCasts_S4095x4096_S4096x4095 : S4095x4096.ShapeCasts S4096x4095
  bcast_S_S4096x4095 : S_.BroadcastsInDim S4096x4095 (![] : Fin 0 → Fin S4096x4095.rank)
  bcast_S_S4096 : S_.BroadcastsInDim S4096 (![] : Fin 0 → Fin S4096.rank)
  reducesTo_S4096x4095_S4096_d1 : S4096x4095.ReducesTo [1] S4096
  reducesTo_S4096_S_d0 : S4096.ReducesTo [0] S_
  dot_S4096x1024_S4096x1024_S4096x4096_1_1_0_0_n_n_wf : DotDims.WF S4096x1024 S4096x1024 S4096x4096 [1] [1] [0] [0] [] []
  gather_S1000x4096_S4096x1_S4096x4096_1_0_n_n_0_1_14096_wf : GatherDims.WF S1000x4096 S4096x1 S4096x4096 [1] [0] [] [0] [] 1 ![1, 4096]

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def gather_S1000x4096_S4096x1_S4096x4096_1_0_n_n_0_1_14096 : GatherDims S1000x4096 S4096x1 S4096x4096 where
  offsetDims := [1]
  collapsedSliceDims := [0]
  operandBatchingDims := []
  startIndicesBatchingDims := []
  startIndexMap := [0]
  indexVectorDim := 1
  sliceSizes := ![1, 4096]
  wf := gather_S1000x4096_S4096x1_S4096x4096_1_0_n_n_0_1_14096_wf

class Facts : Prop extends Facts₀ where

variable [Facts]
-- ==== Proof.K.Runs.lean ====
/-
  What the proofs about the kernel's run share.

  @main is three stretches of host operations (the labels reshaped to a column, the class mask converted to floats and padded
  with 24 zero rows, the temperature reshaped to a 1x1 array), the kernel's region, and four stretches after it. The region is
  entered at the contents the first three stretches leave (V); each window's block at a grid point is read off its array at those
  contents. The grid has 16 x 16 points, row tile i outermost, column tile k innermost; the body's one branch asks whether k is
  zero, which holds at the points whose number is a multiple of 16.
-/
import proofs.«410706_j32547262169719_1_alg».proof.Proof.Gen.Kernel.Launch
import proofs.«410706_j32547262169719_1_alg».proof.Proof.Gen.Kernel.Skeleton
import proofs.«410706_j32547262169719_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, -/
abbrev pfx : List (List (HloOp τ sig (Elt F))) := [hostOps0, hostOps0_1, hostOps0_2]
/-- and after it. -/
abbrev sfx : List (List (HloOp τ sig (Elt F))) := [hostOps1, hostOps1_1, hostOps1_2, hostOps1_3]

/-- A core's buffer contents when the region is entered: after the stretches before it. -/
abbrev V0 (c : Dev nD) : Valuation τ sig (Elt F) := StableHlo.after (List.flatten pfx) (fun b => m (c, b))
/-- The same read at a TensorCore reference. -/
abbrev V (c : Dev nD) (b : Ref sig .tc) : Buf (Elt F) ((c : Thread nD τ).loc b) := V0 m c (Proc.devRef .tc b)

theorem pfx_sub : (pfx : List (List (HloOp τ sig (Elt F)))).Forall fun ops => ops.Forall fun op => op.bufs ⊆ StableHlo.tcRefs τ sig :=
  ⟨hostOps0_sub, hostOps0_1_sub, hostOps0_2_sub⟩

theorem pfx_fresh : (pfx : List (List (HloOp τ sig (Elt F)))).Forall fun ops => ops.Forall fun op => op.fresh = ∅ := by
  simp only [List.Forall]; repeat' constructor

theorem sfx_fresh : ∀ ops ∈ (sfx : List (List (HloOp τ sig (Elt F)))), ∀ op ∈ ops, op.fresh = ∅ := by
  have h : (sfx : List (List (HloOp τ sig (Elt F)))).Forall fun ops => ops.Forall fun op => op.fresh = ∅ := by
    simp only [List.Forall]; repeat' constructor
  intro ops hops op hop
  exact (List.forall_iff_forall_mem.mp ((List.forall_iff_forall_mem.mp h) ops hops)) op hop

theorem sfx_sub : ∀ ops ∈ (sfx : List (List (HloOp τ sig (Elt F)))), ∀ op ∈ ops, op.bufs ⊆ Pipeline.ucRefs τ sig := by
  have h : (sfx : List (List (HloOp τ sig (Elt F)))).Forall fun ops => ops.Forall fun op => op.bufs ⊆ StableHlo.tcRefs τ sig :=
    ⟨hostOps1_sub, hostOps1_1_sub, hostOps1_2_sub, hostOps1_3_sub⟩
  intro ops hops op hop
  exact Pipeline.sub_ucRefs op ((List.forall_iff_forall_mem.mp ((List.forall_iff_forall_mem.mp h) ops hops)) op hop)

/-- @main reduces to the region continued by the later stretches, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main pfx sfx pfx_sub pfx_fresh (fun c => (main_chain c).trans rfl)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not fetched its
    block index has not moved), for any proof data whose array is V's and whose body leaves the block in place: one statement
    per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch condition from the grid coordinates: the column tile is the first. -/
abbrev cond0_0 (i : grid0.Coords) : Prop := (Scalar.cmpi .ne (Scalar.extui (Scalar.cmpi .eq (BitVec.ofNat 32 (i 1).val) 0#32)) 0#32) = 1#1
/-- It holds at the points whose number is a multiple of 16. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs at a point -/

abbrev VO5 : View sig .tc .vmem S256x1 .f32 := (Memref.whole cc0_stg5_0 : Memref sig .tc .vmem S256x1 .f32).view
abbrev VO6 : View sig .tc .vmem S256x1 .f32 := (Memref.whole cc0_stg6_0 : Memref sig .tc .vmem S256x1 .f32).view
abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)

end Cert.Kernel.Fr

end
-- ==== Proof.K.RunA.lean ====
/-
  The kernel body run at a grid point whose column tile is the first (the branch taken).

  On whole staging buffers, the five inputs at given contents and the two outputs at any contents, the body runs to a
  continuation that holds the inputs as they were and each output's buffer with a list of pieces written into it (last
  written first). The lists are found by running the body: in this case each output is first overwritten with zeros and
  then overwritten with "what it held plus a row sum".
-/
import proofs.«410706_j32547262169719_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two outputs' buffers when the column tile is the first, with the proof
    that the body runs to any continuation that accepts the inputs unchanged and the outputs so written. -/
noncomputable def kernelRun0_A (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) :
    { L : List (View.Piece (Elt F) S256x1 .f32) × List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                  ∗ (∃ f, arg7.view.loc (c : Thread nD τ) ↦[arg7.view.set]{fullShare} arg7.view.writes (Elt F) f L.1)
                  ∗ (∃ f, arg8.view.loc (c : Thread nD τ) ↦[arg8.view.set]{fullShare} arg8.view.writes (Elt F) f L.2)) -∗ K ⟨⟩))
          ⊢ wp frame (wpE (defs₀ (F := F)) Variants.none c none) E
              (cc0__contrastive_kernel i arg2 harg2 arg3 harg3 arg4 harg4 arg5 harg5 arg6 harg6 arg7 harg7 arg8 harg8) K } := by
  refine ⟨(?_, ?_), fun E K => ?run⟩
  case run =>
    dsimp only
    sl_unfold [cc0__contrastive_kernel, k0_part1]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.Kernel.Fr

end
-- ==== Proof.K.RunB.lean ====
/-
  The kernel body run at a grid point whose column tile is not the first (the branch not taken).

  On whole staging buffers, the five inputs and the two outputs at given contents (the body reads each output before it
  overwrites it), the body runs to a continuation that holds the inputs as they were and each output's buffer with a
  list of pieces written into it: one piece, "what it held plus a row sum".
-/
import proofs.«410706_j32547262169719_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two outputs' buffers when the column tile is not the first, with the
    proof that the body runs to any continuation that accepts the inputs unchanged and the outputs so written. -/
noncomputable def kernelRun0_B (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) :
    { L : List (View.Piece (Elt F) S256x1 .f32) × List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                  ∗ (∃ f, arg7.view.loc (c : Thread nD τ) ↦[arg7.view.set]{fullShare} arg7.view.writes (Elt F) f L.1)
                  ∗ (∃ f, arg8.view.loc (c : Thread nD τ) ↦[arg8.view.set]{fullShare} arg8.view.writes (Elt F) f L.2)) -∗ K ⟨⟩))
          ⊢ wp frame (wpE (defs₀ (F := F)) Variants.none c none) E
              (cc0__contrastive_kernel i arg2 harg2 arg3 harg3 arg4 harg4 arg5 harg5 arg6 harg6 arg7 harg7 arg8 harg8) K } := by
  refine ⟨(?_, ?_), fun E K => ?run⟩
  case run =>
    dsimp only
    sl_unfold [cc0__contrastive_kernel, k0_part1]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.Kernel.Fr

end
-- ==== Proof.K.Pieces.lean ====
/-
  What each run of the kernel body leaves in the two outputs' buffers, read back.

  Each output's pieces tile its 256x1 block, so the contents they leave do not depend on the buffer they are written
  into or on what it held. Read back, they are: at a first column tile, zeros plus the row sums (the zeros being what
  the reset stored and the update then read); at a later column tile, what the buffer held plus the row sums. The row
  sums are of the off-diagonal exponentials of the scaled cosine similarities (first output), and of those times the
  same-class mask (second output).
-/
import proofs.«410706_j32547262169719_1_alg».proof.Proof.K.RunB
import Idealize.ShloMosaic.Lib.Ring
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a two-axis block, as a constant function. -/
private theorem hz : (![0, 0] : Fin 2 → Nat) = fun _ => 0 := funext fun a => by fin_cases a <;> rfl

/-! ## Each output's pieces tile its block -/

theorem coverA5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) (y : S256x1.Idx) :
    ∃ pc ∈ (kernelRun0_A c i arg2 harg2 arg3 harg3 arg4 harg4 arg5 harg5 arg6 harg6 arg7 harg7 arg8 harg8 hc0 x0 x1 x2 x3 x4).1.1, y ∈ pc.1.set :=
  View.cover_of_tiledL _ S256x1.size (by sl_kernel_rfl) y

theorem coverA6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) (y : S256x1.Idx) :
    ∃ pc ∈ (kernelRun0_A c i arg2 harg2 arg3 harg3 arg4 harg4 arg5 harg5 arg6 harg6 arg7 harg7 arg8 harg8 hc0 x0 x1 x2 x3 x4).1.2, y ∈ pc.1.set :=
  View.cover_of_tiledL _ S256x1.size (by sl_kernel_rfl) y

theorem coverB5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) (y : S256x1.Idx) :
    ∃ pc ∈ (kernelRun0_B c i arg2 harg2 arg3 harg3 arg4 harg4 arg5 harg5 arg6 harg6 arg7 harg7 arg8 harg8 hc0 x0 x1 x2 x3 x4 xo5 xo6).1.1, y ∈ pc.1.set :=
  View.cover_of_tiledL _ S256x1.size (by sl_kernel_rfl) y

theorem coverB6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) (y : S256x1.Idx) :
    ∃ pc ∈ (kernelRun0_B c i arg2 harg2 arg3 harg3 arg4 harg4 arg5 harg5 arg6 harg6 arg7 harg7 arg8 harg8 hc0 x0 x1 x2 x3 x4 xo5 xo6).1.2, y ∈ pc.1.set :=
  View.cover_of_tiledL _ S256x1.size (by sl_kernel_rfl) y

/-! ## What each case leaves, read back -/

/-- First column tile, first output: the zeros just stored plus the row sums of the off-diagonal exponentials. -/
theorem outA5_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) :
    VO5.read (Elt F) (VO5.writes (Elt F) VO5.junk (kernelRun0_A c i arg2 harg2 arg3 harg3 arg4 harg4 arg5 harg5 arg6 harg6 arg7 harg7 arg8 harg8 hc0 x0 x1 x2 x3 x4).1.1)
      = k0_pay2 (BitVec.ofNat 32 (i 0).val) (BitVec.ofNat 32 (i 1).val) (k0_pay6 x1 x2 x0) (k0_pay4 (F := F)) := by
  rw [View.read_writes_eq_canon _ _ _ (coverA5 c i arg2 harg2 arg3 harg3 arg4 harg4 arg5 harg5 arg6 harg6 arg7 harg7 arg8 harg8 hc0 x0 x1 x2 x3 x4)]
  unfold kernelRun0_A; dsimp only; sl_unfold_words
  rw [View.canon_cons_unit_zero (S := S256x1) hz, View.readCov_unit_zero (S := S256x1) _ hz]
  simp only [View.readAt_eq_ld, harg2.read_unread, harg3.read_unread, harg4.read_unread, View.ld_unit_zero (S := S256x1024) hz,
    View.ld_unit_zero (S := S1x1) hz]

/-- First column tile, second output: the zeros just stored plus the row sums of the off-diagonal exponentials times the
    same-class mask. -/
theorem outA6_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) :
    VO6.read (Elt F) (VO6.writes (Elt F) VO6.junk (kernelRun0_A c i arg2 harg2 arg3 harg3 arg4 harg4 arg5 harg5 arg6 harg6 arg7 harg7 arg8 harg8 hc0 x0 x1 x2 x3 x4).1.2)
      = k0_pay3 (BitVec.ofNat 32 (i 0).val) (BitVec.ofNat 32 (i 1).val) (k0_pay6 x1 x2 x0) (k0_pay7 x3 x4) (k0_pay5 (F := F)) := by
  rw [View.read_writes_eq_canon _ _ _ (coverA6 c i arg2 harg2 arg3 harg3 arg4 harg4 arg5 harg5 arg6 harg6 arg7 harg7 arg8 harg8 hc0 x0 x1 x2 x3 x4)]
  unfold kernelRun0_A; dsimp only; sl_unfold_words
  rw [View.canon_cons_unit_zero (S := S256x1) hz, View.readCov_unit_zero (S := S256x1) _ hz]
  simp only [View.readAt_eq_ld, harg2.read_unread, harg3.read_unread, harg4.read_unread, harg5.read_unread, harg6.read_unread,
    View.ld_unit_zero (S := S256x1024) hz, View.ld_unit_zero (S := S1x1) hz, View.ld_unit_zero (S := S256x1) hz,
    View.ld_unit_zero (S := S1024x256) hz]

/-- A later column tile, first output: what the buffer held plus the row sums. -/
theorem outB5_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) :
    VO5.read (Elt F) (VO5.writes (Elt F) VO5.junk (kernelRun0_B c i arg2 harg2 arg3 harg3 arg4 harg4 arg5 harg5 arg6 harg6 arg7 harg7 arg8 harg8 hc0 x0 x1 x2 x3 x4 xo5 xo6).1.1)
      = k0_pay2 (BitVec.ofNat 32 (i 0).val) (BitVec.ofNat 32 (i 1).val) (k0_pay6 x1 x2 x0) xo5 := by
  rw [View.read_writes_eq_canon _ _ _ (coverB5 c i arg2 harg2 arg3 harg3 arg4 harg4 arg5 harg5 arg6 harg6 arg7 harg7 arg8 harg8 hc0 x0 x1 x2 x3 x4 xo5 xo6)]
  unfold kernelRun0_B; dsimp only; sl_unfold_words
  rw [View.canon_unit_zero hz]
  simp only [View.readAt_eq_ld, harg2.read_unread, harg3.read_unread, harg4.read_unread, harg7.read_unread,
    View.ld_unit_zero (S := S256x1024) hz, View.ld_unit_zero (S := S1x1) hz, View.ld_unit_zero (S := S256x1) hz]

/-- A later column tile, second output: what the buffer held plus the masked row sums. -/
theorem outB6_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) :
    VO6.read (Elt F) (VO6.writes (Elt F) VO6.junk (kernelRun0_B c i arg2 harg2 arg3 harg3 arg4 harg4 arg5 harg5 arg6 harg6 arg7 harg7 arg8 harg8 hc0 x0 x1 x2 x3 x4 xo5 xo6).1.2)
      = k0_pay3 (BitVec.ofNat 32 (i 0).val) (BitVec.ofNat 32 (i 1).val) (k0_pay6 x1 x2 x0) (k0_pay7 x3 x4) xo6 := by
  rw [View.read_writes_eq_canon _ _ _ (coverB6 c i arg2 harg2 arg3 harg3 arg4 harg4 arg5 harg5 arg6 harg6 arg7 harg7 arg8 harg8 hc0 x0 x1 x2 x3 x4 xo5 xo6)]
  unfold kernelRun0_B; dsimp only; sl_unfold_words
  rw [View.canon_unit_zero hz]
  simp only [View.readAt_eq_ld, harg2.read_unread, harg3.read_unread, harg4.read_unread, harg5.read_unread, harg6.read_unread,
    harg8.read_unread, View.ld_unit_zero (S := S256x1024) hz, View.ld_unit_zero (S := S1x1) hz,
    View.ld_unit_zero (S := S256x1) hz, View.ld_unit_zero (S := S1024x256) hz]

end Cert.Kernel.Fr

end
-- ==== Proof.K.Frame.lean ====
/-
  The accumulation of the kernel, and the body's obligation.

  The grid's points run row tile by row tile, the column tiles innermost. At a row tile's first column tile the body resets its two
  256-row accumulators and adds that tile's row sums; at every later column tile it adds to what the tile before left. The two
  output windows' staging buffers are written back to their arrays only after a row tile's last column tile, so between the
  points of one row tile the buffers carry the running sums. This module names what the buffers hold after each point (by
  recursion on the point, through the two cases' runs of the body) and shows that the body, run at any point on what the
  pipeline hands it there, leaves exactly that.
-/
import proofs.«410706_j32547262169719_1_alg».proof.Proof.K.Pieces

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two outputs' staging buffers -/

/-- What case A (the first column tile: reset, then add) leaves in the first output's staging buffer: its pieces read back. -/
def outA5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) : Vec F S256x1 .f32 :=
  VO5.read (Elt F) (VO5.writes (Elt F) VO5.junk (kernelRun0_A c i arg2 harg2 arg3 harg3 arg4 harg4 arg5 harg5 arg6 harg6 arg7 harg7 arg8 harg8 hc0 x0 x1 x2 x3 x4).1.1)
/-- and in the second's. -/
def outA6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) : Vec F S256x1 .f32 :=
  VO6.read (Elt F) (VO6.writes (Elt F) VO6.junk (kernelRun0_A c i arg2 harg2 arg3 harg3 arg4 harg4 arg5 harg5 arg6 harg6 arg7 harg7 arg8 harg8 hc0 x0 x1 x2 x3 x4).1.2)
/-- What case B (a later column tile: add to what the tile before left) leaves in the first output's staging buffer, -/
def outB5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) : Vec F S256x1 .f32 :=
  VO5.read (Elt F) (VO5.writes (Elt F) VO5.junk (kernelRun0_B c i arg2 harg2 arg3 harg3 arg4 harg4 arg5 harg5 arg6 harg6 arg7 harg7 arg8 harg8 hc0 x0 x1 x2 x3 x4 xo5 xo6).1.1)
/-- and in the second's. -/
def outB6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) : Vec F S256x1 .f32 :=
  VO6.read (Elt F) (VO6.writes (Elt F) VO6.junk (kernelRun0_B c i arg2 harg2 arg3 harg3 arg4 harg4 arg5 harg5 arg6 harg6 arg7 harg7 arg8 harg8 hc0 x0 x1 x2 x3 x4 xo5 xo6).1.2)

/-! ## What the outputs hold after each point -/

/-- The accumulation. What the two outputs' staging buffers hold after the body at point n: at a first column tile case A's
    contents, at a later one case B's over what point n - 1 left (the buffers are not written back between: a row tile's
    block goes back only after its last column tile). -/
def outsAt0 (c : Dev nD) : (n : ℕ) → n < cfg0.N → Vec F S256x1 .f32 × Vec F S256x1 .f32
  | 0, hn =>
    (outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      (outA5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       outA6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
          (outsAt0 c n (Nat.lt_of_succ_lt hn)).1 (outsAt0 c n (Nat.lt_of_succ_lt hn)).2,
       outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
          (outsAt0 c n (Nat.lt_of_succ_lt hn)).1 (outsAt0 c n (Nat.lt_of_succ_lt hn)).2)

/-- The accumulation at a point of case A. -/
theorem outsAt0_A (c : Dev nD) (t : Fin cfg0.N) (h0 : t.val % 16 = 0) :
    outsAt0 m c t.val t.isLt =
      (outA5 c (grid0.coords t) (ms0 t) (hs0 t) (ms1 t) (hs1 t) (ms2 t) (hs2 t) (ms3 t) (hs3 t) (ms4 t) (hs4 t) (ms5 t) (hs5 t) (ms6 t) (hs6 t) ((hcond0_0 t).mpr h0) (iblk m c 0 t) (iblk m c 1 t) (iblk m c 2 t) (iblk m c 3 t) (iblk m c 4 t),
       outA6 c (grid0.coords t) (ms0 t) (hs0 t) (ms1 t) (hs1 t) (ms2 t) (hs2 t) (ms3 t) (hs3 t) (ms4 t) (hs4 t) (ms5 t) (hs5 t) (ms6 t) (hs6 t) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- The accumulation at a point of case B: over what the point before left. -/
theorem outsAt0_B (c : Dev nD) (t : Fin cfg0.N) (h0 : ¬t.val % 16 = 0) :
    outsAt0 m c t.val t.isLt =
      (outB5 c (grid0.coords t) (ms0 t) (hs0 t) (ms1 t) (hs1 t) (ms2 t) (hs2 t) (ms3 t) (hs3 t) (ms4 t) (hs4 t) (ms5 t) (hs5 t) (ms6 t) (hs6 t) (fun h => h0 ((hcond0_0 t).mp h)) (iblk m c 0 t) (iblk m c 1 t) (iblk m c 2 t) (iblk m c 3 t) (iblk m c 4 t)
          (outsAt0 m c (t.val - 1) (Nat.lt_of_le_of_lt (Nat.sub_le _ _) t.isLt)).1 (outsAt0 m c (t.val - 1) (Nat.lt_of_le_of_lt (Nat.sub_le _ _) t.isLt)).2,
       outB6 c (grid0.coords t) (ms0 t) (hs0 t) (ms1 t) (hs1 t) (ms2 t) (hs2 t) (ms3 t) (hs3 t) (ms4 t) (hs4 t) (ms5 t) (hs5 t) (ms6 t) (hs6 t) (fun h => h0 ((hcond0_0 t).mp h)) (iblk m c 0 t) (iblk m c 1 t) (iblk m c 2 t) (iblk m c 3 t) (iblk m c 4 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- The proof data of the one pipeline on core c: the arrays as the region finds them; after the body at point t each input's
    buffer at its block and the two outputs' at the accumulation; no invariant (the body keeps nothing of its own between points and there is no scoped buffer besides the staging buffers); nothing
    owed; the two windows on the embedding array hold its two half shares, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2
  Φ _ := iprop(emp)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt0 m c t.val t.isLt).1 := by dsimp only [dats]
theorem after6 (c : Dev nD) (t : Fin cfg0.N) : (dats m 0 c).after 6 t = (outsAt0 m c t.val t.isLt).2 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-- At a point of case B the first output's current staging buffer holds what the body left at the point before: the point is not the
    first, and the buffer was not written back between (a block goes back only at the points ≡ 15 mod 16). -/
theorem before5_B (c : Dev nD) (t : Fin cfg0.N) (h0 : ¬t.val % 16 = 0) (d) :
    (dats m 0 c).before 5 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]
/-- The second output's likewise. -/
theorem before6_B (c : Dev nD) (t : Fin cfg0.N) (h0 : ¬t.val % 16 = 0) (d) :
    (dats m 0 c).before 6 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the point's number says which case it is in; at a later column
    tile the outputs' buffers hold what the tile before left; so that case's run applies. The invariant passes through unread; the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 256 := lt_of_lt_of_eq t.isLt (show cfg0.N = 256 from N_0)
  by_cases h0 : t.val % 16 = 0
  · rw [outsAt0_A m c t h0]
    dsimp only
    unfold outA5 outA6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA5 c _ _ _ _ _ _ _ _ _ _ _ _ _ _ _ _ _ _ _ _ _)
    · unfold owns; iexists _; isplitr
      swap; · iexact H6
      ipureintro; exact View.read_writes_of_cover _ _ _ _ _ (coverA6 c _ _ _ _ _ _ _ _ _ _ _ _ _ _ _ _ _ _ _ _ _)
  · rw [outsAt0_B m c t h0]
    dsimp only
    simp only [before5_B m c t h0, before6_B m c t h0]
    unfold outB5 outB6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB5 c _ _ _ _ _ _ _ _ _ _ _ _ _ _ _ _ _ _ _ _ _ _ _)
    · unfold owns; iexists _; isplitr
      swap; · iexact H6
      ipureintro; exact View.read_writes_of_cover _ _ _ _ _ (coverB6 c _ _ _ _ _ _ _ _ _ _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## What each case leaves, as the body's payloads -/

theorem outA5_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) :
    outA5 c i arg2 harg2 arg3 harg3 arg4 harg4 arg5 harg5 arg6 harg6 arg7 harg7 arg8 harg8 hc0 x0 x1 x2 x3 x4 = k0_pay2 (BitVec.ofNat 32 (i 0).val) (BitVec.ofNat 32 (i 1).val) (k0_pay6 x1 x2 x0) (k0_pay4 (F := F)) :=
  outA5_eq c i arg2 harg2 arg3 harg3 arg4 harg4 arg5 harg5 arg6 harg6 arg7 harg7 arg8 harg8 hc0 x0 x1 x2 x3 x4
theorem outA6_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) :
    outA6 c i arg2 harg2 arg3 harg3 arg4 harg4 arg5 harg5 arg6 harg6 arg7 harg7 arg8 harg8 hc0 x0 x1 x2 x3 x4 = k0_pay3 (BitVec.ofNat 32 (i 0).val) (BitVec.ofNat 32 (i 1).val) (k0_pay6 x1 x2 x0) (k0_pay7 x3 x4) (k0_pay5 (F := F)) :=
  outA6_eq c i arg2 harg2 arg3 harg3 arg4 harg4 arg5 harg5 arg6 harg6 arg7 harg7 arg8 harg8 hc0 x0 x1 x2 x3 x4
theorem outB5_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) :
    outB5 c i arg2 harg2 arg3 harg3 arg4 harg4 arg5 harg5 arg6 harg6 arg7 harg7 arg8 harg8 hc0 x0 x1 x2 x3 x4 xo5 xo6 = k0_pay2 (BitVec.ofNat 32 (i 0).val) (BitVec.ofNat 32 (i 1).val) (k0_pay6 x1 x2 x0) xo5 :=
  outB5_eq c i arg2 harg2 arg3 harg3 arg4 harg4 arg5 harg5 arg6 harg6 arg7 harg7 arg8 harg8 hc0 x0 x1 x2 x3 x4 xo5 xo6
theorem outB6_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) :
    outB6 c i arg2 harg2 arg3 harg3 arg4 harg4 arg5 harg5 arg6 harg6 arg7 harg7 arg8 harg8 hc0 x0 x1 x2 x3 x4 xo5 xo6 = k0_pay3 (BitVec.ofNat 32 (i 0).val) (BitVec.ofNat 32 (i 1).val) (k0_pay6 x1 x2 x0) (k0_pay7 x3 x4) xo6 :=
  outB6_eq c i arg2 harg2 arg3 harg3 arg4 harg4 arg5 harg5 arg6 harg6 arg7 harg7 arg8 harg8 hc0 x0 x1 x2 x3 x4 xo5 xo6

end Cert.Kernel.Fr

end
-- ==== Proof.K.Shares.lean ====
/-
  How the arrays of the kernel's windows are held, and the run of the lines after the region within them.

  The kernel has seven windows on six arrays: the embedding matrix is handed to two input windows. Each of those two holds one
  half of the matrix's points-to, the two halves composing the full share; every other window holds its array whole. So the
  seven windows' holdings together are the six distinct arrays, each held whole — in both directions. The lines after the
  region run within all the buffers that live across regions; none of them writes an array of a window (each writes a result
  buffer of its own), so the arrays come back at the contents they had.
-/
import proofs.«410706_j32547262169719_1_alg».proof.Proof.K.Runs
import Idealize.ShloMosaic.Lib.Pipeline.Launch
import Idealize.ShloMosaic.Lib.Pipeline.FrameSuffix
import Idealize.ShloMosaic.Rules.PointsTo

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the input windows: the two windows on the embedding array hold its two halves. -/
structure SharesOK {c : Dev nD} (dat : Dat τ (Elt F) Unit ℕ (UR sig nD τ) ℕ cfg0 c) : Prop where
  q0 : dat.q 0 = fullShare
  q1 : dat.q 1 = fullShare.left
  q2 : dat.q 2 = fullShare.right
  q3 : dat.q 3 = fullShare
  q4 : dat.q 4 = fullShare

/-! ## The six distinct arrays -/

/-- The seven windows' arrays are six buffers. -/
theorem img_eq : (Finset.univ.image (Pipeline.arrRef spec0) : Finset (Ref sig .tc)) = {main_v3, main_arg0, main_v0, main_v2, main_v4_0, main_v4_1} := by decide

/-- They are pairwise distinct: each is not among the ones listed after it. -/
theorem nm0 : main_v3 ∉ ({main_arg0, main_v0, main_v2, main_v4_0, main_v4_1} : Finset (Ref sig .tc)) := by decide
theorem nm1 : main_arg0 ∉ ({main_v0, main_v2, main_v4_0, main_v4_1} : Finset (Ref sig .tc)) := by decide
theorem nm2 : main_v0 ∉ ({main_v2, main_v4_0, main_v4_1} : Finset (Ref sig .tc)) := by decide
theorem nm3 : main_v2 ∉ ({main_v4_0, main_v4_1} : Finset (Ref sig .tc)) := by decide
theorem nm4 : main_v4_0 ∉ ({main_v4_1} : Finset (Ref sig .tc)) := by decide

/-- Every window's array is one of the six. -/
theorem mem_arrs (w : Fin 7) : Pipeline.arrRef spec0 w ∈ ({main_v3, main_arg0, main_v0, main_v2, main_v4_0, main_v4_1} : Finset (Ref sig .tc)) :=
  img_eq ▸ Finset.mem_image_of_mem _ (Finset.mem_univ w)

/-- The distinct arrays held whole, one by one. -/
theorem arrBufs_open {c : Dev nD} (G : (b : Ref sig .tc) → Buf (Elt F) ((c : Thread nD τ).loc b)) :
    (Pipeline.arrBufs spec0 c G : sProp 𝕄) = iprop((((c : Thread nD τ).loc main_v3) ↦{fullShare} G main_v3)
      ∗ (((c : Thread nD τ).loc main_arg0) ↦{fullShare} G main_arg0)
      ∗ (((c : Thread nD τ).loc main_v0) ↦{fullShare} G main_v0)
      ∗ (((c : Thread nD τ).loc main_v2) ↦{fullShare} G main_v2)
      ∗ (((c : Thread nD τ).loc main_v4_0) ↦{fullShare} G main_v4_0)
      ∗ (((c : Thread nD τ).loc main_v4_1) ↦{fullShare} G main_v4_1)) := by
  unfold Pipeline.arrBufs
  rw [img_eq, bigSep_insert nm0, bigSep_insert nm1, bigSep_insert nm2, bigSep_insert nm3, bigSep_insert nm4, bigSep_singleton]
  rfl

/-- The windows' holdings, one by one: every array is a whole buffer, so a window's part of it is all of it, at the window's
    share — the two halves for the two windows on the embedding matrix, the full share for the others. -/
theorem arrays_open {c : Dev nD} (dat : Dat τ (Elt F) Unit ℕ (UR sig nD τ) ℕ cfg0 c) (h : SharesOK dat)
    (G : (b : Ref sig .tc) → Buf (Elt F) ((c : Thread nD τ).loc b)) :
    (dat.arrays (fun w => G (Pipeline.arrRef spec0 w)) : sProp 𝕄) = iprop((((c : Thread nD τ).loc main_v3) ↦{fullShare} G main_v3)
      ∗ (((c : Thread nD τ).loc main_arg0) ↦{fullShare.left} G main_arg0)
      ∗ (((c : Thread nD τ).loc main_arg0) ↦{fullShare.right} G main_arg0)
      ∗ (((c : Thread nD τ).loc main_v0) ↦{fullShare} G main_v0)
      ∗ (((c : Thread nD τ).loc main_v2) ↦{fullShare} G main_v2)
      ∗ (((c : Thread nD τ).loc main_v4_0) ↦{fullShare} G main_v4_0)
      ∗ (((c : Thread nD τ).loc main_v4_1) ↦{fullShare} G main_v4_1)) := by
  have s0 : dat.share 0 = fullShare := by unfold Dat.share; exact h.q0
  have s1 : dat.share 1 = fullShare.left := by unfold Dat.share; exact h.q1
  have s2 : dat.share 2 = fullShare.right := by unfold Dat.share; exact h.q2
  have s3 : dat.share 3 = fullShare := by unfold Dat.share; exact h.q3
  have s4 : dat.share 4 = fullShare := by unfold Dat.share; exact h.q4
  have s5 : dat.share 5 = fullShare := by unfold Dat.share; rfl
  have s6 : dat.share 6 = fullShare := by unfold Dat.share; rfl
  have hA : (dat.arrays (fun w => G (Pipeline.arrRef spec0 w)) : sProp 𝕄)
      = bigSep Finset.univ fun w : Fin 7 => (((c : Thread nD τ).loc (Pipeline.arrRef spec0 w)) ↦{dat.share w} G (Pipeline.arrRef spec0 w) : sProp 𝕄) := by
    unfold Dat.arrays
    exact bigSep_congr fun w _ => by rw [(arr_whole0 w).set_eq_univ]
  rw [hA, bigSep_W0, s0, s1, s2, s3, s4, s5, s6]

/-- The windows' holdings are the six distinct arrays held whole: the embedding matrix's full share is the composite of the
    halves its two windows hold. -/
theorem arrays_eq' {c : Dev nD} (dat : Dat τ (Elt F) Unit ℕ (UR sig nD τ) ℕ cfg0 c) (h : SharesOK dat)
    (G : (b : Ref sig .tc) → Buf (Elt F) ((c : Thread nD τ).loc b)) :
    (dat.arrays (fun w => G (Pipeline.arrRef spec0 w)) : sProp 𝕄) = Pipeline.arrBufs spec0 c G := by
  have e1 : (((c : Thread nD τ).loc main_arg0) ↦{fullShare} G main_arg0 : sProp 𝕄)
      = iprop((((c : Thread nD τ).loc main_arg0) ↦{fullShare.left} G main_arg0) ∗ (((c : Thread nD τ).loc main_arg0) ↦{fullShare.right} G main_arg0)) :=
    Entails.antisymm (pointsTo_share (PosShare.mem_left_op_right fullShare)).1 (pointsTo_share (PosShare.mem_left_op_right fullShare)).2
  rw [arrays_open dat h G, arrBufs_open G, e1]
  refine congrArg₂ _ rfl ?_
  exact Entails.antisymm Idealize.SL.BI.sep_assoc' Idealize.SL.BI.sep_assoc

/-- The same as an entailment in both directions. -/
theorem arrays_iff {c : Dev nD} (dat : Dat τ (Elt F) Unit ℕ (UR sig nD τ) ℕ cfg0 c) (h : SharesOK dat)
    (G : (b : Ref sig .tc) → Buf (Elt F) ((c : Thread nD τ).loc b)) :
    (dat.arrays (fun w => G (Pipeline.arrRef spec0 w)) : sProp 𝕄) ⊣⊢ Pipeline.arrBufs spec0 c G :=
  .of_eq (arrays_eq' dat h G)

/-! ## The lines after the region write no array -/

/-- An operation whose one written buffer is none of the six arrays writes no window's array. -/
theorem keeps_of {op : HloOp τ sig (Elt F)} {y : Ref sig .tc} (hw : op.writes = {Proc.devRef .tc y})
    (hy : y ∉ ({main_v3, main_arg0, main_v0, main_v2, main_v4_0, main_v4_1} : Finset (Ref sig .tc))) :
    ∀ w, Proc.devRef .tc (Pipeline.arrRef spec0 w) ∉ op.writes := by
  intro w hm
  rw [hw, Finset.mem_singleton] at hm
  exact hy ((Proc.devRef_injective _ hm) ▸ mem_arrs w)

/-- Each line after the region writes only its own result buffer, which is no window's array. -/
theorem sfx_keeps : ∀ ops ∈ (sfx : List (List (HloOp τ sig (Elt F)))), ∀ op ∈ ops,
    ∀ w, Proc.devRef .tc (Pipeline.arrRef spec0 w) ∉ op.writes := by
  have h : (sfx : List (List (HloOp τ sig (Elt F)))).Forall fun ops => ops.Forall fun op =>
      ∀ w, Proc.devRef .tc (Pipeline.arrRef spec0 w) ∉ op.writes :=
    ⟨⟨keeps_of rfl (by decide), keeps_of rfl (by decide), keeps_of rfl (by decide), keeps_of rfl (by decide), keeps_of rfl (by decide)⟩,
     ⟨keeps_of rfl (by decide), keeps_of rfl (by decide), keeps_of rfl (by decide), keeps_of rfl (by decide)⟩,
     ⟨keeps_of rfl (by decide), keeps_of rfl (by decide), keeps_of rfl (by decide), keeps_of rfl (by decide)⟩,
     ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩⟩
  intro ops hops op hop
  exact (List.forall_iff_forall_mem.mp ((List.forall_iff_forall_mem.mp h) ops hops)) op hop

/-! ## The run of the lines after the region -/

/-- From the region's exit — the windows' arrays at their final contents, which are the valuation W's, and the buffers that
    bypass the region at W — the four stretches after the region run, and hand back the arrays at the same contents and the
    bypassing buffers at the contents the stretches leave from W. -/
theorem tail_shared {c : Dev nD} (dat : Dat τ (Elt F) Unit ℕ (UR sig nD τ) ℕ cfg0 c) (h : SharesOK dat) (𝒱₀ : Variants)
    (W : Valuation τ sig (Elt F)) (hW : ∀ w, dat.arrAt w cfg0.N = W (Proc.devRef .tc (Pipeline.arrRef spec0 w)))
    (Q' : PUnit → sProp 𝕄) :
    iprop((iprop(dat.arrays (fun w => dat.arrAt w cfg0.N)
              ∗ Pipeline.unscopedRest spec0 c (fun b => StableHlo.after (List.flatten (sfx (F := F))) W (Proc.devRef .tc b))) -∗ Q' ⟨⟩)
        ∗ boundary (c : Thread nD τ) ∗ dat.arrays (fun w => dat.arrAt w cfg0.N)
        ∗ Pipeline.unscopedRest spec0 c (fun b => W (Proc.devRef .tc b)))
      ⊢ wp frame (wpE (Pipeline.defs (fun q => (cfgs q).toPCfg (Val := Elt F)) defs₀) (Variants.lift 𝒱₀) (c : Thread nD τ) none) Set.univ
          (Pipeline.chain ((sfx (F := F)).map StableHlo.seq)) Q' := by
  -- the arrays and the bypassing buffers, at any contents agreeing with W on the arrays, are all the unscoped buffers held
  have hE : ∀ W' : Valuation τ sig (Elt F), (∀ w, W' (Proc.devRef .tc (Pipeline.arrRef spec0 w)) = W (Proc.devRef .tc (Pipeline.arrRef spec0 w))) →
      (iprop(dat.arrays (fun w => dat.arrAt w cfg0.N) ∗ Pipeline.unscopedRest spec0 c (fun b => W' (Proc.devRef .tc b))) : sProp 𝕄)
        = StableHlo.held (c : Thread nD τ) (Pipeline.ucRefs τ sig) W' := by
    intro W' hW'
    have hF' : (fun w => dat.arrAt w cfg0.N)
        = fun w => (fun b : Ref sig .tc => (W' (Proc.devRef .tc b) : Buf (Elt F) ((c : Thread nD τ).loc b))) (Pipeline.arrRef spec0 w) :=
      funext fun w => (hW w).trans (hW' w).symm
    have hA : (dat.arrays (fun w => dat.arrAt w cfg0.N) : sProp 𝕄) = Pipeline.arrBufs spec0 c (fun b => W' (Proc.devRef .tc b)) :=
      (congrArg (fun X => (dat.arrays X : sProp 𝕄)) hF').trans (arrays_eq' dat h (fun b => W' (Proc.devRef .tc b)))
    rw [hA]
    exact (Pipeline.unscopedBufs_split₀ cfgs 0 winFacts₀0.arr_unscoped c _).symm.trans (Pipeline.unscopedBufs_held c W')
  -- no line after the region writes an array
  have hk : ∀ w, StableHlo.after (List.flatten (sfx (F := F))) W (Proc.devRef .tc (Pipeline.arrRef spec0 w)) = W (Proc.devRef .tc (Pipeline.arrRef spec0 w)) :=
    fun w => StableHlo.after_of_forall_not_mem _ _ fun op hop => by
      obtain ⟨ops, hops, hop'⟩ := List.mem_flatten.mp hop
      exact sfx_keeps ops hops op hop' w
  rw [hE W (fun _ => rfl), hE _ hk, ← List.append_nil ((sfx (F := F)).map StableHlo.seq)]
  iintro ⟨Hk, Hb⟩
  iapply (Pipeline.wp_seqs_then (fun q => (cfgs q).toPCfg (Val := Elt F)) defs₀ 𝒱₀ c (Pipeline.ucRefs τ sig) [] sfx sfx_sub sfx_fresh W) $$ Hb
  iintro Hb
  rw [Pipeline.chain_nil, wp_pure]
  imodintro
  iapply Hk
  icases Hb with ⟨-, H⟩
  iexact H

end Cert.Kernel.Fr

end
-- ==== Proof.K.HostKeep.lean ====
/-
  What the host operations around the kernel's region leave as it was.

  The three stretches of operations before the region write none of @main's five arguments, and neither do the four stretches after
  it: at each argument the contents the region is entered at are the launch contents, and the contents after the last stretch are
  those before the first.
-/
import proofs.«410706_j32547262169719_1_alg».proof.Proof.K.Runs
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.StableHlo
open Idealize.SL.Sem

variable {F : FTy → Type} [FloatOps F]

variable (m : (ℓ : Loc nD τ sig) → Buf (Elt F) ℓ)

/-! ## Before the region -/

/-- The operations before the region write none of the five arguments. -/
theorem V_arg0 (c : Dev nD) : V m c main_arg0 = m ((c : Thread nD τ).loc main_arg0) := by
  dsimp only [V, V0]
  simp only [pfx, hostOps0, hostOps0_1, hostOps0_2, List.flatten_cons, List.flatten_nil, List.append_nil, List.cons_append, List.nil_append]
  after_results
theorem V_arg1 (c : Dev nD) : V m c main_arg1 = m ((c : Thread nD τ).loc main_arg1) := by
  dsimp only [V, V0]
  simp only [pfx, hostOps0, hostOps0_1, hostOps0_2, List.flatten_cons, List.flatten_nil, List.append_nil, List.cons_append, List.nil_append]
  after_results
theorem V_arg2 (c : Dev nD) : V m c main_arg2 = m ((c : Thread nD τ).loc main_arg2) := by
  dsimp only [V, V0]
  simp only [pfx, hostOps0, hostOps0_1, hostOps0_2, List.flatten_cons, List.flatten_nil, List.append_nil, List.cons_append, List.nil_append]
  after_results
theorem V_arg3 (c : Dev nD) : V m c main_arg3 = m ((c : Thread nD τ).loc main_arg3) := by
  dsimp only [V, V0]
  simp only [pfx, hostOps0, hostOps0_1, hostOps0_2, List.flatten_cons, List.flatten_nil, List.append_nil, List.cons_append, List.nil_append]
  after_results
theorem V_arg4 (c : Dev nD) : V m c main_arg4 = m ((c : Thread nD τ).loc main_arg4) := by
  dsimp only [V, V0]
  simp only [pfx, hostOps0, hostOps0_1, hostOps0_2, List.flatten_cons, List.flatten_nil, List.append_nil, List.cons_append, List.nil_append]
  after_results

/-! ## After the region -/

/-- The operations after the region write none of the five arguments. -/
theorem tail_keeps (W : Valuation τ sig (Elt F)) (b : Ref sig .tc)
    (hb : b = main_arg0 ∨ b = main_arg1 ∨ b = main_arg2 ∨ b = main_arg3 ∨ b = main_arg4) :
    StableHlo.after (List.flatten (sfx (F := F))) W (Proc.devRef .tc b) = W (Proc.devRef .tc b) := by
  rcases hb with rfl | rfl | rfl | rfl | rfl
  all_goals
    simp only [sfx, hostOps1, hostOps1_1, hostOps1_2, hostOps1_3, List.flatten_cons, List.flatten_nil, List.append_nil, List.cons_append, List.nil_append]
    after_results_simp

end Cert.Kernel.Fr

end
-- ==== Proof.K.Launch.lean ====
/-
  The run of the kernel, and its frame.

  The region is entered with every unscoped buffer whole. Two of the kernel's input windows read ONE array, the embedding matrix, at
  different blocks, so that array's full share is dealt to them in halves, every other window's array going to its window whole; the
  buffers no window reads or writes go around the region to the stretches of host operations after it. When the region is left the halves
  are put together again, the host operations run on whole buffers, and the final memory is read off: each array of the pipeline at what
  the write-backs leave (an input's never changes), every other buffer at what the host operations leave.
-/
import proofs.«410706_j32547262169719_1_alg».proof.Proof.K.Frame
import proofs.«410706_j32547262169719_1_alg».proof.Proof.K.Shares
import proofs.«410706_j32547262169719_1_alg».proof.Proof.K.HostKeep
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

theorem sharesOK (c : Dev nD) : SharesOK (dats m 0 c) := ⟨by dsimp only [dats], by dsimp only [dats], by dsimp only [dats], by dsimp only [dats], by dsimp only [dats]⟩

/-- A core's buffer contents when the region is left: the two result arrays at what the write-backs leave, every other buffer as
    the region was entered. -/
def Wout (c : Dev nD) : Valuation τ sig (Elt F) :=
  Function.update (Function.update (V0 m c) (Proc.devRef .tc main_v4_0) ((dats m 0 c).arrAt 5 cfg0.N))
    (Proc.devRef .tc main_v4_1) ((dats m 0 c).arrAt 6 cfg0.N)

/-- A core's buffer contents at the end: after the stretches that follow the region. -/
def Wend (c : Dev nD) : Valuation τ sig (Elt F) := StableHlo.after (List.flatten (sfx (F := F))) (Wout m c)

theorem Wout_of_ne (c : Dev nD) (b : Ref sig .tc) (h5 : b ≠ main_v4_0) (h6 : b ≠ main_v4_1) :
    Wout m c (Proc.devRef .tc b) = V m c b := by
  unfold Wout
  rw [Function.update_of_ne (fun e => h6 (Proc.devRef_injective _ e)), Function.update_of_ne (fun e => h5 (Proc.devRef_injective _ e))]

/-- Every array of the pipeline ends at what the left-region contents say: an input array is never written, each result array is
    the contents named for it. -/
theorem hWout (c : Dev nD) (w : Fin cfg0.W) : (dats m 0 c).arrAt w cfg0.N = Wout m c (Proc.devRef .tc (Pipeline.arrRef spec0 w)) := by
  match w with
  | ⟨0, _⟩ => exact ((dats m 0 c).arrAt_in 0 rfl _).trans ((A_eq m c 0).trans (Wout_of_ne m c _ (by decide) (by decide)).symm)
  | ⟨1, _⟩ => exact ((dats m 0 c).arrAt_in 1 rfl _).trans ((A_eq m c 1).trans (Wout_of_ne m c _ (by decide) (by decide)).symm)
  | ⟨2, _⟩ => exact ((dats m 0 c).arrAt_in 2 rfl _).trans ((A_eq m c 2).trans (Wout_of_ne m c _ (by decide) (by decide)).symm)
  | ⟨3, _⟩ => exact ((dats m 0 c).arrAt_in 3 rfl _).trans ((A_eq m c 3).trans (Wout_of_ne m c _ (by decide) (by decide)).symm)
  | ⟨4, _⟩ => exact ((dats m 0 c).arrAt_in 4 rfl _).trans ((A_eq m c 4).trans (Wout_of_ne m c _ (by decide) (by decide)).symm)
  | ⟨5, _⟩ =>
    show (dats m 0 c).arrAt 5 cfg0.N = Wout m c (Proc.devRef .tc main_v4_0)
    unfold Wout
    rw [Function.update_of_ne (StableHlo.devRef_ne_of_ne (by decide)), Function.update_self]
  | ⟨6, _⟩ =>
    show (dats m 0 c).arrAt 6 cfg0.N = Wout m c (Proc.devRef .tc main_v4_1)
    unfold Wout
    rw [Function.update_self]

/-- The unscoped buffers that are no array of the pipeline: what bypasses the region. -/
abbrev restSet : Finset (Ref sig .tc) := (Finset.univ.filter fun b : Ref sig .tc => ¬ b.isScoped) \ Finset.univ.image (Pipeline.arrRef spec0)

/-- Off the two result arrays the left-region contents are the entry contents. -/
theorem rest_Wout (c : Dev nD) :
    (Pipeline.unscopedRest spec0 c (V m c) : sProp 𝕄) = Pipeline.unscopedRest spec0 c (fun b => Wout m c (Proc.devRef .tc b)) := by
  unfold Pipeline.unscopedRest
  refine bigSep_congr fun b hb => ?_
  have hb' := (Finset.mem_sdiff.mp hb).2
  dsimp only
  rw [Wout_of_ne m c b (fun e => hb' (e ▸ Finset.mem_image.mpr ⟨5, Finset.mem_univ _, rfl⟩))
    (fun e => hb' (e ▸ Finset.mem_image.mpr ⟨6, Finset.mem_univ _, rfl⟩))]

/-- What the run ends in, on every core: each array of the pipeline at what the write-backs leave, every bypassing buffer at
    what the stretches after the region leave. -/
def Post : PUnit × MemSt nD τ sig (Elt F) → Prop := fun r => ∀ c : Dev nD,
  (∀ w, r.2.mem ((cfg0.win w).arr.view.loc (c : Thread nD τ)) = (dats m 0 c).arrAt w cfg0.N)
  ∧ (∀ b ∈ restSet, r.2.mem ((c : Thread nD τ).loc b) = Wend m c (Proc.devRef .tc b))

set_option maxHeartbeats 1600000 in
set_option backward.isDefEq.respectTransparency.types false in
/-- At the compiled mesh, for any values, from any memory with zero counters: every weakly fair execution of @main terminates,
    nothing faulting, in a state of that description. Two windows read one array: its full share is dealt to them in halves when
    the region is entered and put together again when it is left. -/
theorem run_main : θ_run defs (onTc (τ := τ) (main (F := F))) (s₀ m ρ) (Post m) :=
  Pipeline.θ_run_region_noSem_pf_tail (fun p => (cfgs p).toPCfg (Val := Elt F)) (fun p => (cfgs p).toPCfg_adm) (dats m) () cellOf_inj (0 : Fin 1)
    winFacts₀0 (Pipeline.PreFacts.none _) emb₁ defs₀ Variants.none m ρ main (fun _ => Pipeline.chain ((sfx (F := F)).map StableHlo.seq))
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := fun c => ((arrays_iff (dats m 0 c) (sharesOK m c) (V m c)).2).trans
      (Entails.of_eq (congrArg (dats m 0 c).arrays (funext fun w => (A_eq m c w).symm))))
    (hpf := fun _ k => k.elim0)
    (X := fun _ => iprop(emp)) (Y := fun _ => iprop(emp))
    (Z := fun c => Pipeline.unscopedRest spec0 c (fun b => Wout m c (Proc.devRef .tc b)))
    (Z' := fun c => Pipeline.unscopedRest spec0 c (fun b => Wend m c (Proc.devRef .tc b)))
    (hX := fun c => by
      rw [Pipeline.unscopedRestP_none, rest_Wout m c]
      iintro H; isplitr; · iempintro
      iexact H)
    (hin := fun c => by iintro -; iempintro)
    (hout := fun c => by rw [scopedRest0_eq]; iintro -; isplitr <;> iempintro)
    (htail := fun c Q' => tail_shared (dats m 0 c) (sharesOK m c) Variants.none (Wout m c) (hWout m c) Q')
    (QY := fun c s => ∀ b ∈ restSet, s.mem ((c : Thread nD τ).loc b) = Wend m c (Proc.devRef .tc b))
    (hY := fun c s' => by
      iintro ⟨-, HU, HSI⟩
      unfold Pipeline.unscopedRest
      imodintro
      iapply (pointsTo_read_all restSet (fun b => (c : Thread nD τ).loc b) (fun b => Wend m c (Proc.devRef .tc b)) s')
      isplitl [HU] <;> iassumption)
    (hQ := fun s h c => ⟨(h c).1, (h c).2.2⟩)

/-! ## The result buffer and the frame -/

/-- The run ends with the result buffer at what the stretches after the region compute from the left-region contents, and every
    argument as it was launched: the embedding matrix is an array two input windows read and nothing writes; the other four arguments
    bypass the region, and neither the stretches before it nor those after it write an argument. -/
theorem run_res : θ_run defs (onTc (τ := τ) (main (F := F))) ⟨m, fun _ => 0, ρ⟩ (fun r => ∀ c : Dev nD,
      r.2.mem ((c.tc : Thread nD τ).loc main_v24) = Wend m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v24 (by decide),
     ((h c).1 1).trans (((dats m 0 c).arrAt_in 1 rfl _).trans ((A_eq m c 1).trans (V_arg0 m c))),
     ((h c).2 main_arg1 (by decide)).trans ((tail_keeps (Wout m c) main_arg1 (Or.inr (Or.inl rfl))).trans
       ((Wout_of_ne m c main_arg1 (by decide) (by decide)).trans (V_arg1 m c))),
     ((h c).2 main_arg2 (by decide)).trans ((tail_keeps (Wout m c) main_arg2 (Or.inr (Or.inr (Or.inl rfl)))).trans
       ((Wout_of_ne m c main_arg2 (by decide) (by decide)).trans (V_arg2 m c))),
     ((h c).2 main_arg3 (by decide)).trans ((tail_keeps (Wout m c) main_arg3 (Or.inr (Or.inr (Or.inr (Or.inl rfl))))).trans
       ((Wout_of_ne m c main_arg3 (by decide) (by decide)).trans (V_arg3 m c))),
     ((h c).2 main_arg4 (by decide)).trans ((tail_keeps (Wout m c) main_arg4 (Or.inr (Or.inr (Or.inr (Or.inr rfl))))).trans
       ((Wout_of_ne m c main_arg4 (by decide) (by decide)).trans (V_arg4 m c)))⟩) (run_main m ρ)

/-- The frame: every weakly fair execution terminates, nothing faulting, with the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_res m ρ)

end Cert.Kernel.Fr

end
-- ==== Proof.KI.Runs.lean ====
/-
  What the proofs about the idealized kernel's run share.

  @main is three stretches of host operations (the labels reshaped to a column, the class mask converted to floats and padded
  with 24 zero rows, the temperature reshaped to a 1x1 array), the kernel's region, and four stretches after it. The region is
  entered at the contents the first three stretches leave (V); each window's block at a grid point is read off its array at those
  contents. The grid has 16 x 16 points, row tile i outermost, column tile k innermost; the body's one branch asks whether k is
  zero, which holds at the points whose number is a multiple of 16.
-/
import proofs.«410706_j32547262169719_1_alg».proof.Proof.Gen.KernelIdeal.Launch
import proofs.«410706_j32547262169719_1_alg».proof.Proof.Gen.KernelIdeal.Skeleton
import proofs.«410706_j32547262169719_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, -/
abbrev pfx : List (List (HloOp τ sig (Elt F))) := [hostOps0, hostOps0_1, hostOps0_2]
/-- and after it. -/
abbrev sfx : List (List (HloOp τ sig (Elt F))) := [hostOps1, hostOps1_1, hostOps1_2, hostOps1_3]

/-- A core's buffer contents when the region is entered: after the stretches before it. -/
abbrev V0 (c : Dev nD) : Valuation τ sig (Elt F) := StableHlo.after (List.flatten pfx) (fun b => m (c, b))
/-- The same read at a TensorCore reference. -/
abbrev V (c : Dev nD) (b : Ref sig .tc) : Buf (Elt F) ((c : Thread nD τ).loc b) := V0 m c (Proc.devRef .tc b)

theorem pfx_sub : (pfx : List (List (HloOp τ sig (Elt F)))).Forall fun ops => ops.Forall fun op => op.bufs ⊆ StableHlo.tcRefs τ sig :=
  ⟨hostOps0_sub, hostOps0_1_sub, hostOps0_2_sub⟩

theorem pfx_fresh : (pfx : List (List (HloOp τ sig (Elt F)))).Forall fun ops => ops.Forall fun op => op.fresh = ∅ := by
  simp only [List.Forall]; repeat' constructor

theorem sfx_fresh : ∀ ops ∈ (sfx : List (List (HloOp τ sig (Elt F)))), ∀ op ∈ ops, op.fresh = ∅ := by
  have h : (sfx : List (List (HloOp τ sig (Elt F)))).Forall fun ops => ops.Forall fun op => op.fresh = ∅ := by
    simp only [List.Forall]; repeat' constructor
  intro ops hops op hop
  exact (List.forall_iff_forall_mem.mp ((List.forall_iff_forall_mem.mp h) ops hops)) op hop

theorem sfx_sub : ∀ ops ∈ (sfx : List (List (HloOp τ sig (Elt F)))), ∀ op ∈ ops, op.bufs ⊆ Pipeline.ucRefs τ sig := by
  have h : (sfx : List (List (HloOp τ sig (Elt F)))).Forall fun ops => ops.Forall fun op => op.bufs ⊆ StableHlo.tcRefs τ sig :=
    ⟨hostOps1_sub, hostOps1_1_sub, hostOps1_2_sub, hostOps1_3_sub⟩
  intro ops hops op hop
  exact Pipeline.sub_ucRefs op ((List.forall_iff_forall_mem.mp ((List.forall_iff_forall_mem.mp h) ops hops)) op hop)

/-- @main reduces to the region continued by the later stretches, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main pfx sfx pfx_sub pfx_fresh (fun c => (main_chain c).trans rfl)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not fetched its
    block index has not moved), for any proof data whose array is V's and whose body leaves the block in place: one statement
    per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch condition from the grid coordinates: the column tile is the first. -/
abbrev cond0_0 (i : grid0.Coords) : Prop := (Scalar.cmpi .ne (Scalar.extui (Scalar.cmpi .eq (BitVec.ofNat 32 (i 1).val) 0#32)) 0#32) = 1#1
/-- It holds at the points whose number is a multiple of 16. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs at a point -/

abbrev VO5 : View sig .tc .vmem S256x1 .f32 := (Memref.whole cc0_stg5_0 : Memref sig .tc .vmem S256x1 .f32).view
abbrev VO6 : View sig .tc .vmem S256x1 .f32 := (Memref.whole cc0_stg6_0 : Memref sig .tc .vmem S256x1 .f32).view
abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)

end Cert.KernelIdeal.Fr

end
-- ==== Proof.KI.RunA.lean ====
/-
  The kernel body run at a grid point whose column tile is the first (the branch taken).

  On whole staging buffers, the five inputs at given contents and the two outputs at any contents, the body runs to a
  continuation that holds the inputs as they were and each output's buffer with a list of pieces written into it (last
  written first). The lists are found by running the body: in this case each output is first overwritten with zeros and
  then overwritten with "what it held plus a row sum".
-/
import proofs.«410706_j32547262169719_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two outputs' buffers when the column tile is the first, with the proof
    that the body runs to any continuation that accepts the inputs unchanged and the outputs so written. -/
noncomputable def kernelRun0_A (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) :
    { L : List (View.Piece (Elt F) S256x1 .f32) × List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                  ∗ (∃ f, arg7.view.loc (c : Thread nD τ) ↦[arg7.view.set]{fullShare} arg7.view.writes (Elt F) f L.1)
                  ∗ (∃ f, arg8.view.loc (c : Thread nD τ) ↦[arg8.view.set]{fullShare} arg8.view.writes (Elt F) f L.2)) -∗ K ⟨⟩))
          ⊢ wp frame (wpE (defs₀ (F := F)) Variants.none c none) E
              (cc0__contrastive_kernel i arg2 harg2 arg3 harg3 arg4 harg4 arg5 harg5 arg6 harg6 arg7 harg7 arg8 harg8) K } := by
  refine ⟨(?_, ?_), fun E K => ?run⟩
  case run =>
    dsimp only
    sl_unfold [cc0__contrastive_kernel, k0_part1]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.KernelIdeal.Fr

end
-- ==== Proof.KI.RunB.lean ====
/-
  The kernel body run at a grid point whose column tile is not the first (the branch not taken).

  On whole staging buffers, the five inputs and the two outputs at given contents (the body reads each output before it
  overwrites it), the body runs to a continuation that holds the inputs as they were and each output's buffer with a
  list of pieces written into it: one piece, "what it held plus a row sum".
-/
import proofs.«410706_j32547262169719_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two outputs' buffers when the column tile is not the first, with the
    proof that the body runs to any continuation that accepts the inputs unchanged and the outputs so written. -/
noncomputable def kernelRun0_B (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) :
    { L : List (View.Piece (Elt F) S256x1 .f32) × List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                  ∗ (∃ f, arg7.view.loc (c : Thread nD τ) ↦[arg7.view.set]{fullShare} arg7.view.writes (Elt F) f L.1)
                  ∗ (∃ f, arg8.view.loc (c : Thread nD τ) ↦[arg8.view.set]{fullShare} arg8.view.writes (Elt F) f L.2)) -∗ K ⟨⟩))
          ⊢ wp frame (wpE (defs₀ (F := F)) Variants.none c none) E
              (cc0__contrastive_kernel i arg2 harg2 arg3 harg3 arg4 harg4 arg5 harg5 arg6 harg6 arg7 harg7 arg8 harg8) K } := by
  refine ⟨(?_, ?_), fun E K => ?run⟩
  case run =>
    dsimp only
    sl_unfold [cc0__contrastive_kernel, k0_part1]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.KernelIdeal.Fr

end
-- ==== Proof.KI.Pieces.lean ====
/-
  What each run of the kernel body leaves in the two outputs' buffers, read back.

  Each output's pieces tile its 256x1 block, so the contents they leave do not depend on the buffer they are written
  into or on what it held. Read back, they are: at a first column tile, zeros plus the row sums (the zeros being what
  the reset stored and the update then read); at a later column tile, what the buffer held plus the row sums. The row
  sums are of the off-diagonal exponentials of the scaled cosine similarities (first output), and of those times the
  same-class mask (second output).
-/
import proofs.«410706_j32547262169719_1_alg».proof.Proof.KI.RunB
import Idealize.ShloMosaic.Lib.Ring
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a two-axis block, as a constant function. -/
private theorem hz : (![0, 0] : Fin 2 → Nat) = fun _ => 0 := funext fun a => by fin_cases a <;> rfl

/-! ## Each output's pieces tile its block -/

theorem coverA5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) (y : S256x1.Idx) :
    ∃ pc ∈ (kernelRun0_A c i arg2 harg2 arg3 harg3 arg4 harg4 arg5 harg5 arg6 harg6 arg7 harg7 arg8 harg8 hc0 x0 x1 x2 x3 x4).1.1, y ∈ pc.1.set :=
  View.cover_of_tiledL _ S256x1.size (by sl_kernel_rfl) y

theorem coverA6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) (y : S256x1.Idx) :
    ∃ pc ∈ (kernelRun0_A c i arg2 harg2 arg3 harg3 arg4 harg4 arg5 harg5 arg6 harg6 arg7 harg7 arg8 harg8 hc0 x0 x1 x2 x3 x4).1.2, y ∈ pc.1.set :=
  View.cover_of_tiledL _ S256x1.size (by sl_kernel_rfl) y

theorem coverB5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) (y : S256x1.Idx) :
    ∃ pc ∈ (kernelRun0_B c i arg2 harg2 arg3 harg3 arg4 harg4 arg5 harg5 arg6 harg6 arg7 harg7 arg8 harg8 hc0 x0 x1 x2 x3 x4 xo5 xo6).1.1, y ∈ pc.1.set :=
  View.cover_of_tiledL _ S256x1.size (by sl_kernel_rfl) y

theorem coverB6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) (y : S256x1.Idx) :
    ∃ pc ∈ (kernelRun0_B c i arg2 harg2 arg3 harg3 arg4 harg4 arg5 harg5 arg6 harg6 arg7 harg7 arg8 harg8 hc0 x0 x1 x2 x3 x4 xo5 xo6).1.2, y ∈ pc.1.set :=
  View.cover_of_tiledL _ S256x1.size (by sl_kernel_rfl) y

/-! ## What each case leaves, read back -/

/-- First column tile, first output: the zeros just stored plus the row sums of the off-diagonal exponentials. -/
theorem outA5_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) :
    VO5.read (Elt F) (VO5.writes (Elt F) VO5.junk (kernelRun0_A c i arg2 harg2 arg3 harg3 arg4 harg4 arg5 harg5 arg6 harg6 arg7 harg7 arg8 harg8 hc0 x0 x1 x2 x3 x4).1.1)
      = k0_pay2 (BitVec.ofNat 32 (i 0).val) (BitVec.ofNat 32 (i 1).val) (k0_pay6 x1 x2 x0) (k0_pay4 (F := F)) := by
  rw [View.read_writes_eq_canon _ _ _ (coverA5 c i arg2 harg2 arg3 harg3 arg4 harg4 arg5 harg5 arg6 harg6 arg7 harg7 arg8 harg8 hc0 x0 x1 x2 x3 x4)]
  unfold kernelRun0_A; dsimp only; sl_unfold_words
  rw [View.canon_cons_unit_zero (S := S256x1) hz, View.readCov_unit_zero (S := S256x1) _ hz]
  simp only [View.readAt_eq_ld, harg2.read_unread, harg3.read_unread, harg4.read_unread, View.ld_unit_zero (S := S256x1024) hz,
    View.ld_unit_zero (S := S1x1) hz]

/-- First column tile, second output: the zeros just stored plus the row sums of the off-diagonal exponentials times the
    same-class mask. -/
theorem outA6_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i)
    (x0 : Vec F S1x1 .f32) (x1 x2 : Vec F S256x1024 .f32) (x3 : Vec F S256x1 .i32) (x4 : Vec F S1024x256 .bf16) :
    VO6.read (Elt F) (VO6.writes (Elt F) VO6.junk (kernelRun0_A c i arg2 harg2 arg3 harg3 arg4 harg4 arg5 harg5 arg6 harg6 arg7 harg7 arg8 harg8 hc0 x0 x1 x2 x3 x4).1.2)
      = k0_pay3 (BitVec.ofNat 32 (i 0).val) (BitVec.ofNat 32 (i 1).val) (k0_pay6 x1 x2 x0) (k0_pay7 x3 x4) (k0_pay5 (F := F)) := by
  rw [View.read_writes_eq_canon _ _ _ (coverA6 c i arg2 harg2 arg3 harg3 arg4 harg4 arg5 harg5 arg6 harg6 arg7 harg7 arg8 harg8 hc0 x0 x1 x2 x3 x4)]
  unfold kernelRun0_A; dsimp only; sl_unfold_words
  rw [View.canon_cons_unit_zero (S := S256x1) hz, View.readCov_unit_zero (S := S256x1) _ hz]
  simp only [View.readAt_eq_ld, harg2.read_unread, harg3.read_unread, harg4.read_unread, harg5.read_unread, harg6.read_unread,
    View.ld_unit_zero (S := S256x1024) hz, View.ld_unit_zero (S := S1x1) hz, View.ld_unit_zero (S := S256x1) hz,
    View.ld_unit_zero (S := S1024x256) hz]

/-- A later column tile, first output: what the buffer held plus the row sums. -/
theorem outB5_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) :
    VO5.read (Elt F) (VO5.writes (Elt F) VO5.junk (kernelRun0_B c i arg2 harg2 arg3 harg3 arg4 harg4 arg5 harg5 arg6 harg6 arg7 harg7 arg8 harg8 hc0 x0 x1 x2 x3 x4 xo5 xo6).1.1)
      = k0_pay2 (BitVec.ofNat 32 (i 0).val) (BitVec.ofNat 32 (i 1).val) (k0_pay6 x1 x2 x0) xo5 := by
  rw [View.read_writes_eq_canon _ _ _ (coverB5 c i arg2 harg2 arg3 harg3 arg4 harg4 arg5 harg5 arg6 harg6 arg7 harg7 arg8 harg8 hc0 x0 x1 x2 x3 x4 xo5 xo6)]
  unfold kernelRun0_B; dsimp only; sl_unfold_words
  rw [View.canon_unit_zero hz]
  simp only [View.readAt_eq_ld, harg2.read_unread, harg3.read_unread, harg4.read_unread, harg7.read_unread,
    View.ld_unit_zero (S := S256x1024) hz, View.ld_unit_zero (S := S1x1) hz, View.ld_unit_zero (S := S256x1) hz]

/-- A later column tile, second output: what the buffer held plus the masked row sums. -/
theorem outB6_eq (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i)
    (x0 : Vec F S1x1 .f32) (x1 x2 : Vec F S256x1024 .f32) (x3 : Vec F S256x1 .i32) (x4 : Vec F S1024x256 .bf16)
    (xo5 xo6 : Vec F S256x1 .f32) :
    VO6.read (Elt F) (VO6.writes (Elt F) VO6.junk (kernelRun0_B c i arg2 harg2 arg3 harg3 arg4 harg4 arg5 harg5 arg6 harg6 arg7 harg7 arg8 harg8 hc0 x0 x1 x2 x3 x4 xo5 xo6).1.2)
      = k0_pay3 (BitVec.ofNat 32 (i 0).val) (BitVec.ofNat 32 (i 1).val) (k0_pay6 x1 x2 x0) (k0_pay7 x3 x4) xo6 := by
  rw [View.read_writes_eq_canon _ _ _ (coverB6 c i arg2 harg2 arg3 harg3 arg4 harg4 arg5 harg5 arg6 harg6 arg7 harg7 arg8 harg8 hc0 x0 x1 x2 x3 x4 xo5 xo6)]
  unfold kernelRun0_B; dsimp only; sl_unfold_words
  rw [View.canon_unit_zero hz]
  simp only [View.readAt_eq_ld, harg2.read_unread, harg3.read_unread, harg4.read_unread, harg5.read_unread, harg6.read_unread,
    harg8.read_unread, View.ld_unit_zero (S := S256x1024) hz, View.ld_unit_zero (S := S1x1) hz,
    View.ld_unit_zero (S := S256x1) hz, View.ld_unit_zero (S := S1024x256) hz]

end Cert.KernelIdeal.Fr

end
-- ==== Proof.KI.Frame.lean ====
/-
  The accumulation of the idealized kernel, and the body's obligation.

  The grid's points run row tile by row tile, the column tiles innermost. At a row tile's first column tile the body resets its two
  256-row accumulators and adds that tile's row sums; at every later column tile it adds to what the tile before left. The two
  output windows' staging buffers are written back to their arrays only after a row tile's last column tile, so between the
  points of one row tile the buffers carry the running sums. This module names what the buffers hold after each point (by
  recursion on the point, through the two cases' runs of the body) and shows that the body, run at any point on what the
  pipeline hands it there, leaves exactly that.
-/
import proofs.«410706_j32547262169719_1_alg».proof.Proof.KI.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two outputs' staging buffers -/

/-- What case A (the first column tile: reset, then add) leaves in the first output's staging buffer: its pieces read back. -/
def outA5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) : Vec F S256x1 .f32 :=
  VO5.read (Elt F) (VO5.writes (Elt F) VO5.junk (kernelRun0_A c i arg2 harg2 arg3 harg3 arg4 harg4 arg5 harg5 arg6 harg6 arg7 harg7 arg8 harg8 hc0 x0 x1 x2 x3 x4).1.1)
/-- and in the second's. -/
def outA6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) : Vec F S256x1 .f32 :=
  VO6.read (Elt F) (VO6.writes (Elt F) VO6.junk (kernelRun0_A c i arg2 harg2 arg3 harg3 arg4 harg4 arg5 harg5 arg6 harg6 arg7 harg7 arg8 harg8 hc0 x0 x1 x2 x3 x4).1.2)
/-- What case B (a later column tile: add to what the tile before left) leaves in the first output's staging buffer, -/
def outB5 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) : Vec F S256x1 .f32 :=
  VO5.read (Elt F) (VO5.writes (Elt F) VO5.junk (kernelRun0_B c i arg2 harg2 arg3 harg3 arg4 harg4 arg5 harg5 arg6 harg6 arg7 harg7 arg8 harg8 hc0 x0 x1 x2 x3 x4 xo5 xo6).1.1)
/-- and in the second's. -/
def outB6 (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) : Vec F S256x1 .f32 :=
  VO6.read (Elt F) (VO6.writes (Elt F) VO6.junk (kernelRun0_B c i arg2 harg2 arg3 harg3 arg4 harg4 arg5 harg5 arg6 harg6 arg7 harg7 arg8 harg8 hc0 x0 x1 x2 x3 x4 xo5 xo6).1.2)

/-! ## What the outputs hold after each point -/

/-- The accumulation. What the two outputs' staging buffers hold after the body at point n: at a first column tile case A's
    contents, at a later one case B's over what point n - 1 left (the buffers are not written back between: a row tile's
    block goes back only after its last column tile). -/
def outsAt0 (c : Dev nD) : (n : ℕ) → n < cfg0.N → Vec F S256x1 .f32 × Vec F S256x1 .f32
  | 0, hn =>
    (outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      (outA5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       outA6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
          (outsAt0 c n (Nat.lt_of_succ_lt hn)).1 (outsAt0 c n (Nat.lt_of_succ_lt hn)).2,
       outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
          (outsAt0 c n (Nat.lt_of_succ_lt hn)).1 (outsAt0 c n (Nat.lt_of_succ_lt hn)).2)

/-- The accumulation at a point of case A. -/
theorem outsAt0_A (c : Dev nD) (t : Fin cfg0.N) (h0 : t.val % 16 = 0) :
    outsAt0 m c t.val t.isLt =
      (outA5 c (grid0.coords t) (ms0 t) (hs0 t) (ms1 t) (hs1 t) (ms2 t) (hs2 t) (ms3 t) (hs3 t) (ms4 t) (hs4 t) (ms5 t) (hs5 t) (ms6 t) (hs6 t) ((hcond0_0 t).mpr h0) (iblk m c 0 t) (iblk m c 1 t) (iblk m c 2 t) (iblk m c 3 t) (iblk m c 4 t),
       outA6 c (grid0.coords t) (ms0 t) (hs0 t) (ms1 t) (hs1 t) (ms2 t) (hs2 t) (ms3 t) (hs3 t) (ms4 t) (hs4 t) (ms5 t) (hs5 t) (ms6 t) (hs6 t) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- The accumulation at a point of case B: over what the point before left. -/
theorem outsAt0_B (c : Dev nD) (t : Fin cfg0.N) (h0 : ¬t.val % 16 = 0) :
    outsAt0 m c t.val t.isLt =
      (outB5 c (grid0.coords t) (ms0 t) (hs0 t) (ms1 t) (hs1 t) (ms2 t) (hs2 t) (ms3 t) (hs3 t) (ms4 t) (hs4 t) (ms5 t) (hs5 t) (ms6 t) (hs6 t) (fun h => h0 ((hcond0_0 t).mp h)) (iblk m c 0 t) (iblk m c 1 t) (iblk m c 2 t) (iblk m c 3 t) (iblk m c 4 t)
          (outsAt0 m c (t.val - 1) (Nat.lt_of_le_of_lt (Nat.sub_le _ _) t.isLt)).1 (outsAt0 m c (t.val - 1) (Nat.lt_of_le_of_lt (Nat.sub_le _ _) t.isLt)).2,
       outB6 c (grid0.coords t) (ms0 t) (hs0 t) (ms1 t) (hs1 t) (ms2 t) (hs2 t) (ms3 t) (hs3 t) (ms4 t) (hs4 t) (ms5 t) (hs5 t) (ms6 t) (hs6 t) (fun h => h0 ((hcond0_0 t).mp h)) (iblk m c 0 t) (iblk m c 1 t) (iblk m c 2 t) (iblk m c 3 t) (iblk m c 4 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- The proof data of the one pipeline on core c: the arrays as the region finds them; after the body at point t each input's
    buffer at its block and the two outputs' at the accumulation; no invariant (the body keeps nothing of its own between points and there is no scoped buffer besides the staging buffers); nothing
    owed; the two windows on the embedding array hold its two half shares, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2
  Φ _ := iprop(emp)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt0 m c t.val t.isLt).1 := by dsimp only [dats]
theorem after6 (c : Dev nD) (t : Fin cfg0.N) : (dats m 0 c).after 6 t = (outsAt0 m c t.val t.isLt).2 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-- At a point of case B the first output's current staging buffer holds what the body left at the point before: the point is not the
    first, and the buffer was not written back between (a block goes back only at the points ≡ 15 mod 16). -/
theorem before5_B (c : Dev nD) (t : Fin cfg0.N) (h0 : ¬t.val % 16 = 0) (d) :
    (dats m 0 c).before 5 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]
/-- The second output's likewise. -/
theorem before6_B (c : Dev nD) (t : Fin cfg0.N) (h0 : ¬t.val % 16 = 0) (d) :
    (dats m 0 c).before 6 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the point's number says which case it is in; at a later column
    tile the outputs' buffers hold what the tile before left; so that case's run applies. The invariant passes through unread; the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 256 := lt_of_lt_of_eq t.isLt (show cfg0.N = 256 from N_0)
  by_cases h0 : t.val % 16 = 0
  · rw [outsAt0_A m c t h0]
    dsimp only
    unfold outA5 outA6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA5 c _ _ _ _ _ _ _ _ _ _ _ _ _ _ _ _ _ _ _ _ _)
    · unfold owns; iexists _; isplitr
      swap; · iexact H6
      ipureintro; exact View.read_writes_of_cover _ _ _ _ _ (coverA6 c _ _ _ _ _ _ _ _ _ _ _ _ _ _ _ _ _ _ _ _ _)
  · rw [outsAt0_B m c t h0]
    dsimp only
    simp only [before5_B m c t h0, before6_B m c t h0]
    unfold outB5 outB6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB5 c _ _ _ _ _ _ _ _ _ _ _ _ _ _ _ _ _ _ _ _ _ _ _)
    · unfold owns; iexists _; isplitr
      swap; · iexact H6
      ipureintro; exact View.read_writes_of_cover _ _ _ _ _ (coverB6 c _ _ _ _ _ _ _ _ _ _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## What each case leaves, as the body's payloads -/

theorem outA5_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) :
    outA5 c i arg2 harg2 arg3 harg3 arg4 harg4 arg5 harg5 arg6 harg6 arg7 harg7 arg8 harg8 hc0 x0 x1 x2 x3 x4 = k0_pay2 (BitVec.ofNat 32 (i 0).val) (BitVec.ofNat 32 (i 1).val) (k0_pay6 x1 x2 x0) (k0_pay4 (F := F)) :=
  outA5_eq c i arg2 harg2 arg3 harg3 arg4 harg4 arg5 harg5 arg6 harg6 arg7 harg7 arg8 harg8 hc0 x0 x1 x2 x3 x4
theorem outA6_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : cond0_0 i) (x0 : Vec F S1x1 .f32) (x1 x2 : Vec F S256x1024 .f32) (x3 : Vec F S256x1 .i32) (x4 : Vec F S1024x256 .bf16) :
    outA6 c i arg2 harg2 arg3 harg3 arg4 harg4 arg5 harg5 arg6 harg6 arg7 harg7 arg8 harg8 hc0 x0 x1 x2 x3 x4 = k0_pay3 (BitVec.ofNat 32 (i 0).val) (BitVec.ofNat 32 (i 1).val) (k0_pay6 x1 x2 x0) (k0_pay7 x3 x4) (k0_pay5 (F := F)) :=
  outA6_eq c i arg2 harg2 arg3 harg3 arg4 harg4 arg5 harg5 arg6 harg6 arg7 harg7 arg8 harg8 hc0 x0 x1 x2 x3 x4
theorem outB5_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) :
    outB5 c i arg2 harg2 arg3 harg3 arg4 harg4 arg5 harg5 arg6 harg6 arg7 harg7 arg8 harg8 hc0 x0 x1 x2 x3 x4 xo5 xo6 = k0_pay2 (BitVec.ofNat 32 (i 0).val) (BitVec.ofNat 32 (i 1).val) (k0_pay6 x1 x2 x0) xo5 :=
  outB5_eq c i arg2 harg2 arg3 harg3 arg4 harg4 arg5 harg5 arg6 harg6 arg7 harg7 arg8 harg8 hc0 x0 x1 x2 x3 x4 xo5 xo6
theorem outB6_pay (c : Dev nD) (i : grid0.Coords)
    (arg2 : Memref sig .tc .vmem S1x1 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1 .i32) (harg5 : arg5.IsWhole)
    (arg6 : Memref sig .tc .vmem S1024x256 .bf16) (harg6 : arg6.IsWhole) (arg7 : Memref sig .tc .vmem S256x1 .f32) (harg7 : arg7.IsWhole)
    (arg8 : Memref sig .tc .vmem S256x1 .f32) (harg8 : arg8.IsWhole) (hc0 : ¬cond0_0 i) (x0 : Vec F S1x1 .f32) (x1 x2 : Vec F S256x1024 .f32) (x3 : Vec F S256x1 .i32) (x4 : Vec F S1024x256 .bf16) (xo5 xo6 : Vec F S256x1 .f32) :
    outB6 c i arg2 harg2 arg3 harg3 arg4 harg4 arg5 harg5 arg6 harg6 arg7 harg7 arg8 harg8 hc0 x0 x1 x2 x3 x4 xo5 xo6 = k0_pay3 (BitVec.ofNat 32 (i 0).val) (BitVec.ofNat 32 (i 1).val) (k0_pay6 x1 x2 x0) (k0_pay7 x3 x4) xo6 :=
  outB6_eq c i arg2 harg2 arg3 harg3 arg4 harg4 arg5 harg5 arg6 harg6 arg7 harg7 arg8 harg8 hc0 x0 x1 x2 x3 x4 xo5 xo6

end Cert.KernelIdeal.Fr

end
-- ==== Proof.KI.Shares.lean ====
/-
  How the arrays of the kernel's windows are held, and the run of the lines after the region within them.

  The kernel has seven windows on six arrays: the embedding matrix is handed to two input windows. Each of those two holds one
  half of the matrix's points-to, the two halves composing the full share; every other window holds its array whole. So the
  seven windows' holdings together are the six distinct arrays, each held whole — in both directions. The lines after the
  region run within all the buffers that live across regions; none of them writes an array of a window (each writes a result
  buffer of its own), so the arrays come back at the contents they had.
-/
import proofs.«410706_j32547262169719_1_alg».proof.Proof.KI.Runs
import Idealize.ShloMosaic.Lib.Pipeline.Launch
import Idealize.ShloMosaic.Lib.Pipeline.FrameSuffix
import Idealize.ShloMosaic.Rules.PointsTo

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the input windows: the two windows on the embedding array hold its two halves. -/
structure SharesOK {c : Dev nD} (dat : Dat τ (Elt F) Unit ℕ (UR sig nD τ) ℕ cfg0 c) : Prop where
  q0 : dat.q 0 = fullShare
  q1 : dat.q 1 = fullShare.left
  q2 : dat.q 2 = fullShare.right
  q3 : dat.q 3 = fullShare
  q4 : dat.q 4 = fullShare

/-! ## The six distinct arrays -/

/-- The seven windows' arrays are six buffers. -/
theorem img_eq : (Finset.univ.image (Pipeline.arrRef spec0) : Finset (Ref sig .tc)) = {main_v3, main_arg0, main_v0, main_v2, main_v4_0, main_v4_1} := by decide

/-- They are pairwise distinct: each is not among the ones listed after it. -/
theorem nm0 : main_v3 ∉ ({main_arg0, main_v0, main_v2, main_v4_0, main_v4_1} : Finset (Ref sig .tc)) := by decide
theorem nm1 : main_arg0 ∉ ({main_v0, main_v2, main_v4_0, main_v4_1} : Finset (Ref sig .tc)) := by decide
theorem nm2 : main_v0 ∉ ({main_v2, main_v4_0, main_v4_1} : Finset (Ref sig .tc)) := by decide
theorem nm3 : main_v2 ∉ ({main_v4_0, main_v4_1} : Finset (Ref sig .tc)) := by decide
theorem nm4 : main_v4_0 ∉ ({main_v4_1} : Finset (Ref sig .tc)) := by decide

/-- Every window's array is one of the six. -/
theorem mem_arrs (w : Fin 7) : Pipeline.arrRef spec0 w ∈ ({main_v3, main_arg0, main_v0, main_v2, main_v4_0, main_v4_1} : Finset (Ref sig .tc)) :=
  img_eq ▸ Finset.mem_image_of_mem _ (Finset.mem_univ w)

/-- The distinct arrays held whole, one by one. -/
theorem arrBufs_open {c : Dev nD} (G : (b : Ref sig .tc) → Buf (Elt F) ((c : Thread nD τ).loc b)) :
    (Pipeline.arrBufs spec0 c G : sProp 𝕄) = iprop((((c : Thread nD τ).loc main_v3) ↦{fullShare} G main_v3)
      ∗ (((c : Thread nD τ).loc main_arg0) ↦{fullShare} G main_arg0)
      ∗ (((c : Thread nD τ).loc main_v0) ↦{fullShare} G main_v0)
      ∗ (((c : Thread nD τ).loc main_v2) ↦{fullShare} G main_v2)
      ∗ (((c : Thread nD τ).loc main_v4_0) ↦{fullShare} G main_v4_0)
      ∗ (((c : Thread nD τ).loc main_v4_1) ↦{fullShare} G main_v4_1)) := by
  unfold Pipeline.arrBufs
  rw [img_eq, bigSep_insert nm0, bigSep_insert nm1, bigSep_insert nm2, bigSep_insert nm3, bigSep_insert nm4, bigSep_singleton]
  rfl

/-- The windows' holdings, one by one: every array is a whole buffer, so a window's part of it is all of it, at the window's
    share — the two halves for the two windows on the embedding matrix, the full share for the others. -/
theorem arrays_open {c : Dev nD} (dat : Dat τ (Elt F) Unit ℕ (UR sig nD τ) ℕ cfg0 c) (h : SharesOK dat)
    (G : (b : Ref sig .tc) → Buf (Elt F) ((c : Thread nD τ).loc b)) :
    (dat.arrays (fun w => G (Pipeline.arrRef spec0 w)) : sProp 𝕄) = iprop((((c : Thread nD τ).loc main_v3) ↦{fullShare} G main_v3)
      ∗ (((c : Thread nD τ).loc main_arg0) ↦{fullShare.left} G main_arg0)
      ∗ (((c : Thread nD τ).loc main_arg0) ↦{fullShare.right} G main_arg0)
      ∗ (((c : Thread nD τ).loc main_v0) ↦{fullShare} G main_v0)
      ∗ (((c : Thread nD τ).loc main_v2) ↦{fullShare} G main_v2)
      ∗ (((c : Thread nD τ).loc main_v4_0) ↦{fullShare} G main_v4_0)
      ∗ (((c : Thread nD τ).loc main_v4_1) ↦{fullShare} G main_v4_1)) := by
  have s0 : dat.share 0 = fullShare := by unfold Dat.share; exact h.q0
  have s1 : dat.share 1 = fullShare.left := by unfold Dat.share; exact h.q1
  have s2 : dat.share 2 = fullShare.right := by unfold Dat.share; exact h.q2
  have s3 : dat.share 3 = fullShare := by unfold Dat.share; exact h.q3
  have s4 : dat.share 4 = fullShare := by unfold Dat.share; exact h.q4
  have s5 : dat.share 5 = fullShare := by unfold Dat.share; rfl
  have s6 : dat.share 6 = fullShare := by unfold Dat.share; rfl
  have hA : (dat.arrays (fun w => G (Pipeline.arrRef spec0 w)) : sProp 𝕄)
      = bigSep Finset.univ fun w : Fin 7 => (((c : Thread nD τ).loc (Pipeline.arrRef spec0 w)) ↦{dat.share w} G (Pipeline.arrRef spec0 w) : sProp 𝕄) := by
    unfold Dat.arrays
    exact bigSep_congr fun w _ => by rw [(arr_whole0 w).set_eq_univ]
  rw [hA, bigSep_W0, s0, s1, s2, s3, s4, s5, s6]

/-- The windows' holdings are the six distinct arrays held whole: the embedding matrix's full share is the composite of the
    halves its two windows hold. -/
theorem arrays_eq' {c : Dev nD} (dat : Dat τ (Elt F) Unit ℕ (UR sig nD τ) ℕ cfg0 c) (h : SharesOK dat)
    (G : (b : Ref sig .tc) → Buf (Elt F) ((c : Thread nD τ).loc b)) :
    (dat.arrays (fun w => G (Pipeline.arrRef spec0 w)) : sProp 𝕄) = Pipeline.arrBufs spec0 c G := by
  have e1 : (((c : Thread nD τ).loc main_arg0) ↦{fullShare} G main_arg0 : sProp 𝕄)
      = iprop((((c : Thread nD τ).loc main_arg0) ↦{fullShare.left} G main_arg0) ∗ (((c : Thread nD τ).loc main_arg0) ↦{fullShare.right} G main_arg0)) :=
    Entails.antisymm (pointsTo_share (PosShare.mem_left_op_right fullShare)).1 (pointsTo_share (PosShare.mem_left_op_right fullShare)).2
  rw [arrays_open dat h G, arrBufs_open G, e1]
  refine congrArg₂ _ rfl ?_
  exact Entails.antisymm Idealize.SL.BI.sep_assoc' Idealize.SL.BI.sep_assoc

/-- The same as an entailment in both directions. -/
theorem arrays_iff {c : Dev nD} (dat : Dat τ (Elt F) Unit ℕ (UR sig nD τ) ℕ cfg0 c) (h : SharesOK dat)
    (G : (b : Ref sig .tc) → Buf (Elt F) ((c : Thread nD τ).loc b)) :
    (dat.arrays (fun w => G (Pipeline.arrRef spec0 w)) : sProp 𝕄) ⊣⊢ Pipeline.arrBufs spec0 c G :=
  .of_eq (arrays_eq' dat h G)

/-! ## The lines after the region write no array -/

/-- An operation whose one written buffer is none of the six arrays writes no window's array. -/
theorem keeps_of {op : HloOp τ sig (Elt F)} {y : Ref sig .tc} (hw : op.writes = {Proc.devRef .tc y})
    (hy : y ∉ ({main_v3, main_arg0, main_v0, main_v2, main_v4_0, main_v4_1} : Finset (Ref sig .tc))) :
    ∀ w, Proc.devRef .tc (Pipeline.arrRef spec0 w) ∉ op.writes := by
  intro w hm
  rw [hw, Finset.mem_singleton] at hm
  exact hy ((Proc.devRef_injective _ hm) ▸ mem_arrs w)

/-- Each line after the region writes only its own result buffer, which is no window's array. -/
theorem sfx_keeps : ∀ ops ∈ (sfx : List (List (HloOp τ sig (Elt F)))), ∀ op ∈ ops,
    ∀ w, Proc.devRef .tc (Pipeline.arrRef spec0 w) ∉ op.writes := by
  have h : (sfx : List (List (HloOp τ sig (Elt F)))).Forall fun ops => ops.Forall fun op =>
      ∀ w, Proc.devRef .tc (Pipeline.arrRef spec0 w) ∉ op.writes :=
    ⟨⟨keeps_of rfl (by decide), keeps_of rfl (by decide), keeps_of rfl (by decide), keeps_of rfl (by decide), keeps_of rfl (by decide)⟩,
     ⟨keeps_of rfl (by decide), keeps_of rfl (by decide), keeps_of rfl (by decide), keeps_of rfl (by decide)⟩,
     ⟨keeps_of rfl (by decide), keeps_of rfl (by decide), keeps_of rfl (by decide), keeps_of rfl (by decide)⟩,
     ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩⟩
  intro ops hops op hop
  exact (List.forall_iff_forall_mem.mp ((List.forall_iff_forall_mem.mp h) ops hops)) op hop

/-! ## The run of the lines after the region -/

/-- From the region's exit — the windows' arrays at their final contents, which are the valuation W's, and the buffers that
    bypass the region at W — the four stretches after the region run, and hand back the arrays at the same contents and the
    bypassing buffers at the contents the stretches leave from W. -/
theorem tail_shared {c : Dev nD} (dat : Dat τ (Elt F) Unit ℕ (UR sig nD τ) ℕ cfg0 c) (h : SharesOK dat) (𝒱₀ : Variants)
    (W : Valuation τ sig (Elt F)) (hW : ∀ w, dat.arrAt w cfg0.N = W (Proc.devRef .tc (Pipeline.arrRef spec0 w)))
    (Q' : PUnit → sProp 𝕄) :
    iprop((iprop(dat.arrays (fun w => dat.arrAt w cfg0.N)
              ∗ Pipeline.unscopedRest spec0 c (fun b => StableHlo.after (List.flatten (sfx (F := F))) W (Proc.devRef .tc b))) -∗ Q' ⟨⟩)
        ∗ boundary (c : Thread nD τ) ∗ dat.arrays (fun w => dat.arrAt w cfg0.N)
        ∗ Pipeline.unscopedRest spec0 c (fun b => W (Proc.devRef .tc b)))
      ⊢ wp frame (wpE (Pipeline.defs (fun q => (cfgs q).toPCfg (Val := Elt F)) defs₀) (Variants.lift 𝒱₀) (c : Thread nD τ) none) Set.univ
          (Pipeline.chain ((sfx (F := F)).map StableHlo.seq)) Q' := by
  -- the arrays and the bypassing buffers, at any contents agreeing with W on the arrays, are all the unscoped buffers held
  have hE : ∀ W' : Valuation τ sig (Elt F), (∀ w, W' (Proc.devRef .tc (Pipeline.arrRef spec0 w)) = W (Proc.devRef .tc (Pipeline.arrRef spec0 w))) →
      (iprop(dat.arrays (fun w => dat.arrAt w cfg0.N) ∗ Pipeline.unscopedRest spec0 c (fun b => W' (Proc.devRef .tc b))) : sProp 𝕄)
        = StableHlo.held (c : Thread nD τ) (Pipeline.ucRefs τ sig) W' := by
    intro W' hW'
    have hF' : (fun w => dat.arrAt w cfg0.N)
        = fun w => (fun b : Ref sig .tc => (W' (Proc.devRef .tc b) : Buf (Elt F) ((c : Thread nD τ).loc b))) (Pipeline.arrRef spec0 w) :=
      funext fun w => (hW w).trans (hW' w).symm
    have hA : (dat.arrays (fun w => dat.arrAt w cfg0.N) : sProp 𝕄) = Pipeline.arrBufs spec0 c (fun b => W' (Proc.devRef .tc b)) :=
      (congrArg (fun X => (dat.arrays X : sProp 𝕄)) hF').trans (arrays_eq' dat h (fun b => W' (Proc.devRef .tc b)))
    rw [hA]
    exact (Pipeline.unscopedBufs_split₀ cfgs 0 winFacts₀0.arr_unscoped c _).symm.trans (Pipeline.unscopedBufs_held c W')
  -- no line after the region writes an array
  have hk : ∀ w, StableHlo.after (List.flatten (sfx (F := F))) W (Proc.devRef .tc (Pipeline.arrRef spec0 w)) = W (Proc.devRef .tc (Pipeline.arrRef spec0 w)) :=
    fun w => StableHlo.after_of_forall_not_mem _ _ fun op hop => by
      obtain ⟨ops, hops, hop'⟩ := List.mem_flatten.mp hop
      exact sfx_keeps ops hops op hop' w
  rw [hE W (fun _ => rfl), hE _ hk, ← List.append_nil ((sfx (F := F)).map StableHlo.seq)]
  iintro ⟨Hk, Hb⟩
  iapply (Pipeline.wp_seqs_then (fun q => (cfgs q).toPCfg (Val := Elt F)) defs₀ 𝒱₀ c (Pipeline.ucRefs τ sig) [] sfx sfx_sub sfx_fresh W) $$ Hb
  iintro Hb
  rw [Pipeline.chain_nil, wp_pure]
  imodintro
  iapply Hk
  icases Hb with ⟨-, H⟩
  iexact H

end Cert.KernelIdeal.Fr

end
-- ==== Proof.KI.HostKeep.lean ====
/-
  What the host operations around the kernel's region leave as it was.

  The three stretches of operations before the region write none of @main's five arguments, and neither do the four stretches after
  it: at each argument the contents the region is entered at are the launch contents, and the contents after the last stretch are
  those before the first.
-/
import proofs.«410706_j32547262169719_1_alg».proof.Proof.KI.Runs
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ)

/-! ## Before the region -/

/-- The operations before the region write none of the five arguments. -/
theorem V_arg0 (c : Dev nD) : V m c main_arg0 = m ((c : Thread nD τ).loc main_arg0) := by
  dsimp only [V, V0]
  simp only [pfx, hostOps0, hostOps0_1, hostOps0_2, List.flatten_cons, List.flatten_nil, List.append_nil, List.cons_append, List.nil_append]
  after_results
theorem V_arg1 (c : Dev nD) : V m c main_arg1 = m ((c : Thread nD τ).loc main_arg1) := by
  dsimp only [V, V0]
  simp only [pfx, hostOps0, hostOps0_1, hostOps0_2, List.flatten_cons, List.flatten_nil, List.append_nil, List.cons_append, List.nil_append]
  after_results
theorem V_arg2 (c : Dev nD) : V m c main_arg2 = m ((c : Thread nD τ).loc main_arg2) := by
  dsimp only [V, V0]
  simp only [pfx, hostOps0, hostOps0_1, hostOps0_2, List.flatten_cons, List.flatten_nil, List.append_nil, List.cons_append, List.nil_append]
  after_results
theorem V_arg3 (c : Dev nD) : V m c main_arg3 = m ((c : Thread nD τ).loc main_arg3) := by
  dsimp only [V, V0]
  simp only [pfx, hostOps0, hostOps0_1, hostOps0_2, List.flatten_cons, List.flatten_nil, List.append_nil, List.cons_append, List.nil_append]
  after_results
theorem V_arg4 (c : Dev nD) : V m c main_arg4 = m ((c : Thread nD τ).loc main_arg4) := by
  dsimp only [V, V0]
  simp only [pfx, hostOps0, hostOps0_1, hostOps0_2, List.flatten_cons, List.flatten_nil, List.append_nil, List.cons_append, List.nil_append]
  after_results

/-! ## After the region -/

/-- The operations after the region write none of the five arguments. -/
theorem tail_keeps (W : Valuation τ sig (Elt F)) (b : Ref sig .tc)
    (hb : b = main_arg0 ∨ b = main_arg1 ∨ b = main_arg2 ∨ b = main_arg3 ∨ b = main_arg4) :
    StableHlo.after (List.flatten (sfx (F := F))) W (Proc.devRef .tc b) = W (Proc.devRef .tc b) := by
  rcases hb with rfl | rfl | rfl | rfl | rfl
  all_goals
    simp only [sfx, hostOps1, hostOps1_1, hostOps1_2, hostOps1_3, List.flatten_cons, List.flatten_nil, List.append_nil, List.cons_append, List.nil_append]
    after_results_simp

end Cert.KernelIdeal.Fr

end
-- ==== Proof.KI.Launch.lean ====
/-
  The run of the idealized kernel, and its frame.

  The region is entered with every unscoped buffer whole. Two of the kernel's input windows read ONE array, the embedding matrix, at
  different blocks, so that array's full share is dealt to them in halves, every other window's array going to its window whole; the
  buffers no window reads or writes go around the region to the stretches of host operations after it. When the region is left the halves
  are put together again, the host operations run on whole buffers, and the final memory is read off: each array of the pipeline at what
  the write-backs leave (an input's never changes), every other buffer at what the host operations leave.
-/
import proofs.«410706_j32547262169719_1_alg».proof.Proof.KI.Frame
import proofs.«410706_j32547262169719_1_alg».proof.Proof.KI.Shares
import proofs.«410706_j32547262169719_1_alg».proof.Proof.KI.HostKeep
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

theorem sharesOK (c : Dev nD) : SharesOK (dats m 0 c) := ⟨by dsimp only [dats], by dsimp only [dats], by dsimp only [dats], by dsimp only [dats], by dsimp only [dats]⟩

/-- A core's buffer contents when the region is left: the two result arrays at what the write-backs leave, every other buffer as
    the region was entered. -/
def Wout (c : Dev nD) : Valuation τ sig (Elt F) :=
  Function.update (Function.update (V0 m c) (Proc.devRef .tc main_v4_0) ((dats m 0 c).arrAt 5 cfg0.N))
    (Proc.devRef .tc main_v4_1) ((dats m 0 c).arrAt 6 cfg0.N)

/-- A core's buffer contents at the end: after the stretches that follow the region. -/
def Wend (c : Dev nD) : Valuation τ sig (Elt F) := StableHlo.after (List.flatten (sfx (F := F))) (Wout m c)

theorem Wout_of_ne (c : Dev nD) (b : Ref sig .tc) (h5 : b ≠ main_v4_0) (h6 : b ≠ main_v4_1) :
    Wout m c (Proc.devRef .tc b) = V m c b := by
  unfold Wout
  rw [Function.update_of_ne (fun e => h6 (Proc.devRef_injective _ e)), Function.update_of_ne (fun e => h5 (Proc.devRef_injective _ e))]

/-- Every array of the pipeline ends at what the left-region contents say: an input array is never written, each result array is
    the contents named for it. -/
theorem hWout (c : Dev nD) (w : Fin cfg0.W) : (dats m 0 c).arrAt w cfg0.N = Wout m c (Proc.devRef .tc (Pipeline.arrRef spec0 w)) := by
  match w with
  | ⟨0, _⟩ => exact ((dats m 0 c).arrAt_in 0 rfl _).trans ((A_eq m c 0).trans (Wout_of_ne m c _ (by decide) (by decide)).symm)
  | ⟨1, _⟩ => exact ((dats m 0 c).arrAt_in 1 rfl _).trans ((A_eq m c 1).trans (Wout_of_ne m c _ (by decide) (by decide)).symm)
  | ⟨2, _⟩ => exact ((dats m 0 c).arrAt_in 2 rfl _).trans ((A_eq m c 2).trans (Wout_of_ne m c _ (by decide) (by decide)).symm)
  | ⟨3, _⟩ => exact ((dats m 0 c).arrAt_in 3 rfl _).trans ((A_eq m c 3).trans (Wout_of_ne m c _ (by decide) (by decide)).symm)
  | ⟨4, _⟩ => exact ((dats m 0 c).arrAt_in 4 rfl _).trans ((A_eq m c 4).trans (Wout_of_ne m c _ (by decide) (by decide)).symm)
  | ⟨5, _⟩ =>
    show (dats m 0 c).arrAt 5 cfg0.N = Wout m c (Proc.devRef .tc main_v4_0)
    unfold Wout
    rw [Function.update_of_ne (StableHlo.devRef_ne_of_ne (by decide)), Function.update_self]
  | ⟨6, _⟩ =>
    show (dats m 0 c).arrAt 6 cfg0.N = Wout m c (Proc.devRef .tc main_v4_1)
    unfold Wout
    rw [Function.update_self]

/-- The unscoped buffers that are no array of the pipeline: what bypasses the region. -/
abbrev restSet : Finset (Ref sig .tc) := (Finset.univ.filter fun b : Ref sig .tc => ¬ b.isScoped) \ Finset.univ.image (Pipeline.arrRef spec0)

/-- Off the two result arrays the left-region contents are the entry contents. -/
theorem rest_Wout (c : Dev nD) :
    (Pipeline.unscopedRest spec0 c (V m c) : sProp 𝕄) = Pipeline.unscopedRest spec0 c (fun b => Wout m c (Proc.devRef .tc b)) := by
  unfold Pipeline.unscopedRest
  refine bigSep_congr fun b hb => ?_
  have hb' := (Finset.mem_sdiff.mp hb).2
  dsimp only
  rw [Wout_of_ne m c b (fun e => hb' (e ▸ Finset.mem_image.mpr ⟨5, Finset.mem_univ _, rfl⟩))
    (fun e => hb' (e ▸ Finset.mem_image.mpr ⟨6, Finset.mem_univ _, rfl⟩))]

/-- What the run ends in, on every core: each array of the pipeline at what the write-backs leave, every bypassing buffer at
    what the stretches after the region leave. -/
def Post : PUnit × MemSt nD τ sig (Elt F) → Prop := fun r => ∀ c : Dev nD,
  (∀ w, r.2.mem ((cfg0.win w).arr.view.loc (c : Thread nD τ)) = (dats m 0 c).arrAt w cfg0.N)
  ∧ (∀ b ∈ restSet, r.2.mem ((c : Thread nD τ).loc b) = Wend m c (Proc.devRef .tc b))

set_option maxHeartbeats 1600000 in
set_option backward.isDefEq.respectTransparency.types false in
/-- At the compiled mesh, for any values, from any memory with zero counters: every weakly fair execution of @main terminates,
    nothing faulting, in a state of that description. Two windows read one array: its full share is dealt to them in halves when
    the region is entered and put together again when it is left. -/
theorem run_main : θ_run defs (onTc (τ := τ) (main (F := F))) (s₀ m ρ) (Post m) :=
  Pipeline.θ_run_region_noSem_pf_tail (fun p => (cfgs p).toPCfg (Val := Elt F)) (fun p => (cfgs p).toPCfg_adm) (dats m) () cellOf_inj (0 : Fin 1)
    winFacts₀0 (Pipeline.PreFacts.none _) emb₁ defs₀ Variants.none m ρ main (fun _ => Pipeline.chain ((sfx (F := F)).map StableHlo.seq))
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := fun c => ((arrays_iff (dats m 0 c) (sharesOK m c) (V m c)).2).trans
      (Entails.of_eq (congrArg (dats m 0 c).arrays (funext fun w => (A_eq m c w).symm))))
    (hpf := fun _ k => k.elim0)
    (X := fun _ => iprop(emp)) (Y := fun _ => iprop(emp))
    (Z := fun c => Pipeline.unscopedRest spec0 c (fun b => Wout m c (Proc.devRef .tc b)))
    (Z' := fun c => Pipeline.unscopedRest spec0 c (fun b => Wend m c (Proc.devRef .tc b)))
    (hX := fun c => by
      rw [Pipeline.unscopedRestP_none, rest_Wout m c]
      iintro H; isplitr; · iempintro
      iexact H)
    (hin := fun c => by iintro -; iempintro)
    (hout := fun c => by rw [scopedRest0_eq]; iintro -; isplitr <;> iempintro)
    (htail := fun c Q' => tail_shared (dats m 0 c) (sharesOK m c) Variants.none (Wout m c) (hWout m c) Q')
    (QY := fun c s => ∀ b ∈ restSet, s.mem ((c : Thread nD τ).loc b) = Wend m c (Proc.devRef .tc b))
    (hY := fun c s' => by
      iintro ⟨-, HU, HSI⟩
      unfold Pipeline.unscopedRest
      imodintro
      iapply (pointsTo_read_all restSet (fun b => (c : Thread nD τ).loc b) (fun b => Wend m c (Proc.devRef .tc b)) s')
      isplitl [HU] <;> iassumption)
    (hQ := fun s h c => ⟨(h c).1, (h c).2.2⟩)

/-! ## The result buffer and the frame -/

/-- The run ends with the result buffer at what the stretches after the region compute from the left-region contents, and every
    argument as it was launched: the embedding matrix is an array two input windows read and nothing writes; the other four arguments
    bypass the region, and neither the stretches before it nor those after it write an argument. -/
theorem run_res : θ_run defs (onTc (τ := τ) (main (F := F))) ⟨m, fun _ => 0, ρ⟩ (fun r => ∀ c : Dev nD,
      r.2.mem ((c.tc : Thread nD τ).loc main_v24) = Wend m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v24 (by decide),
     ((h c).1 1).trans (((dats m 0 c).arrAt_in 1 rfl _).trans ((A_eq m c 1).trans (V_arg0 m c))),
     ((h c).2 main_arg1 (by decide)).trans ((tail_keeps (Wout m c) main_arg1 (Or.inr (Or.inl rfl))).trans
       ((Wout_of_ne m c main_arg1 (by decide) (by decide)).trans (V_arg1 m c))),
     ((h c).2 main_arg2 (by decide)).trans ((tail_keeps (Wout m c) main_arg2 (Or.inr (Or.inr (Or.inl rfl)))).trans
       ((Wout_of_ne m c main_arg2 (by decide) (by decide)).trans (V_arg2 m c))),
     ((h c).2 main_arg3 (by decide)).trans ((tail_keeps (Wout m c) main_arg3 (Or.inr (Or.inr (Or.inr (Or.inl rfl))))).trans
       ((Wout_of_ne m c main_arg3 (by decide) (by decide)).trans (V_arg3 m c))),
     ((h c).2 main_arg4 (by decide)).trans ((tail_keeps (Wout m c) main_arg4 (Or.inr (Or.inr (Or.inr (Or.inr rfl))))).trans
       ((Wout_of_ne m c main_arg4 (by decide) (by decide)).trans (V_arg4 m c)))⟩) (run_main m ρ)

/-- The frame: every weakly fair execution terminates, nothing faulting, with the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_res m ρ)

end Cert.KernelIdeal.Fr

end
-- ==== Proof.Spec.lean ====
/-
  The mathematics both programs compute, as functions on the extended reals.

  For an embedding matrix x (4096 rows of 1024 entries) and a temperature T, the similarity zone of rows i and j is
  exp ((x_i · x_j / max (|x_i| |x_j|, eps)) / T), with |·| the Euclidean norm of a row; a row's first sum S1 adds the zone over
  every column j other than i, its second sum S2 adds the zone times the class-mask entry (row = the label of i, column j)
  over the same columns. The loss is minus the mean over the rows of log ((S2 + pos) / (pos + S1)), pos the zone of row i of
  x against row i of the anchor matrix. A sum over the columns other than i is written as the sum over all columns of a term
  that is zero at j = i: on the extended reals adding zero changes nothing, whatever the other terms are.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

abbrev SX : Shape := ⟨2, ![4096, 1024]⟩
abbrev SC : Shape := ⟨2, ![1000, 4096]⟩
abbrev SL : Shape := ⟨1, ![4096]⟩

/-- The guard under the cosine's denominator: the value of the f32 word both programs carry. -/
def eps : EReal := Ideal.ofBits .f32 0x322BCC77#32

/-- The zone of two rows given as functions of the coordinate: exp ((u · v / max (|u| |v|, eps)) / T). -/
def zoneOf (u v : Fin 1024 → EReal) (T : EReal) : EReal :=
  Ideal.exp (Ideal.div (Ideal.div (∑ d : Fin 1024, u d * v d)
    (max (Ideal.sqrt (∑ d : Fin 1024, u d * u d) * Ideal.sqrt (∑ d : Fin 1024, v d * v d)) eps)) T)

/-- Row i of a matrix. -/
def row (x : SX.Idx → EReal) (i : Fin 4096) : Fin 1024 → EReal := fun d => x (ix2 i d)

/-- The zone of rows i and j of x. -/
def zone (x : SX.Idx → EReal) (T : EReal) (i j : Fin 4096) : EReal := zoneOf (row x i) (row x j) T

/-- The zone off the diagonal, zero on it. -/
def offDiag (x : SX.Idx → EReal) (T : EReal) (i j : Fin 4096) : EReal := if i = j then 0 else zone x T i j

/-- The class mask's entry for row i at column j: the mask's row is the label of i (zero for a label outside the mask's rows;
    the claims are under the hypothesis that no label is). -/
def maskAt (cls : SC.Idx → BitVec 32) (lab : SL.Idx → BitVec 32) (i j : Fin 4096) : EReal :=
  if h : (lab (ix1 i)).toNat < 1000 then (((cls (ix2 ⟨(lab (ix1 i)).toNat, h⟩ j)).toInt : ℝ) : EReal) else 0

/-- A row's sum of the zone over the other rows. -/
def S1 (x : SX.Idx → EReal) (T : EReal) (i : Fin 4096) : EReal := ∑ j : Fin 4096, offDiag x T i j

/-- A row's sum of the zone times the class mask over the other rows. -/
def S2 (x : SX.Idx → EReal) (T : EReal) (cls : SC.Idx → BitVec 32) (lab : SL.Idx → BitVec 32) (i : Fin 4096) : EReal :=
  ∑ j : Fin 4096, offDiag x T i j * maskAt cls lab i j

/-- The zone of row i of x against row i of the anchor. -/
def pos (x a : SX.Idx → EReal) (T : EReal) (i : Fin 4096) : EReal := zoneOf (row x i) (row a i) T

/-- The loss: minus the mean over the rows of log ((S2 + pos) / (pos + S1)). -/
def loss (x a : SX.Idx → EReal) (cls : SC.Idx → BitVec 32) (lab : SL.Idx → BitVec 32) (T : EReal) : EReal :=
  -(Ideal.div (∑ i : Fin 4096, Ideal.log (Ideal.div (S2 x T cls lab i + pos x a T i) (pos x a T i + S1 x T i)))
      (Ideal.ofBits .f32 0x45800000#32))

/-- The loss from any two row-sum vectors: minus the mean over the rows of log ((s2 + pos) / (pos + s1)). -/
def lossOf (s1 s2 : Fin 4096 → EReal) (x a : SX.Idx → EReal) (T : EReal) : EReal :=
  -(Ideal.div (∑ i : Fin 4096, Ideal.log (Ideal.div (s2 i + pos x a T i) (pos x a T i + s1 i)))
      (Ideal.ofBits .f32 0x45800000#32))

theorem loss_eq_lossOf (x a : SX.Idx → EReal) (cls : SC.Idx → BitVec 32) (lab : SL.Idx → BitVec 32) (T : EReal) :
    loss x a cls lab T = lossOf (S1 x T) (S2 x T cls lab) x a T := rfl

/-- The labels lie in the class mask's rows. -/
def LabelsInRange (lab : SL.Idx → BitVec 32) : Prop := ∀ i : Fin 4096, 0 ≤ (lab (ix1 i)).toInt ∧ (lab (ix1 i)).toInt < 1000

theorem LabelsInRange.toNat_lt {lab : SL.Idx → BitVec 32} (h : LabelsInRange lab) (i : Fin 4096) : (lab (ix1 i)).toNat < 1000 := by
  have h0 := (h i).1
  have h1 := (h i).2
  have := BitVec.toInt_eq_toNat_cond (lab (ix1 i))
  have hlt := (lab (ix1 i)).isLt
  split_ifs at this <;> omega

/-- A sum over 4096 columns is the sum over 16 tiles of 256 columns: column k * 256 + c of tile k. -/
theorem sum_tiles (f : Fin 4096 → EReal) :
    ∑ j : Fin 4096, f j = ∑ k : Fin 16, ∑ c : Fin 256, f ⟨k.val * 256 + c.val, by have := k.isLt; have := c.isLt; omega⟩ := by
  rw [← Finset.sum_product', Finset.univ_product_univ, ← (finProdFinEquiv (m := 16) (n := 256)).sum_comp]
  refine Finset.sum_congr rfl fun p _ => congrArg f (Fin.ext ?_)
  show p.2.val + 256 * p.1.val = p.1.val * 256 + p.2.val
  omega

end Cert.Contrast

end
-- ==== Proof.KI.HostValue.lean ====
/-
  What the host operations around the kernel's region compute.

  Before the region: the labels are reshaped to a column, the class mask is converted to floats and padded with 24 zero rows, the
  temperature is reshaped to a 1 x 1 array. After the region: from the two columns the region leaves (the rows' first and second
  sums) and the arguments, the positive term of each row, the logarithm of the ratio, and minus the mean over the rows: the loss
  from those two columns.
-/
import proofs.«410706_j32547262169719_1_alg».proof.Proof.KI.Runs
import proofs.«410706_j32547262169719_1_alg».proof.Proof.KI.HostKeep
import proofs.«410706_j32547262169719_1_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout
import Idealize.ShloMosaic.Lib.ValueIdxRank1
import Idealize.ShloMosaic.Lib.KernelVsHost

set_option maxRecDepth 16384

noncomputable section

namespace Cert.KernelSide

open Idealize.ShloMosaic Idealize.ShloMosaic.ValueIdx Idealize.ShloMosaic.TcCoe Idealize.ShloMosaic.StableHlo Idealize.SL.Sem
open Cert.KernelIdeal Cert.KernelIdeal.Gen Cert.KernelIdeal.Fr

/-! ## Before the region -/

section Prefix

variable (m : (ℓ : Loc nD τ sig) → Buf (Elt Ideal) ℓ)

/-- A vector of n entries cast to a column of n rows reads, at (i, z), entry i. -/
private theorem shapeCast_col_apply {α : Type} {n : Nat} (x : (⟨1, ![n]⟩ : Shape).Idx → α)
    (h : (⟨1, ![n]⟩ : Shape).ShapeCasts ⟨2, ![n, 1]⟩) (i : Fin n) (z : Fin 1) :
    shapeCast ⟨2, ![n, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- The temperature as the region finds it: the 1 x 1 array's entry is the scalar argument. -/
theorem V_v3_apply (c : Dev nD) :
    (V m c main_v3 : S1x1.Idx → EReal) (ix2 0 0) = (m ((c : Thread nD τ).loc main_arg4) : S_.Idx → EReal) (fun a => a.elim0) := by
  have e : (V m c main_v3 : S1x1.Idx → EReal)
      = shapeCast S1x1 (m ((c : Thread nD τ).loc main_arg4) : S_.Idx → EReal) shapeCasts_S_S1x1 := by
    dsimp only [V, V0]
    simp only [pfx, hostOps0, hostOps0_1, hostOps0_2, List.flatten_cons, List.flatten_nil, List.append_nil, List.cons_append, List.nil_append]
    after_results
    rfl
  rw [e]
  unfold shapeCast
  exact congrArg _ (funext fun a => a.elim0)

/-- The labels as the region finds them: the column's row i is label i. -/
theorem V_v0_apply (c : Dev nD) (i : Fin 4096) :
    (V m c main_v0 : S4096x1.Idx → BitVec 32) (ix2 i 0) = (m ((c : Thread nD τ).loc main_arg3) : S4096.Idx → BitVec 32) (ix1 i) := by
  have e : (V m c main_v0 : S4096x1.Idx → BitVec 32)
      = shapeCast S4096x1 (m ((c : Thread nD τ).loc main_arg3) : S4096.Idx → BitVec 32) shapeCasts_S4096_S4096x1 := by
    dsimp only [V, V0]
    simp only [pfx, hostOps0, hostOps0_1, hostOps0_2, List.flatten_cons, List.flatten_nil, List.append_nil, List.cons_append, List.nil_append]
    after_results
    rfl
  rw [e]
  exact shapeCast_col_apply _ _ i 0

/-- The class mask as the region finds it: rows below 1000 are the mask's entries read as numbers, the 24 rows after them zero. -/
theorem V_v2_apply (c : Dev nD) (q : Fin 1024) (j : Fin 4096) :
    (V m c main_v2 : S1024x4096.Idx → EReal) (ix2 q j)
      = if h : q.val < 1000 then
          ((((m ((c : Thread nD τ).loc main_arg2) : S1000x4096.Idx → BitVec 32) (ix2 ⟨q.val, h⟩ j)).toInt : ℝ) : EReal)
        else 0 := by
  have e : (V m c main_v2 : S1024x4096.Idx → EReal)
      = pad S1024x4096 ![0, 0] ![24, 0] ![0, 0]
          (sitofp (F := Ideal) .bf16 (m ((c : Thread nD τ).loc main_arg2) : S1000x4096.Idx → BitVec 32))
          (sitofp (F := Ideal) .bf16 (constantI S_ 32 0#32)) pads_S1000x4096_S1024x4096_0240_000 h_S_ := by
    dsimp only [V, V0]
    simp only [pfx, hostOps0, hostOps0_1, hostOps0_2, List.flatten_cons, List.flatten_nil, List.append_nil, List.cons_append, List.nil_append]
    after_results
    rfl
  rw [e]
  by_cases h : q.val < 1000
  · rw [dif_pos h]
    refine (pad_apply_of_inside _ _ _ _ _ _ _ (ix2 q j) (ix2 (⟨q.val, h⟩ : Fin 1000) j) fun a => ?_).trans rfl
    match a with
    | ⟨0, _⟩ => show q.val = 0 + q.val * (0 + 1); omega
    | ⟨1, _⟩ => show j.val = 0 + j.val * (0 + 1); omega
  · rw [dif_neg h]
    refine (pad_apply_of_not_inside _ _ _ _ _ _ _ (ix2 q j) (0 : Fin 2) ?_).trans ?_
    · show ¬(0 ≤ q.val ∧ (q.val - 0) % (0 + 1) = 0 ∧ (q.val - 0) / (0 + 1) < 1000)
      omega
    · show (((0#32 : BitVec 32).toInt : ℝ) : EReal) = 0
      simp

end Prefix

/-! ## After the region -/

section Suffix

/-- The host's sums of the rows of a 4096 x 1024 array from the zero word: at row i the sum over the columns. -/
private theorem hostRowSum_apply (x : FVec Ideal S4096x1024 .f32) (h' : S4096x1024.ReducesTo [1] S4096) {u : Shape} (hu : 0 < u.numel)
    (i : Fin 4096) :
    Host.reduceAdd x (constant (F := Ideal) u .f32 0x00000000#32) h' hu (ix1 i) = ∑ d : Fin 1024, x (ix2 i d) := by
  have h : S4096x1024.Reduces [1] S4096 := by decide
  show Ideal.hostReduceAdd h' x (Ideal.ofBits .f32 0x00000000#32) (ix1 i) = _
  rw [Ideal.hostReduceAdd_single h' h, Ideal.ofBits_zero_f32, zero_add]
  exact Finset.sum_congr rfl fun k _ =>
    congrArg x (funext fun a => Fin.ext (by match a with | ⟨0, _⟩ => rfl | ⟨1, _⟩ => rfl))

/-- The host's sum of a vector of 4096 entries from the zero word, into the scalar shape: the sum of the entries. -/
private theorem hostTotalSum_apply (x : FVec Ideal S4096 .f32) (h' : S4096.ReducesTo [0] S_) {u : Shape} (hu : 0 < u.numel) (j : S_.Idx) :
    Host.reduceAdd x (constant (F := Ideal) u .f32 0x00000000#32) h' hu j = ∑ i : Fin 4096, x (ix1 i) := by
  show Ideal.hostReduceAdd h' x (Ideal.ofBits .f32 0x00000000#32) j = _
  rw [Ideal.hostReduceAdd_total h' (fun b => b.elim0), Ideal.ofBits_zero_f32, zero_add,
    ← Equiv.sum_comp (idxEquiv1 (n := 4096)).symm x]
  rfl

/-- A scalar broadcast to a vector reads the scalar everywhere. -/
private theorem bcastScalar_apply {α : Type} (y : S_.Idx → α) (h : S_.BroadcastsInDim S4096 (![] : Fin 0 → Fin S4096.rank)) (i : S4096.Idx) :
    broadcastInDim S4096 ![] h y i = y (fun a => a.elim0) :=
  broadcastInDim_apply _ h y i (fun a => a.elim0) (fun a => a.elim0)

/-- A column of n rows cast to a vector of n entries reads, at i, row i. -/
private theorem shapeCast_uncol_apply {α : Type} {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The positive terms as the host computes them from the two matrices and the temperature. -/
private def posVec (x a : FVec Ideal S4096x1024 .f32) (t : FVec Ideal S_ .f32) : FVec Ideal S4096 .f32 :=
  Host.exp (Host.divf
    (Host.divf (Host.reduceAdd (mulf x a) (constant (F := Ideal) S_ .f32 0x00000000#32) reducesTo_S4096x1024_S4096_d1 h_S_)
      (maximumf
        (mulf (Host.sqrt (Host.reduceAdd (mulf x x) (constant (F := Ideal) S_ .f32 0x00000000#32) reducesTo_S4096x1024_S4096_d1 h_S_))
          (Host.sqrt (Host.reduceAdd (mulf a a) (constant (F := Ideal) S_ .f32 0x00000000#32) reducesTo_S4096x1024_S4096_d1 h_S_)))
        (broadcastInDim S4096 ![] bcast_S_S4096 (constant (F := Ideal) S_ .f32 0x322BCC77#32))))
    (broadcastInDim S4096 ![] bcast_S_S4096 t))

/-- Entry i of them is the zone of row i of the first matrix against row i of the second. -/
private theorem posVec_apply (x a : FVec Ideal S4096x1024 .f32) (t : FVec Ideal S_ .f32) (i : Fin 4096) :
    posVec x a t (ix1 i) = Cert.Contrast.pos x a (t (fun b => b.elim0)) i := by
  unfold posVec Cert.Contrast.pos Cert.Contrast.zoneOf Cert.Contrast.row Cert.Contrast.eps
  refine congrArg Ideal.exp ?_
  refine congrArg₂ Ideal.div (congrArg₂ Ideal.div ?_ (congrArg₂ max (congrArg₂ (fun p q : EReal => p * q) ?_ ?_) ?_)) ?_
  · exact hostRowSum_apply _ _ _ i
  · exact congrArg Ideal.sqrt (hostRowSum_apply _ _ _ i)
  · exact congrArg Ideal.sqrt (hostRowSum_apply _ _ _ i)
  · exact bcastScalar_apply _ _ _
  · exact bcastScalar_apply t _ _

/-- The scalar the host computes from the two columns the region leaves, the two matrices and the temperature. -/
private def tailVec (s1 s2 : FVec Ideal S4096x1 .f32) (x a : FVec Ideal S4096x1024 .f32) (t : FVec Ideal S_ .f32) : FVec Ideal S_ .f32 :=
  Host.negf (Host.divf
    (Host.reduceAdd
      (Host.log (Host.divf (addf (shapeCast S4096 s2 shapeCasts_S4096x1_S4096) (posVec x a t))
        (addf (posVec x a t) (shapeCast S4096 s1 shapeCasts_S4096x1_S4096))))
      (constant (F := Ideal) S_ .f32 0x00000000#32) reducesTo_S4096_S_d0 h_S_)
    (constant (F := Ideal) S_ .f32 0x45800000#32))

/-- It is the loss from those two columns. -/
private theorem tailVec_apply (s1 s2 : FVec Ideal S4096x1 .f32) (x a : FVec Ideal S4096x1024 .f32) (t : FVec Ideal S_ .f32) (j : S_.Idx) :
    tailVec s1 s2 x a t j
      = Cert.Contrast.lossOf (fun i => s1 (ix2 i 0)) (fun i => s2 (ix2 i 0)) x a (t (fun b => b.elim0)) := by
  unfold tailVec Cert.Contrast.lossOf
  refine congrArg (fun z : EReal => -z) ?_
  refine congrArg₂ Ideal.div ?_ rfl
  refine (hostTotalSum_apply _ _ _ j).trans ?_
  refine Finset.sum_congr rfl fun i _ => ?_
  refine congrArg Ideal.log ?_
  refine congrArg₂ Ideal.div (congrArg₂ (fun p q : EReal => p + q) ?_ ?_) (congrArg₂ (fun p q : EReal => p + q) ?_ ?_)
  · exact shapeCast_uncol_apply _ _ i
  · exact posVec_apply x a t i
  · exact posVec_apply x a t i
  · exact shapeCast_uncol_apply _ _ i

/-- The operations after the region leave, in the result, the loss from the two columns the region left. -/
theorem tail_value (W : Valuation τ sig (Elt Ideal)) :
    (StableHlo.after (List.flatten (sfx (F := Ideal))) W (Proc.devRef .tc main_v24) : S_.Idx → EReal)
      = fun _ => Cert.Contrast.lossOf
          (fun i => (W (Proc.devRef .tc main_v4_0) : S4096x1.Idx → EReal) (ix2 i 0))
          (fun i => (W (Proc.devRef .tc main_v4_1) : S4096x1.Idx → EReal) (ix2 i 0))
          (W (Proc.devRef .tc main_arg0)) (W (Proc.devRef .tc main_arg1))
          ((W (Proc.devRef .tc main_arg4) : S_.Idx → EReal) (fun a => a.elim0)) := by
  have e : (StableHlo.after (List.flatten (sfx (F := Ideal))) W (Proc.devRef .tc main_v24) : S_.Idx → EReal)
      = tailVec (W (Proc.devRef .tc main_v4_0)) (W (Proc.devRef .tc main_v4_1)) (W (Proc.devRef .tc main_arg0))
          (W (Proc.devRef .tc main_arg1)) (W (Proc.devRef .tc main_arg4)) := by
    simp only [sfx, hostOps1, hostOps1_1, hostOps1_2, hostOps1_3, List.flatten_cons, List.flatten_nil, List.append_nil, List.cons_append, List.nil_append]
    after_results_simp
    rfl
  rw [e]
  funext j
  exact tailVec_apply _ _ _ _ _ j

end Suffix

end Cert.KernelSide

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.PayValue.lean ====
/-
  The values the kernel body's pure steps compute, read at an index.

  At one grid point the body holds a 256-row tile xi and a 256-row tile xk of the embedding matrix, the temperature T, a column
  of 256 labels and a 1024 x 256 block of the class mask. Its pure steps are read here element by element on the extended reals:
  the similarity block at (r, c) is exp ((xi_r . xk_c / max (|xi_r| |xk_c|, eps)) / T); the block with its diagonal removed is zero
  where the global row index equals the global column index and the similarity elsewhere; each accumulator step adds to the
  previous column the row sums of a block; the mask block at (r, c) is the class mask's row named by the label of row r, at c.
-/
import proofs.«410706_j32547262169719_1_alg».proof.Proof.Gen.KernelIdeal.Skeleton
import proofs.«410706_j32547262169719_1_alg».proof.Proof.Spec
import proofs.«410706_j32547262169719_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.KernelSide

open Idealize.ShloMosaic Idealize.ShloMosaic.ValueIdx Cert.KernelIdeal Cert.KernelIdeal.Gen

/-! ## Rows summed into a column -/

/-- The index a reduction along axis 1 inserts coordinate k into, at row r, is (r, k). -/
theorem lift_ix1 {m n : Nat} (h : (⟨2, ![m, n]⟩ : Shape).Reduces [1] ⟨1, ![m]⟩) (r : Fin m) (k : Fin n) :
    h.lift (ix1 r) k = ix2 r k :=
  funext fun a => Fin.ext (by match a with | ⟨0, _⟩ => rfl | ⟨1, _⟩ => rfl)

/-- A vector of m entries cast to a column of m rows reads, at (r, z), entry r. -/
theorem shapeCast_a_a1_apply {α : Type} {m : Nat} (x : (⟨1, ![m]⟩ : Shape).Idx → α)
    (h : (⟨1, ![m]⟩ : Shape).ShapeCasts ⟨2, ![m, 1]⟩) (r : Fin m) (z : Fin 1) :
    shapeCast ⟨2, ![m, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- The sums of the rows of an m x n block, kept as a column: at (r, z) the sum over the columns of row r. -/
theorem rowSum_apply {φ : FTy} {m n : Nat} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (r : Fin m) (z : Fin 1) :
    shapeCast ⟨2, ![m, 1]⟩ (multiReduction .add [1] ⟨1, ![m]⟩ v acc h hφ hacc) hc (ix2 r z) = ∑ d : Fin n, v (ix2 r d) := by
  refine (shapeCast_a_a1_apply _ hc r z).trans ?_
  refine (Ideal.multiReduction_add_single v acc h hφ hacc (ix1 r)).trans ?_
  exact Finset.sum_congr rfl fun k _ => congrArg v (lift_ix1 h r k)

/-! ## The accumulators' reset -/

theorem pay4_apply (j : S256x1.Idx) : k0_pay4 (F := Ideal) j = 0 := Ideal.ofBits_zero_f32
theorem pay5_apply (j : S256x1.Idx) : k0_pay5 (F := Ideal) j = 0 := Ideal.ofBits_zero_f32

/-! ## The similarity block -/

/-- A column broadcast across b columns reads, at (p, c), the column's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast over a block reads that entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The similarity block at (r, c): the zone of row r of the first tile and row c of the second. -/
theorem pay6_apply (xi xk : Vec Ideal S256x1024 .f32) (tmp : Vec Ideal S1x1 .f32) (r c : Fin 256) :
    k0_pay6 (F := Ideal) xi xk tmp (ix2 r c)
      = Cert.Contrast.zoneOf (fun d => xi (ix2 r d)) (fun d => xk (ix2 c d)) (tmp (ix2 0 0)) := by
  unfold k0_pay6 Cert.Contrast.zoneOf Cert.Contrast.eps
  refine congrArg Ideal.exp ?_
  refine congrArg₂ Ideal.div (congrArg₂ Ideal.div ?_ (congrArg₂ max (congrArg₂ (fun a b : EReal => a * b) ?_ ?_) rfl)) ?_
  · -- the product of the two tiles, the second transposed
    refine (Cert.Lib.PlainDot.matmul_plain_zero_ix2 256 1024 256 none _ _ r c).trans ?_
    refine Finset.sum_congr rfl fun d _ => ?_
    exact congrArg (fun b : EReal => xi (ix2 r d) * b) (transpose_ix2_apply _ _ d c)
  · -- the norm of row r of the first tile
    refine (broadcastTo_a1_ab_apply _ _ r c).trans ?_
    exact congrArg Ideal.sqrt (rowSum_apply _ _ _ _ _ _ r 0)
  · -- the norm of row c of the second tile
    refine (broadcastTo_1b_ab_apply _ _ r c).trans ?_
    refine (transpose_ix2_apply _ _ (0 : Fin 1) c).trans ?_
    exact congrArg Ideal.sqrt (rowSum_apply _ _ _ _ _ _ c 0)
  · -- the temperature
    refine (broadcastTo_11_ab_apply _ _ r c).trans ?_
    exact congrFun (shapeCast_self tmp _) _

/-! ## The diagonal removed -/

/-- The word of tile i's offset plus the word of a coordinate r below 256 is the natural number i * 256 + r: nothing wraps. -/
theorem tileWord_toNat (i : Fin 16) (r : Fin 256) :
    (IntOp.addi (Scalar.muli (BitVec.ofNat 32 i.val) 256#32) (BitVec.ofNat 32 r.val)).toNat = i.val * 256 + r.val := by
  have hi := i.isLt
  have hr := r.isLt
  show (BitVec.ofNat 32 i.val * 256#32 + BitVec.ofNat 32 r.val).toNat = _
  rw [BitVec.toNat_add, BitVec.toNat_mul, BitVec.toNat_ofNat, BitVec.toNat_ofNat, BitVec.toNat_ofNat]
  omega

/-- A select on the equality of two words is the choice on the equality of their natural numbers. -/
theorem select_cmpi_eq {α : Type} (x y : BitVec 32) (A B : α) :
    Scalar.select (IntOp.cmpi .eq x y) A B = if x.toNat = y.toNat then A else B := by
  by_cases h : x = y
  · subst h
    simp [Scalar.select, IntOp.cmpi]
  · have hn : ¬x.toNat = y.toNat := fun e => h (BitVec.eq_of_toNat_eq e)
    have hb : (x == y) = false := beq_eq_false_iff_ne.mpr h
    simp [Scalar.select, IntOp.cmpi, hb, hn]

/-- The block with its diagonal removed, at (r, c) of tile (i, k): zero where the global row index equals the global column
    index, the block elsewhere. -/
theorem pay1_apply (i k : Fin 16) (v28 : FVec Ideal S256x256 .f32) (r c : Fin 256) :
    k0_pay1 (F := Ideal) (BitVec.ofNat 32 i.val) (BitVec.ofNat 32 k.val) v28 (ix2 r c)
      = if i.val * 256 + r.val = k.val * 256 + c.val then 0 else v28 (ix2 r c) := by
  have e0 : iota .tc S256x256 32 [0] iota_S256x256_d0_w32 (ix2 r c) = BitVec.ofNat 32 r.val :=
    iota_single_apply .tc S256x256 32 0 iota_S256x256_d0_w32 (ix2 r c)
  have e1 : iota .tc S256x256 32 [1] iota_S256x256_d1_w32 (ix2 r c) = BitVec.ofNat 32 c.val :=
    iota_single_apply .tc S256x256 32 1 iota_S256x256_d1_w32 (ix2 r c)
  unfold k0_pay1
  show Scalar.select (IntOp.cmpi .eq
      (IntOp.addi (Scalar.muli (BitVec.ofNat 32 i.val) 256#32) (iota .tc S256x256 32 [0] iota_S256x256_d0_w32 (ix2 r c)))
      (IntOp.addi (Scalar.muli (BitVec.ofNat 32 k.val) 256#32) (iota .tc S256x256 32 [1] iota_S256x256_d1_w32 (ix2 r c))))
      (Ideal.ofBits .f32 0x00000000#32) (v28 (ix2 r c)) = _
  rw [e0, e1, select_cmpi_eq, tileWord_toNat, tileWord_toNat, Ideal.ofBits_zero_f32]

/-! ## The accumulators' steps -/

/-- The first accumulator's step at row r: the previous value plus the row sum of the block with its diagonal removed. -/
theorem pay2_apply (a0 a1 : BitVec 32) (v28 : FVec Ideal S256x256 .f32) (prev : Vec Ideal S256x1 .f32) (r : Fin 256) :
    k0_pay2 (F := Ideal) a0 a1 v28 prev (ix2 r 0)
      = prev (ix2 r 0) + ∑ c : Fin 256, k0_pay1 (F := Ideal) a0 a1 v28 (ix2 r c) := by
  unfold k0_pay2
  refine congrArg₂ (fun a b : EReal => a + b) ?_ ?_
  · exact congrFun (shapeCast_self prev _) _
  · exact rowSum_apply _ _ _ _ _ _ r 0

/-- The second accumulator's step at row r: the previous value plus the row sum of that block times the mask block. -/
theorem pay3_apply (a0 a1 : BitVec 32) (v28 v39 : FVec Ideal S256x256 .f32) (prev : Vec Ideal S256x1 .f32) (r : Fin 256) :
    k0_pay3 (F := Ideal) a0 a1 v28 v39 prev (ix2 r 0)
      = prev (ix2 r 0) + ∑ c : Fin 256, k0_pay1 (F := Ideal) a0 a1 v28 (ix2 r c) * v39 (ix2 r c) := by
  unfold k0_pay3
  refine congrArg₂ (fun a b : EReal => a + b) ?_ ?_
  · exact congrFun (shapeCast_self prev _) _
  · exact rowSum_apply _ _ _ _ _ _ r 0

/-! ## The mask block -/

/-- The indicator that two words are equal, widened to 32 bits and read as a number: one where their natural numbers agree, zero
    elsewhere. -/
theorem onehot_word (x y : BitVec 32) :
    ((((IntOp.cmpi .eq x y).setWidth 32).toInt : ℝ) : EReal) = if x.toNat = y.toNat then 1 else 0 := by
  by_cases h : x = y
  · subst h
    simp [IntOp.cmpi]
  · have hn : ¬x.toNat = y.toNat := fun e => h (BitVec.eq_of_toNat_eq e)
    have hb : (x == y) = false := beq_eq_false_iff_ne.mpr h
    simp [IntOp.cmpi, hb, hn]

/-- The mask block at (r, c): the indicator row of the label of r has its single one at the label, so its product with the class
    mask's block is the block's row at the label. -/
theorem pay7_apply (lbl : Vec Ideal S256x1 .i32) (cls : Vec Ideal S1024x256 .bf16) (r c : Fin 256) (q : Fin 1024)
    (hq : (lbl (ix2 r 0)).toNat = q.val) :
    k0_pay7 (F := Ideal) lbl cls (ix2 r c) = cls (ix2 q c) := by
  unfold k0_pay7
  refine (Cert.Lib.PlainDot.matmul_plain_zero_ix2 256 1024 256 none _ _ r c).trans ?_
  have hterm : ∀ q' : Fin 1024,
      (truncf .bf16 (sitofp .f32 (extui 32 (cmpi .eq (iota .tc S256x1024 32 [1] iota_S256x1024_d1_w32)
          (broadcastTo S256x1024 (shapeCast S256x1 lbl shapeCasts_S256x1_S256x1) broadcasts_S256x1_S256x1024)) natLt_1_32))
          bitsLt_bf16_f32 : FVec Ideal S256x1024 .bf16) (ix2 r q')
        * (shapeCast S1024x256 cls shapeCasts_S1024x256_S1024x256) (ix2 q' c)
      = (if q'.val = q.val then (1 : EReal) else 0) * cls (ix2 q' c) := by
    intro q'
    have ei : iota .tc S256x1024 32 [1] iota_S256x1024_d1_w32 (ix2 r q') = BitVec.ofNat 32 q'.val :=
      iota_single_apply .tc S256x1024 32 1 iota_S256x1024_d1_w32 (ix2 r q')
    have eb : broadcastTo S256x1024 (shapeCast S256x1 lbl shapeCasts_S256x1_S256x1) broadcasts_S256x1_S256x1024 (ix2 r q')
        = lbl (ix2 r 0) :=
      (broadcastTo_a1_ab_apply _ _ r q').trans (congrFun (shapeCast_self lbl _) _)
    have ec : (shapeCast S1024x256 cls shapeCasts_S1024x256_S1024x256) (ix2 q' c) = cls (ix2 q' c) :=
      congrFun (shapeCast_self cls _) _
    have hw : (BitVec.ofNat 32 q'.val).toNat = q'.val := by
      have := q'.isLt
      rw [BitVec.toNat_ofNat]; omega
    rw [ec]
    show ((((IntOp.cmpi .eq (iota .tc S256x1024 32 [1] iota_S256x1024_d1_w32 (ix2 r q'))
        (broadcastTo S256x1024 (shapeCast S256x1 lbl shapeCasts_S256x1_S256x1) broadcasts_S256x1_S256x1024 (ix2 r q'))).setWidth 32).toInt
        : ℝ) : EReal) * cls (ix2 q' c) = _
    rw [ei, eb, onehot_word, hw, hq]
  refine (Finset.sum_congr rfl fun q' _ => hterm q').trans ?_
  rw [Finset.sum_eq_single q]
  · rw [if_pos rfl, one_mul]
  · intro b _ hb
    rw [if_neg (fun e => hb (Fin.ext e)), zero_mul]
  · intro hn
    exact absurd (Finset.mem_univ q) hn

end Cert.KernelSide

end
-- ==== Proof.KI.Value.lean ====
/-
  The values the idealized kernel leaves in its two result columns.

  The grid has 16 x 16 points, the row tile outermost: point t works on row tile t / 16 and column tile t % 16. At a point each
  window's block is read off its array: rows (t / 16) * 256 … of the embedding array, rows (t % 16) * 256 … of the same array, the
  temperature, the labels of those rows, the columns (t % 16) * 256 … of the padded class mask. One point's step adds to the two
  256-row accumulators, at row r, the sum over the column tile's 256 columns of the off-diagonal zone of the global row and column
  (times the class-mask entry for the second). By induction on the column tile the accumulators hold the sums over the tiles so
  far; after a row tile's last column tile they hold the sums over all 4096 columns, which is when they are written back: the two
  result columns end holding the first and the second sum of every row.
-/
import proofs.«410706_j32547262169719_1_alg».proof.Proof.KI.Frame
import proofs.«410706_j32547262169719_1_alg».proof.Proof.KI.HostValue
import proofs.«410706_j32547262169719_1_alg».proof.Proof.PayValue
import proofs.«410706_j32547262169719_1_alg».proof.Proof.Spec
import Idealize.ShloMosaic.Lib.Pipeline.Value

set_option maxRecDepth 16384

noncomputable section

namespace Cert.KernelSide

open Cert.KernelIdeal Cert.KernelIdeal.Gen Cert.KernelIdeal.Fr
open Idealize.ShloMosaic Idealize.ShloMosaic.ValueIdx Idealize.ShloMosaic.TcCoe
open Idealize.ShloMosaic.Pipeline (Dat)

variable (m : (ℓ : Loc nD τ sig) → Buf (Elt Ideal) ℓ)

/-- The embedding array, the temperature, the class mask and the labels as the launch finds them. -/
abbrev xE (c : Dev nD) : S4096x1024.Idx → EReal := m ((c : Thread nD τ).loc main_arg0)
abbrev TE (c : Dev nD) : EReal := (m ((c : Thread nD τ).loc main_arg4) : S_.Idx → EReal) (fun a => a.elim0)
abbrev clsE (c : Dev nD) : S1000x4096.Idx → BitVec 32 := m ((c : Thread nD τ).loc main_arg2)
abbrev labE (c : Dev nD) : S4096.Idx → BitVec 32 := m ((c : Thread nD τ).loc main_arg3)

/-- The grid's coordinates of point t: the row tile t / 16 and the column tile t % 16. -/
theorem coords_0 : ∀ t : Fin cfg0.N, (grid0.coords t 0).val = t.val / 16 :=
  (by decide +kernel : ∀ t : Fin grid0.N, (grid0.coords t 0).val = t.val / 16)
theorem coords_1 : ∀ t : Fin cfg0.N, (grid0.coords t 1).val = t.val % 16 :=
  (by decide +kernel : ∀ t : Fin grid0.N, (grid0.coords t 1).val = t.val % 16)

/-- The windows' block indices over the grid. -/
theorem idx_facts : ∀ t : Fin cfg0.N,
    win0_0.index t (0 : Fin 2) = 0 ∧ win0_0.index t (1 : Fin 2) = 0
    ∧ win0_1.index t (0 : Fin 2) = t.val / 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0
    ∧ win0_4.index t (0 : Fin 2) = 0 ∧ win0_4.index t (1 : Fin 2) = t.val % 16
    ∧ win0_5.index t (0 : Fin 2) = t.val / 16 ∧ win0_5.index t (1 : Fin 2) = 0
    ∧ win0_6.index t (0 : Fin 2) = t.val / 16 ∧ win0_6.index t (1 : Fin 2) = 0 :=
  (by decide +kernel : ∀ t : Fin grid0.N, _)

theorem tN (t : Fin cfg0.N) : t.val < 256 := lt_of_lt_of_eq t.isLt N_0

/-- The global row index of row r of point t's row tile, and the global column index of column cc of its column tile. -/
abbrev rowOf (t : Fin cfg0.N) (r : Fin 256) : Fin 4096 := ⟨t.val / 16 * 256 + r.val, by have := tN t; have := r.isLt; omega⟩
abbrev colOf (t : Fin cfg0.N) (cc : Fin 256) : Fin 4096 := ⟨t.val % 16 * 256 + cc.val, by have := cc.isLt; omega⟩

/-! ## The input blocks read at an index -/

/-- The first embedding tile at (r, d): the embedding array at the global row of r. -/
theorem xi_apply (c : Dev nD) (t : Fin cfg0.N) (r : Fin 256) (d : Fin 1024) :
    (iblk m c 1 t : Vec Ideal S256x1024 .f32) (ix2 r d) = xE m c (ix2 (rowOf t r) d) := by
  obtain ⟨-, -, e0, e1, -⟩ := idx_facts t
  refine Eq.trans ?_ (congrFun (V_arg0 m c) _)
  unfold iblk
  rw [View.read_apply]
  show V m c main_arg0 _ = V m c main_arg0 _
  congr 1
  funext a
  apply Fin.ext
  match a with
  | ⟨0, _⟩ => show win0_1.index t 0 * 256 + 1 * r.val = t.val / 16 * 256 + r.val; rw [e0]; omega
  | ⟨1, _⟩ => show win0_1.index t 1 * 1024 + 1 * d.val = d.val; rw [e1]; omega

/-- The second embedding tile at (cc, d): the embedding array at the global column index of cc, as a row. -/
theorem xk_apply (c : Dev nD) (t : Fin cfg0.N) (cc : Fin 256) (d : Fin 1024) :
    (iblk m c 2 t : Vec Ideal S256x1024 .f32) (ix2 cc d) = xE m c (ix2 (colOf t cc) d) := by
  obtain ⟨-, -, -, -, e0, e1, -⟩ := idx_facts t
  refine Eq.trans ?_ (congrFun (V_arg0 m c) _)
  unfold iblk
  rw [View.read_apply]
  show V m c main_arg0 _ = V m c main_arg0 _
  congr 1
  funext a
  apply Fin.ext
  match a with
  | ⟨0, _⟩ => show win0_2.index t 0 * 256 + 1 * cc.val = t.val % 16 * 256 + cc.val; rw [e0]; omega
  | ⟨1, _⟩ => show win0_2.index t 1 * 1024 + 1 * d.val = d.val; rw [e1]; omega

/-- The temperature block's one entry. -/
theorem tmp_apply (c : Dev nD) (t : Fin cfg0.N) :
    (iblk m c 0 t : Vec Ideal S1x1 .f32) (ix2 0 0) = TE m c := by
  obtain ⟨e0, e1, -⟩ := idx_facts t
  refine Eq.trans ?_ (V_v3_apply m c)
  unfold iblk
  rw [View.read_apply]
  show V m c main_v3 _ = V m c main_v3 _
  congr 1
  funext a
  apply Fin.ext
  match a with
  | ⟨0, _⟩ => show win0_0.index t 0 * 1 + 1 * 0 = 0; rw [e0]
  | ⟨1, _⟩ => show win0_0.index t 1 * 1 + 1 * 0 = 0; rw [e1]

/-- The label block at (r, 0): the label of the global row of r. -/
theorem lbl_apply (c : Dev nD) (t : Fin cfg0.N) (r : Fin 256) :
    (iblk m c 3 t : Vec Ideal S256x1 .i32) (ix2 r 0) = labE m c (ix1 (rowOf t r)) := by
  obtain ⟨-, -, -, -, -, -, e0, e1, -⟩ := idx_facts t
  refine Eq.trans ?_ (V_v0_apply m c (rowOf t r))
  unfold iblk
  rw [View.read_apply]
  show V m c main_v0 _ = V m c main_v0 _
  congr 1
  funext a
  apply Fin.ext
  match a with
  | ⟨0, _⟩ => show win0_3.index t 0 * 256 + 1 * r.val = t.val / 16 * 256 + r.val; rw [e0]; omega
  | ⟨1, _⟩ => show win0_3.index t 1 * 1 + 1 * 0 = 0; rw [e1]

/-- The mask block at (q, cc): the padded mask at row q and the global column index of cc. -/
theorem msk_apply (c : Dev nD) (t : Fin cfg0.N) (q : Fin 1024) (cc : Fin 256) :
    (iblk m c 4 t : Vec Ideal S1024x256 .bf16) (ix2 q cc) = (V m c main_v2 : S1024x4096.Idx → EReal) (ix2 q (colOf t cc)) := by
  obtain ⟨-, -, -, -, -, -, -, -, e0, e1, -⟩ := idx_facts t
  unfold iblk
  rw [View.read_apply]
  show V m c main_v2 _ = V m c main_v2 _
  congr 1
  funext a
  apply Fin.ext
  match a with
  | ⟨0, _⟩ => show win0_4.index t 0 * 1024 + 1 * q.val = q.val; rw [e0]; omega
  | ⟨1, _⟩ => show win0_4.index t 1 * 256 + 1 * cc.val = t.val % 16 * 256 + cc.val; rw [e1]; omega

/-! ## One point's step -/

/-- The similarity block with its diagonal removed, at (r, cc) of point t: the off-diagonal zone of the global row and column. -/
theorem pay1_at (c : Dev nD) (t : Fin cfg0.N) (r cc : Fin 256) :
    k0_pay1 (F := Ideal) (BitVec.ofNat 32 (grid0.coords t 0).val) (BitVec.ofNat 32 (grid0.coords t 1).val)
        (k0_pay6 (F := Ideal) (iblk m c 1 t) (iblk m c 2 t) (iblk m c 0 t)) (ix2 r cc)
      = Cert.Contrast.offDiag (xE m c) (TE m c) (rowOf t r) (colOf t cc) := by
  have hrow : (fun d => (iblk m c 1 t : Vec Ideal S256x1024 .f32) (ix2 r d)) = Cert.Contrast.row (xE m c) (rowOf t r) :=
    funext fun d => xi_apply m c t r d
  have hcol : (fun d => (iblk m c 2 t : Vec Ideal S256x1024 .f32) (ix2 cc d)) = Cert.Contrast.row (xE m c) (colOf t cc) :=
    funext fun d => xk_apply m c t cc d
  rw [pay1_apply (grid0.coords t 0) (grid0.coords t 1), pay6_apply, coords_0 t, coords_1 t, tmp_apply, hrow, hcol]
  unfold Cert.Contrast.offDiag Cert.Contrast.zone
  exact if_congr (Fin.ext_iff (a := rowOf t r) (b := colOf t cc)).symm rfl rfl

/-- The first accumulator's step at point t, row r: the previous value plus the column tile's off-diagonal zones of the global row. -/
theorem step5 (c : Dev nD) (t : Fin cfg0.N) (r : Fin 256) (prev : Vec Ideal S256x1 .f32) :
    k0_pay2 (F := Ideal) (BitVec.ofNat 32 (grid0.coords t 0).val) (BitVec.ofNat 32 (grid0.coords t 1).val)
        (k0_pay6 (F := Ideal) (iblk m c 1 t) (iblk m c 2 t) (iblk m c 0 t)) prev (ix2 r 0)
      = prev (ix2 r 0) + ∑ cc : Fin 256, Cert.Contrast.offDiag (xE m c) (TE m c) (rowOf t r) (colOf t cc) := by
  rw [pay2_apply]
  exact congrArg (prev (ix2 r 0) + ·) (Finset.sum_congr rfl fun cc _ => pay1_at m c t r cc)

/-- The mask block the kernel forms, at (r, cc) of point t: the class mask's entry for the global row at the global column. -/
theorem pay7_at (c : Dev nD) (t : Fin cfg0.N) (hlab : Cert.Contrast.LabelsInRange (labE m c)) (r cc : Fin 256) :
    k0_pay7 (F := Ideal) (iblk m c 3 t) (iblk m c 4 t) (ix2 r cc)
      = Cert.Contrast.maskAt (clsE m c) (labE m c) (rowOf t r) (colOf t cc) := by
  have hq := hlab.toNat_lt (rowOf t r)
  rw [pay7_apply (iblk m c 3 t) (iblk m c 4 t) r cc ⟨(labE m c (ix1 (rowOf t r))).toNat, by omega⟩ (by rw [lbl_apply]),
    msk_apply, V_v2_apply]
  unfold Cert.Contrast.maskAt
  rw [dif_pos hq]

/-- The second accumulator's step at point t, row r: the previous value plus the column tile's off-diagonal zones times the mask. -/
theorem step6 (c : Dev nD) (t : Fin cfg0.N) (hlab : Cert.Contrast.LabelsInRange (labE m c)) (r : Fin 256) (prev : Vec Ideal S256x1 .f32) :
    k0_pay3 (F := Ideal) (BitVec.ofNat 32 (grid0.coords t 0).val) (BitVec.ofNat 32 (grid0.coords t 1).val)
        (k0_pay6 (F := Ideal) (iblk m c 1 t) (iblk m c 2 t) (iblk m c 0 t)) (k0_pay7 (F := Ideal) (iblk m c 3 t) (iblk m c 4 t)) prev (ix2 r 0)
      = prev (ix2 r 0) + ∑ cc : Fin 256, Cert.Contrast.offDiag (xE m c) (TE m c) (rowOf t r) (colOf t cc)
          * Cert.Contrast.maskAt (clsE m c) (labE m c) (rowOf t r) (colOf t cc) := by
  rw [pay3_apply]
  exact congrArg (prev (ix2 r 0) + ·) (Finset.sum_congr rfl fun cc _ => by rw [pay1_at, pay7_at m c t hlab])

/-! ## The accumulation over a row tile's column tiles -/

/-- The sum of f over the 256 columns of column tile k: zero from the sixteenth tile on. -/
def tileSum (f : Fin 4096 → EReal) (k : ℕ) : EReal :=
  if h : k < 16 then ∑ cc : Fin 256, f ⟨k * 256 + cc.val, by have := cc.isLt; omega⟩ else 0

/-- At point t's column tile: the sum over the tile's global columns. -/
theorem tileSum_at (f : Fin 4096 → EReal) (t : Fin cfg0.N) : tileSum f (t.val % 16) = ∑ cc : Fin 256, f (colOf t cc) := by
  unfold tileSum
  rw [dif_pos (Nat.mod_lt _ (by norm_num))]

/-- The sixteen tiles' sums add up to the sum over all 4096 columns. -/
theorem sum_tileSum (f : Fin 4096 → EReal) : ∑ k ∈ Finset.range 16, tileSum f k = ∑ j : Fin 4096, f j := by
  rw [Cert.Contrast.sum_tiles, Finset.sum_range]
  exact Finset.sum_congr rfl fun k _ => by unfold tileSum; rw [dif_pos k.isLt]

/-- After point n the first accumulator holds, at row r, the off-diagonal zones of the global row summed over the column tiles
    up to the point's own: by induction on the point, a first column tile starting from zero, a later one adding to the tile before. -/
theorem acc5 (c : Dev nD) : ∀ (n : ℕ) (hn : n < cfg0.N) (r : Fin 256),
    (outsAt0 m c n hn).1 (ix2 r 0)
      = ∑ k ∈ Finset.range (n % 16 + 1), tileSum (Cert.Contrast.offDiag (xE m c) (TE m c) (rowOf ⟨n, hn⟩ r)) k := by
  intro n
  induction n with
  | zero =>
    intro hn r
    rw [outsAt0_A m c ⟨0, hn⟩ rfl]
    dsimp only
    rw [outA5_pay, step5, pay4_apply, zero_add, ← tileSum_at]
    exact (Finset.sum_range_one _).symm
  | succ n ih =>
    intro hn r
    by_cases h0 : (n + 1) % 16 = 0
    · rw [outsAt0_A m c ⟨n + 1, hn⟩ h0]
      dsimp only
      rw [outA5_pay, step5, pay4_apply, zero_add, ← tileSum_at, h0]
      exact (Finset.sum_range_one _).symm
    · have hrow : rowOf ⟨n, Nat.lt_of_succ_lt hn⟩ r = rowOf ⟨n + 1, hn⟩ r :=
        Fin.ext (by show n / 16 * 256 + r.val = (n + 1) / 16 * 256 + r.val; omega)
      have hk : n % 16 + 1 = (n + 1) % 16 := by omega
      rw [outsAt0_B m c ⟨n + 1, hn⟩ h0]
      dsimp only
      rw [outB5_pay, step5, Finset.sum_range_succ, ← tileSum_at]
      refine congrArg (· + _) ?_
      show (outsAt0 m c n _).1 (ix2 r 0) = _
      rw [ih (Nat.lt_of_succ_lt hn) r, hrow, hk]

/-- After a row tile's last column tile the first accumulator holds the first sum of the global row. -/
theorem last5 (c : Dev nD) (t : Fin cfg0.N) (h15 : t.val % 16 = 15) (r : Fin 256) :
    (outsAt0 m c t.val t.isLt).1 (ix2 r 0) = Cert.Contrast.S1 (xE m c) (TE m c) (rowOf t r) := by
  rw [acc5 m c t.val t.isLt r, h15]
  exact sum_tileSum _

/-- After point n the second accumulator holds, at row r, the off-diagonal zones times the mask entries of the global row summed
    over the column tiles up to the point's own. -/
theorem acc6 (c : Dev nD) (hlab : Cert.Contrast.LabelsInRange (labE m c)) : ∀ (n : ℕ) (hn : n < cfg0.N) (r : Fin 256),
    (outsAt0 m c n hn).2 (ix2 r 0)
      = ∑ k ∈ Finset.range (n % 16 + 1), tileSum (fun j => Cert.Contrast.offDiag (xE m c) (TE m c) (rowOf ⟨n, hn⟩ r) j
          * Cert.Contrast.maskAt (clsE m c) (labE m c) (rowOf ⟨n, hn⟩ r) j) k := by
  intro n
  induction n with
  | zero =>
    intro hn r
    rw [outsAt0_A m c ⟨0, hn⟩ rfl]
    dsimp only
    rw [outA6_pay, step6 m c ⟨0, hn⟩ hlab, pay5_apply, zero_add,
      ← tileSum_at (fun j => Cert.Contrast.offDiag (xE m c) (TE m c) (rowOf ⟨0, hn⟩ r) j
          * Cert.Contrast.maskAt (clsE m c) (labE m c) (rowOf ⟨0, hn⟩ r) j) ⟨0, hn⟩]
    exact (Finset.sum_range_one _).symm
  | succ n ih =>
    intro hn r
    by_cases h0 : (n + 1) % 16 = 0
    · rw [outsAt0_A m c ⟨n + 1, hn⟩ h0]
      dsimp only
      rw [outA6_pay, step6 m c ⟨n + 1, hn⟩ hlab, pay5_apply, zero_add,
        ← tileSum_at (fun j => Cert.Contrast.offDiag (xE m c) (TE m c) (rowOf ⟨n + 1, hn⟩ r) j
            * Cert.Contrast.maskAt (clsE m c) (labE m c) (rowOf ⟨n + 1, hn⟩ r) j) ⟨n + 1, hn⟩, h0]
      exact (Finset.sum_range_one _).symm
    · have hrow : rowOf ⟨n, Nat.lt_of_succ_lt hn⟩ r = rowOf ⟨n + 1, hn⟩ r :=
        Fin.ext (by show n / 16 * 256 + r.val = (n + 1) / 16 * 256 + r.val; omega)
      have hk : n % 16 + 1 = (n + 1) % 16 := by omega
      rw [outsAt0_B m c ⟨n + 1, hn⟩ h0]
      dsimp only
      rw [outB6_pay, step6 m c ⟨n + 1, hn⟩ hlab, Finset.sum_range_succ,
        ← tileSum_at (fun j => Cert.Contrast.offDiag (xE m c) (TE m c) (rowOf ⟨n + 1, hn⟩ r) j
            * Cert.Contrast.maskAt (clsE m c) (labE m c) (rowOf ⟨n + 1, hn⟩ r) j) ⟨n + 1, hn⟩]
      refine congrArg (· + _) ?_
      show (outsAt0 m c n _).2 (ix2 r 0) = _
      rw [ih (Nat.lt_of_succ_lt hn) r, hrow, hk]

/-- After a row tile's last column tile the second accumulator holds the second sum of the global row. -/
theorem last6 (c : Dev nD) (hlab : Cert.Contrast.LabelsInRange (labE m c)) (t : Fin cfg0.N) (h15 : t.val % 16 = 15) (r : Fin 256) :
    (outsAt0 m c t.val t.isLt).2 (ix2 r 0) = Cert.Contrast.S2 (xE m c) (TE m c) (clsE m c) (labE m c) (rowOf t r) := by
  rw [acc6 m c hlab t.val t.isLt r, h15]
  exact sum_tileSum _

/-! ## The two result columns -/

/-- What the first result column ends holding: at row j the first sum of row j. -/
abbrev G5 (c : Dev nD) : S4096x1.Idx → EReal := fun j => Cert.Contrast.S1 (xE m c) (TE m c) (j 0)
/-- What the second ends holding: at row j the second sum of row j. -/
abbrev G6 (c : Dev nD) : S4096x1.Idx → EReal := fun j => Cert.Contrast.S2 (xE m c) (TE m c) (clsE m c) (labE m c) (j 0)

/-- What a row tile's last point writes back into the first column is the column's block of first sums. -/
theorem flushed5_eq (c : Dev nD) (t : Fin cfg0.N) (hf : (cfg0.win 5).flush t = true) :
    (dats m 0 c).flushed 5 t = ((cfg0.win 5).blk t).view.read (Elt Ideal) (G5 m c) := by
  have h15 := (flush0_5 t).mp hf
  obtain ⟨-, -, -, -, -, -, -, -, -, -, e0, e1, -⟩ := idx_facts t
  show (cfg0.win 5).cut (grid0.coords t) ((dats m 0 c).after 5 t) = _
  rw [after5]
  funext y
  obtain ⟨r, z, rfl⟩ : ∃ (r : Fin 256) (z : Fin 1), y = ix2 r z := ⟨y 0, y 1, eq_ix2 y⟩
  obtain rfl : z = 0 := Subsingleton.elim _ _
  rw [View.read_apply]
  show (outsAt0 m c t.val t.isLt).1 (ix2 r 0) = _
  show _ = Cert.Contrast.S1 (xE m c) (TE m c) ((((cfg0.win 5).blk t).view.emb (ix2 r 0)) 0)
  rw [last5 m c t h15 r]
  refine congrArg (Cert.Contrast.S1 (xE m c) (TE m c)) (Fin.ext ?_)
  show t.val / 16 * 256 + r.val = win0_5.index t 0 * 256 + 1 * r.val
  rw [e0]; omega

/-- The second column's likewise: its block of second sums. -/
theorem flushed6_eq (c : Dev nD) (hlab : Cert.Contrast.LabelsInRange (labE m c)) (t : Fin cfg0.N) (hf : (cfg0.win 6).flush t = true) :
    (dats m 0 c).flushed 6 t = ((cfg0.win 6).blk t).view.read (Elt Ideal) (G6 m c) := by
  have h15 := (flush0_6 t).mp hf
  obtain ⟨-, -, -, -, -, -, -, -, -, -, -, -, e0, e1⟩ := idx_facts t
  show (cfg0.win 6).cut (grid0.coords t) ((dats m 0 c).after 6 t) = _
  rw [after6]
  funext y
  obtain ⟨r, z, rfl⟩ : ∃ (r : Fin 256) (z : Fin 1), y = ix2 r z := ⟨y 0, y 1, eq_ix2 y⟩
  obtain rfl : z = 0 := Subsingleton.elim _ _
  rw [View.read_apply]
  show (outsAt0 m c t.val t.isLt).2 (ix2 r 0) = _
  show _ = Cert.Contrast.S2 (xE m c) (TE m c) (clsE m c) (labE m c) ((((cfg0.win 6).blk t).view.emb (ix2 r 0)) 0)
  rw [last6 m c hlab t h15 r]
  refine congrArg (Cert.Contrast.S2 (xE m c) (TE m c) (clsE m c) (labE m c)) (Fin.ext ?_)
  show t.val / 16 * 256 + r.val = win0_6.index t 0 * 256 + 1 * r.val
  rw [e0]; omega

/-- The last point of row j's row tile. -/
abbrev lastPoint (i : S4096x1.Idx) : Fin cfg0.N :=
  ⟨(i 0).val / 256 * 16 + 15, by have h : (i 0).val < 4096 := (i 0).isLt; rw [show cfg0.N = 256 from N_0]; omega⟩

/-- Every row of the first column lies in the block some row tile's last point writes back. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  refine ⟨lastPoint i, (flush0_5 (lastPoint i)).mpr (by show ((i 0).val / 256 * 16 + 15) % 16 = 15; omega), ?_⟩
  obtain ⟨-, -, -, -, -, -, -, -, -, -, e0, e1, -⟩ := idx_facts (lastPoint i)
  have ht : (lastPoint i).val / 16 = (i 0).val / 256 := by show ((i 0).val / 256 * 16 + 15) / 16 = _; omega
  show i ∈ ((View.whole main_v4_0).slice (win0_5.rect (lastPoint i))).set
  rw [View.set_slice_whole, Rect.mem_set_unit]
  intro a
  match a with
  | ⟨0, _⟩ =>
    show win0_5.index (lastPoint i) 0 * 256 ≤ (i 0).val ∧ (i 0).val < win0_5.index (lastPoint i) 0 * 256 + 256
    rw [e0, ht]; omega
  | ⟨1, _⟩ =>
    show win0_5.index (lastPoint i) 1 * 1 ≤ (i 1).val ∧ (i 1).val < win0_5.index (lastPoint i) 1 * 1 + 1
    rw [e1]; omega

/-- Every row of the second column likewise. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  refine ⟨lastPoint i, (flush0_6 (lastPoint i)).mpr (by show ((i 0).val / 256 * 16 + 15) % 16 = 15; omega), ?_⟩
  obtain ⟨-, -, -, -, -, -, -, -, -, -, -, -, e0, e1⟩ := idx_facts (lastPoint i)
  have ht : (lastPoint i).val / 16 = (i 0).val / 256 := by show ((i 0).val / 256 * 16 + 15) / 16 = _; omega
  show i ∈ ((View.whole main_v4_1).slice (win0_6.rect (lastPoint i))).set
  rw [View.set_slice_whole, Rect.mem_set_unit]
  intro a
  match a with
  | ⟨0, _⟩ =>
    show win0_6.index (lastPoint i) 0 * 256 ≤ (i 0).val ∧ (i 0).val < win0_6.index (lastPoint i) 0 * 256 + 256
    rw [e0, ht]; omega
  | ⟨1, _⟩ =>
    show win0_6.index (lastPoint i) 1 * 1 ≤ (i 1).val ∧ (i 1).val < win0_6.index (lastPoint i) 1 * 1 + 1
    rw [e1]; omega

/-- The first result column ends holding the first sum of every row. -/
theorem final5 (c : Dev nD) :
    ((dats m 0 c).arrAt 5 cfg0.N : S4096x1.Idx → EReal) = fun j => Cert.Contrast.S1 (xE m c) (TE m c) (j 0) :=
  (dats m 0 c).arrAt_eq_of_cover 5 (G5 m c) (flushed5_eq m c) cover5

/-- The second result column ends holding the second sum of every row, the labels being in the class mask's rows. -/
theorem final6 (c : Dev nD) (hlab : Cert.Contrast.LabelsInRange (labE m c)) :
    ((dats m 0 c).arrAt 6 cfg0.N : S4096x1.Idx → EReal)
      = fun j => Cert.Contrast.S2 (xE m c) (TE m c) (clsE m c) (labE m c) (j 0) :=
  (dats m 0 c).arrAt_eq_of_cover 6 (G6 m c) (flushed6_eq m c hlab) cover6

/-- The two columns at row i. -/
theorem final5_at (c : Dev nD) (i : Fin 4096) :
    ((dats m 0 c).arrAt 5 cfg0.N : S4096x1.Idx → EReal) (ix2 i 0) = Cert.Contrast.S1 (xE m c) (TE m c) i :=
  congrFun (final5 m c) (ix2 i 0)
theorem final6_at (c : Dev nD) (hlab : Cert.Contrast.LabelsInRange (labE m c)) (i : Fin 4096) :
    ((dats m 0 c).arrAt 6 cfg0.N : S4096x1.Idx → EReal) (ix2 i 0) = Cert.Contrast.S2 (xE m c) (TE m c) (clsE m c) (labE m c) i :=
  congrFun (final6 m c hlab) (ix2 i 0)

end Cert.KernelSide

end
-- ==== Proof.RefValue.lean ====
/-
  The reference's value is the loss.

  The reference forms the whole 4096 x 4096 matrix of cosine similarities (each entry a row product over the guarded product of the two
  rows' norms), drops its diagonal by flattening it, dropping the first entry, reshaping to 4095 rows of 4097, dropping the last column and
  reshaping to 4096 rows of 4095 — row i of the result at column k is the matrix at (i, the k-th column other than i) —, divides by the
  temperature and exponentiates; it gathers the class mask's rows at the labels (for a label in [0, 1000) the negative-index wrap and the
  gather's clamp do nothing), drops that matrix's diagonal the same way, and sums 4095 entries per row. A sum over the columns other than i
  is the sum over all columns of the term made zero at column i. Read operation by operation, its result is the specification's loss.
-/
import proofs.«410706_j32547262169719_1_alg».proof.Proof.Gen.ReferenceIdeal.Run
import proofs.«410706_j32547262169719_1_alg».proof.Proof.Gen.ReferenceIdeal.Read
import proofs.«410706_j32547262169719_1_alg».proof.Proof.Spec
import proofs.«410706_j32547262169719_1_alg».proof.Proof.LibPlainDot
import Idealize.ShloMosaic.Lib.ValueIdxRank1
import Mathlib.Algebra.BigOperators.Fin

noncomputable section

namespace Cert.RefSide

open Cert.ReferenceIdeal Cert.ReferenceIdeal.Gen Cert.ReferenceIdeal.Read Idealize.ShloMosaic Idealize.ShloMosaic.ValueIdx Cert.Contrast

/-- The value of the column that row i's k-th kept entry reads: k below i is itself, k from i on is one more. -/
theorem succAbove_val (i : Fin 4096) (k : Fin 4095) : (i.succAbove k).val = if k.val < i.val then k.val else k.val + 1 := by
  unfold Fin.succAbove
  split_ifs with h1 h2 h2
  · rfl
  · exact absurd (Fin.lt_def.mp h1) h2
  · exact absurd (Fin.lt_def.mpr h2) h1
  · rfl

/-- The flat-index arithmetic of dropping the diagonal. With n = 4095 i + k the flat position in the 4095 × 4096 array, its
    row r = n / 4096 and column n % 4096 give the position n + r in the 4095 × 4097 array, hence n + r + 1 in the square array
    flattened: that is 4096 i + k for k < i (where r = i - 1) and 4096 i + k + 1 otherwise (where r = i). -/
theorem dropDiag_arith (i k : Nat) (hi : i < 4096) (hk : k < 4095) :
    (1 + (((i * 4095 + k) / 4096) * 4097 + ((i * 4095 + k) % 4096))) / 4096 = i ∧
    (1 + (((i * 4095 + k) / 4096) * 4097 + ((i * 4095 + k) % 4096))) % 4096 = if k < i then k else k + 1 := by
  by_cases h : k < i
  · have hf : (i * 4095 + k) / 4096 = i - 1 := Nat.div_eq_of_lt_le (by omega) (by omega)
    have hg : (1 + (((i * 4095 + k) / 4096) * 4097 + ((i * 4095 + k) % 4096))) / 4096 = i :=
      Nat.div_eq_of_lt_le (by omega) (by omega)
    refine ⟨hg, ?_⟩
    rw [if_pos h]
    omega
  · have hf : (i * 4095 + k) / 4096 = i := Nat.div_eq_of_lt_le (by omega) (by omega)
    have hg : (1 + (((i * 4095 + k) / 4096) * 4097 + ((i * 4095 + k) % 4096))) / 4096 = i :=
      Nat.div_eq_of_lt_le (by omega) (by omega)
    refine ⟨hg, ?_⟩
    rw [if_neg h]
    omega

/-- Dropping the diagonal by the flat-index trick: entry (i, k) of the 4096 × 4095 array is entry (i, i.succAbove k) of the
    square one. -/
theorem dropDiag_idx (i : Fin 4096) (k : Fin 4095) :
    idx_main_v10 (idx_main_v11 (idx_main_v12 (idx_main_v13 (idx_main_v14 (ix2 i k))))) = ix2 i (i.succAbove k) := by
  have h := dropDiag_arith i.val k.val i.isLt k.isLt
  funext a
  refine Fin.ext ?_
  match a with
  | ⟨0, _⟩ => exact h.1
  | ⟨1, _⟩ => exact h.2.trans (succAbove_val i k).symm

/-- A rank-2 index with the coordinate values of a and b is ix2 a b. -/
theorem eq_ix2_of_val {n0 n1 : Nat} (e : (⟨2, ![n0, n1]⟩ : Shape).Idx) (a : Fin n0) (b : Fin n1)
    (h0 : (e 0).val = a.val) (h1 : (e 1).val = b.val) : e = ix2 a b :=
  funext fun d => Fin.ext (by match d with | ⟨0, _⟩ => exact h0 | ⟨1, _⟩ => exact h1)

/-- A rank-1 index with the coordinate value of a is ix1 a. -/
theorem eq_ix1_of_val {n : Nat} (e : (⟨1, ![n]⟩ : Shape).Idx) (a : Fin n) (h0 : (e 0).val = a.val) : e = ix1 a :=
  funext fun d => Fin.ext (by match d with | ⟨0, _⟩ => exact h0)

section
variable (x0 x1 : (⟨S4096x1024, .f32⟩ : BufTy).Contents (Elt Ideal))

/-- The first norm column at (r, 0): the Euclidean norm of row r. -/
theorem v0_at (r : Fin 4096) (c : Fin 1) :
    val_main_v0 (F := Ideal) x0 (ix2 r c) = Ideal.sqrt (∑ d : Fin 1024, x0 (ix2 r d) * x0 (ix2 r d)) := by
  rw [val_main_v0_apply, val_main_call0_v2_apply, val_main_call0_v1_apply]
  simp only [val_main_call0_cst_apply, val_main_call0_v0_apply, Ideal.hostUnary_sqrt_def, Ideal.ofBits_def,
    Ideal.ofBits_zero_f32, Ideal.mulf_def, zero_add,
    show ∀ k : Fin 1024, idx_main_call0_v1 (idx_main_call0_v2 (ix2 r c)) k = ix2 r k from
      fun k => eq_ix2_of_val _ _ _ rfl rfl]

/-- The second norm column at (r, 0): the Euclidean norm of row r. -/
theorem v1_at (r : Fin 4096) (c : Fin 1) :
    val_main_v1 (F := Ideal) x0 (ix2 r c) = Ideal.sqrt (∑ d : Fin 1024, x0 (ix2 r d) * x0 (ix2 r d)) := by
  rw [val_main_v1_apply, val_main_call1_v2_apply, val_main_call1_v1_apply]
  simp only [val_main_call1_cst_apply, val_main_call1_v0_apply, Ideal.hostUnary_sqrt_def, Ideal.ofBits_def,
    Ideal.ofBits_zero_f32, Ideal.mulf_def, zero_add,
    show ∀ k : Fin 1024, idx_main_call1_v1 (idx_main_call1_v2 (ix2 r c)) k = ix2 r k from
      fun k => eq_ix2_of_val _ _ _ rfl rfl]

/-- The cosine similarity of rows i and j. -/
theorem v9_at (i j : Fin 4096) :
    val_main_v9 (F := Ideal) x0 (ix2 i j) = Ideal.div (∑ d : Fin 1024, x0 (ix2 i d) * x0 (ix2 j d))
      (max (Ideal.sqrt (∑ d : Fin 1024, x0 (ix2 i d) * x0 (ix2 i d)) * Ideal.sqrt (∑ d : Fin 1024, x0 (ix2 j d) * x0 (ix2 j d))) eps) := by
  have e4 : idx_main_v4 (ix2 i j) = ix2 i (0 : Fin 1) := eq_ix2_of_val _ _ _ rfl rfl
  have e3 : idx_main_v3 (idx_main_v5 (ix2 i j)) = ix2 j (0 : Fin 1) := eq_ix2_of_val _ _ _ rfl rfl
  rw [val_main_v9_apply, val_main_v2_apply, val_main_v8_apply, val_main_v6_apply, val_main_v7_apply, val_main_v4_apply,
    val_main_v5_apply, val_main_v3_apply, e4, e3, v0_at, v1_at]
  simp only [val_main_cst_apply, Ideal.hostDivf_def, Ideal.maximumf_def, Ideal.mulf_def, Ideal.ofBits_def,
    show ∀ k : Fin 1024, lidx_main_v2 (ix2 i j) k = ix2 i k from fun k => eq_ix2_of_val _ _ _ rfl rfl,
    show ∀ k : Fin 1024, ridx_main_v2 (ix2 i j) k = ix2 j k from fun k => eq_ix2_of_val _ _ _ rfl rfl]
  rfl

end

section
variable (x0 x1 : (⟨S4096x1024, .f32⟩ : BufTy).Contents (Elt Ideal)) (x2 : (⟨S1000x4096, .i32⟩ : BufTy).Contents (Elt Ideal))
  (x3 : (⟨S4096, .i32⟩ : BufTy).Contents (Elt Ideal)) (x4 : (⟨S_, .f32⟩ : BufTy).Contents (Elt Ideal))

/-- The similarity matrix with its diagonal dropped, at (i, k): the similarity of rows i and i.succAbove k. -/
theorem v14_at (i : Fin 4096) (k : Fin 4095) :
    val_main_v14 (F := Ideal) x0 (ix2 i k) = val_main_v9 (F := Ideal) x0 (ix2 i (i.succAbove k)) := by
  rw [val_main_v14_apply, val_main_v13_apply, val_main_v12_apply, val_main_v11_apply, val_main_v10_apply, dropDiag_idx]

/-- The zone array at (i, k): the zone of rows i and i.succAbove k. -/
theorem v17_at (i : Fin 4096) (k : Fin 4095) :
    val_main_v17 (F := Ideal) x0 x4 (ix2 i k) = zone x0 (x4 (fun a => a.elim0)) i (i.succAbove k) := by
  rw [val_main_v17_apply, val_main_v16_apply, val_main_v15_apply, v14_at, v9_at]
  simp only [Ideal.hostUnary_exp_def, Ideal.hostDivf_def]
  rfl

/-- A label that is not negative is kept by the wrap of negative labels. -/
theorem v22_at (hlab : LabelsInRange x3) (i : Fin 4096) : val_main_v22 (F := Ideal) x3 (ix1 i) = x3 (ix1 i) := by
  rw [val_main_v22_apply, val_main_v19_apply, val_main_v18_apply, val_main_c_apply]
  have h0 := (hlab i).1
  have hs : (x3 (ix1 i)).slt 0#32 = false := by
    rw [BitVec.slt]
    exact decide_eq_false (by rw [BitVec.toInt_zero]; omega)
  have hc : IntOp.cmpi .slt (x3 (ix1 i)) 0#32 = 0#1 := by
    show BitVec.ofBool ((x3 (ix1 i)).slt 0#32) = 0#1
    rw [hs]; rfl
  rw [hc]
  exact select_zero _ _

/-- The gathered class-mask rows at (i, j): the mask's row named by the label of i, at column j. A label in [0, 1000) is its own
    start index (the clamp to the last row does nothing), the row axis is collapsed and the column axis is the slice's offset. -/
theorem v24_at (hlab : LabelsInRange x3) (i j : Fin 4096) :
    val_main_v24 (F := Ideal) x2 x3 (ix2 i j) = x2 (ix2 ⟨(x3 (ix1 i)).toNat, hlab.toNat_lt i⟩ j) := by
  unfold val_main_v24 Host.gather
  refine congrArg x2 (eq_ix2_of_val _ _ _ ?_ ?_)
  · show gather_S1000x4096_S4096x1_S4096x4096_1_0_n_n_0_1_14096.start (ix2 i j) (val_main_v23 (F := Ideal) x3) 0
        + gather_S1000x4096_S4096x1_S4096x4096_1_0_n_n_0_1_14096.batchCoord (ix2 i j) 0
        + gather_S1000x4096_S4096x1_S4096x4096_1_0_n_n_0_1_14096.offCoord (ix2 i j) 0 = (x3 (ix1 i)).toNat
    rw [GatherDims.batchCoord_eq_zero _ _ _ (by decide), GatherDims.offCoord_eq_zero _ _ _ (by decide)]
    unfold GatherDims.start
    rw [dif_pos (by decide)]
    have hsi : ∀ c, gather_S1000x4096_S4096x1_S4096x4096_1_0_n_n_0_1_14096.siIdx (ix2 i j) c = ix2 i (0 : Fin 1) :=
      fun c => eq_ix2_of_val _ _ _ rfl (Nat.lt_one_iff.mp c.isLt)
    have e23 : idx_main_v23 (ix2 i (0 : Fin 1)) = ix1 i := eq_ix1_of_val _ _ rfl
    rw [hsi, val_main_v23_apply, e23, v22_at x3 hlab]
    show min (x3 (ix1 i)).toInt.toNat (1000 - 1) + 0 + 0 = (x3 (ix1 i)).toNat
    have h0 := (hlab i).1
    have h1 := (hlab i).2
    have hc := BitVec.toInt_eq_toNat_cond (x3 (ix1 i))
    have hlt := (x3 (ix1 i)).isLt
    split_ifs at hc <;> omega
  · show gather_S1000x4096_S4096x1_S4096x4096_1_0_n_n_0_1_14096.start (ix2 i j) (val_main_v23 (F := Ideal) x3) 1
        + gather_S1000x4096_S4096x1_S4096x4096_1_0_n_n_0_1_14096.batchCoord (ix2 i j) 1
        + gather_S1000x4096_S4096x1_S4096x4096_1_0_n_n_0_1_14096.offCoord (ix2 i j) 1 = j.val
    rw [GatherDims.batchCoord_eq_zero _ _ _ (by decide)]
    unfold GatherDims.start
    rw [dif_neg (by decide)]
    unfold GatherDims.offCoord
    rw [dif_pos (by decide), Nat.zero_add]
    rfl

/-- The class mask converted to floats, at (i, j): the mask entry of the label of i at column j. -/
theorem v25_at (hlab : LabelsInRange x3) (i j : Fin 4096) :
    val_main_v25 (F := Ideal) x2 x3 (ix2 i j) = maskAt x2 x3 i j := by
  rw [val_main_v25_apply, v24_at x2 x3 hlab]
  unfold maskAt
  rw [dif_pos (hlab.toNat_lt i)]
  rfl

/-- The same flat-index fact for the second removal of the diagonal. -/
theorem dropDiag_idx' (i : Fin 4096) (k : Fin 4095) :
    idx_main_v26 (idx_main_v27 (idx_main_v28 (idx_main_v29 (idx_main_v30 (ix2 i k))))) = ix2 i (i.succAbove k) :=
  dropDiag_idx i k

/-- The mask with its diagonal dropped, at (i, k): the mask entry of the label of i at column i.succAbove k. -/
theorem v30_at (hlab : LabelsInRange x3) (i : Fin 4096) (k : Fin 4095) :
    val_main_v30 (F := Ideal) x2 x3 (ix2 i k) = maskAt x2 x3 i (i.succAbove k) := by
  rw [val_main_v30_apply, val_main_v29_apply, val_main_v28_apply, val_main_v27_apply, val_main_v26_apply, dropDiag_idx',
    v25_at x2 x3 hlab]

end

section
variable (x0 x1 : (⟨S4096x1024, .f32⟩ : BufTy).Contents (Elt Ideal)) (x2 : (⟨S1000x4096, .i32⟩ : BufTy).Contents (Elt Ideal))
  (x3 : (⟨S4096, .i32⟩ : BufTy).Contents (Elt Ideal)) (x4 : (⟨S_, .f32⟩ : BufTy).Contents (Elt Ideal))

/-- A sum over all 4096 columns of a term that is zero at column i is the sum over the 4095 other columns. -/
theorem sum_succAbove_of_zero (f : Fin 4096 → EReal) (i : Fin 4096) (h : f i = 0) :
    ∑ j : Fin 4096, f j = ∑ k : Fin 4095, f (i.succAbove k) := by
  rw [Fin.sum_univ_succAbove f i, h, zero_add]

/-- On the diagonal the off-diagonal zone is zero. -/
theorem offDiag_self (x : SX.Idx → EReal) (T : EReal) (i : Fin 4096) : offDiag x T i i = 0 := by
  unfold offDiag; exact if_pos rfl

/-- Off the diagonal it is the zone: i.succAbove k is never i. -/
theorem offDiag_succAbove (x : SX.Idx → EReal) (T : EReal) (i : Fin 4096) (k : Fin 4095) :
    offDiag x T i (i.succAbove k) = zone x T i (i.succAbove k) := by
  unfold offDiag; exact if_neg (Fin.succAbove_ne i k).symm

/-- The row sums of the zone array: the sum of the zone over the columns other than i. -/
theorem v45_at (i : Fin 4096) : val_main_v45 (F := Ideal) x0 x4 (ix1 i) = S1 x0 (x4 (fun a => a.elim0)) i := by
  rw [val_main_v45_apply]
  simp only [val_main_cst_4_apply, Ideal.ofBits_def, Ideal.ofBits_zero_f32, zero_add,
    show ∀ k : Fin 4095, idx_main_v45 (ix1 i) k = ix2 i k from fun k => eq_ix2_of_val _ _ _ rfl rfl, v17_at]
  unfold S1
  rw [sum_succAbove_of_zero _ i (offDiag_self _ _ _)]
  exact Finset.sum_congr rfl fun k _ => (offDiag_succAbove _ _ _ _).symm

/-- The row sums of the zone times the mask: the sum over the columns other than i. -/
theorem v43_at (hlab : LabelsInRange x3) (i : Fin 4096) :
    val_main_v43 (F := Ideal) x0 x2 x3 x4 (ix1 i) = S2 x0 (x4 (fun a => a.elim0)) x2 x3 i := by
  rw [val_main_v43_apply]
  simp only [val_main_cst_3_apply, Ideal.ofBits_def, Ideal.ofBits_zero_f32, zero_add,
    show ∀ k : Fin 4095, idx_main_v43 (ix1 i) k = ix2 i k from fun k => eq_ix2_of_val _ _ _ rfl rfl,
    val_main_v31_apply, Ideal.mulf_def, v17_at, v30_at x2 x3 hlab]
  unfold S2
  rw [sum_succAbove_of_zero _ i (by rw [offDiag_self, zero_mul])]
  exact Finset.sum_congr rfl fun k _ => by rw [offDiag_succAbove]

/-- The zone of row i against row i of the anchor. -/
theorem v42_at (i : Fin 4096) : val_main_v42 (F := Ideal) x0 x1 x4 (ix1 i) = pos x0 x1 (x4 (fun a => a.elim0)) i := by
  rw [val_main_v42_apply, val_main_v41_apply, val_main_v40_apply, val_main_v39_apply, val_main_v33_apply, val_main_v38_apply,
    val_main_v36_apply, val_main_v37_apply, val_main_v34_apply, val_main_v35_apply, val_main_call2_v1_apply,
    val_main_call3_v1_apply]
  simp only [val_main_cst_1_apply, val_main_cst_2_apply, val_main_call2_cst_apply, val_main_call3_cst_apply,
    val_main_v32_apply, val_main_call2_v0_apply, val_main_call3_v0_apply, Ideal.hostUnary_exp_def, Ideal.hostUnary_sqrt_def,
    Ideal.hostDivf_def, Ideal.maximumf_def, Ideal.mulf_def, Ideal.ofBits_def, Ideal.ofBits_zero_f32, zero_add,
    show ∀ k : Fin 1024, idx_main_v33 (ix1 i) k = ix2 i k from fun k => eq_ix2_of_val _ _ _ rfl rfl,
    show ∀ k : Fin 1024, idx_main_call2_v1 (ix1 i) k = ix2 i k from fun k => eq_ix2_of_val _ _ _ rfl rfl,
    show ∀ k : Fin 1024, idx_main_call3_v1 (ix1 i) k = ix2 i k from fun k => eq_ix2_of_val _ _ _ rfl rfl]
  rfl

end

/-- The reference's result is the loss of the specification. -/
theorem result_eq
    (x0 x1 : (⟨S4096x1024, .f32⟩ : BufTy).Contents (Elt Ideal)) (x2 : (⟨S1000x4096, .i32⟩ : BufTy).Contents (Elt Ideal))
    (x3 : (⟨S4096, .i32⟩ : BufTy).Contents (Elt Ideal)) (x4 : (⟨S_, .f32⟩ : BufTy).Contents (Elt Ideal))
    (hlab : Cert.Contrast.LabelsInRange x3) :
    Cert.ReferenceIdeal.Read.val_main_v51 (F := Ideal) x0 x1 x2 x3 x4 = fun _ => Cert.Contrast.loss x0 x1 x2 x3 (x4 (fun a => a.elim0)) := by
  funext j
  rw [val_main_v51_apply, val_main_v50_apply, val_main_v49_apply]
  simp only [val_main_cst_5_apply, val_main_cst_6_apply, Ideal.hostNegf_def, Ideal.negf_def, Ideal.hostDivf_def,
    Ideal.ofBits_def, Ideal.ofBits_zero_f32, zero_add]
  unfold loss
  refine congrArg Neg.neg (congrArg (Ideal.div · _) ?_)
  rw [← Equiv.sum_comp (idxEquiv1 (n := 4096)).symm]
  refine Finset.sum_congr rfl fun i _ => ?_
  show val_main_v48 (F := Ideal) x0 x1 x2 x3 x4 (ix1 i) = _
  rw [val_main_v48_apply, val_main_v47_apply, val_main_v44_apply, val_main_v46_apply, v43_at x0 x2 x3 x4 hlab, v42_at, v45_at]
  simp only [Ideal.hostUnary_log_def, Ideal.hostDivf_def, Ideal.addf_def]

end Cert.RefSide

end
-- ==== Proof.PreRange.lean ====
/-
  From the precondition to the range of the labels.

  The precondition is a conjunction of one-bit words; its last conjunct is the conjunction over all 4096 labels of
  (0 ≤ label, signed) and (label < 1000, signed). When the whole conjunction is the bit 1, so is that last conjunct, so is
  the bit of every label, and so are both comparisons at every label: every label, read as a signed integer, lies in
  [0, 1000).
-/
import proofs.«410706_j32547262169719_1_alg».proof.Pre_finite_inputs
import proofs.«410706_j32547262169719_1_alg».proof.Proof.Gen.Pre_finite_inputs
import proofs.«410706_j32547262169719_1_alg».proof.Proof.Spec
import Idealize.ShloMosaic.Lib.StableHlo.Predicate
import Idealize.ShloMosaic.Lib.ReduceAll
import Idealize.ShloMosaic.Lib.ValueIdx

noncomputable section

namespace Cert.PreSide

open Idealize.ShloMosaic Idealize.ShloMosaic.ValueIdx

variable {F : FTy → Type} [FloatOps F] [Cert.Pre_finite_inputs.Facts]

/-- The shape with no axes has one index: two of them agree at every axis, there being none. -/
instance subsingleton_scalar_idx : Subsingleton Cert.Pre_finite_inputs.S_.Idx := ⟨fun a b => funext fun d => d.elim0⟩

/-- The signed values of the two words the labels are compared with. -/
theorem toInt_zero32 : (0#32 : BitVec 32).toInt = 0 := by decide
theorem toInt_thousand32 : (1000#32 : BitVec 32).toInt = 1000 := by decide

/-- When the precondition is the bit 1, every label read signed lies in [0, 1000). -/
theorem labels_in_range (a0 a1 : FVec F Cert.Pre_finite_inputs.S4096x1024 .f32) (a2 : IVec Cert.Pre_finite_inputs.S1000x4096 32)
    (a3 : IVec Cert.Pre_finite_inputs.S4096 32) (a4 : FVec F Cert.Pre_finite_inputs.S_ .f32)
    (h : Cert.Pre_finite_inputs.fn (F := F) a0 a1 a2 a3 a4 = fun _ => 1#1) : Cert.Contrast.LabelsInRange a3 := by
  intro i
  -- the precondition at its one index
  have h0 := congrFun h (fun d => d.elim0)
  dsimp only [Cert.Pre_finite_inputs.fn, Cert.Pre_finite_inputs.fn_part1] at h0
  -- the last conjunct of the outer conjunction: the conjunction over all labels
  have hall := (IntOp.andi_eq_one.1 h0).2
  -- at label i: both comparisons hold
  have hi := Host.reduce_andi_all _ _ _ _ _ hall (ix1 i)
  obtain ⟨hge, hlt⟩ := IntOp.andi_eq_one.1 hi
  have hge' : (0#32 : BitVec 32).toInt ≤ (a3 (ix1 i)).toInt := IntOp.cmpi_sge.1 hge
  have hlt' : (a3 (ix1 i)).toInt < (1000#32 : BitVec 32).toInt := IntOp.cmpi_slt.1 hlt
  rw [toInt_zero32] at hge'
  rw [toInt_thousand32] at hlt'
  exact ⟨hge', hlt'⟩

end Cert.PreSide

end
-- ==== Proof.lean ====
/-
  The certificate: a tiled contrastive-loss kernel against its plain reference.

  For an embedding matrix x (4096 rows of 1024 entries), an anchor matrix a, an integer class mask (1000 rows of 4096), a label per
  row and a temperature T, both programs compute minus the mean over the rows i of log ((S2_i + p_i) / (p_i + S1_i)), where the zone of
  rows i and j is exp ((x_i · x_j / max (|x_i| |x_j|, eps)) / T), S1_i is the sum of the zone over the rows j other than i, S2_i the
  same sum weighted by the class mask's entry (row = label of i, column j), and p_i the zone of x_i against a_i. The reference builds
  the whole 4096 x 4096 matrix, cuts its diagonal out by reshaping, gathers the mask's rows at the labels, and sums 4095 entries per row.
  The kernel walks 16 x 16 tiles: per tile it forms the 256 x 256 block of zones, zeroes it where the global row and column indices
  agree, gathers the mask's rows by a product with a one-hot matrix of the labels against the mask padded with zero rows, and adds the
  block's row sums into two accumulators that it resets at a row tile's first column tile. On the extended reals a sum with a zero in
  place of the diagonal entry is the sum without it, a product with a one-hot row picks the labelled row, and a sum over 4096 columns
  is the sum of its 16 tiles' sums, whatever the entries are: no finiteness is used. The one-hot product picks a ZERO row for a label
  outside the mask's 1000 rows where the reference's indexing wraps or clamps, so the two agree exactly on labels in [0, 1000), which
  the precondition states.

  The reference's value is read off its run operation by operation; the kernel's frame is proved against the pipeline library's
  launch rule for a kernel two of whose windows read one array (the array's share dealt in halves), its body run once per case of its
  branch; the kernel's value is the accumulation read at the last column tile of each row tile.
-/
import proofs.«410706_j32547262169719_1_alg».proof.Defs
import proofs.«410706_j32547262169719_1_alg».proof.Proof.Gen.Kernel
import proofs.«410706_j32547262169719_1_alg».proof.Proof.Gen.KernelIdeal
import proofs.«410706_j32547262169719_1_alg».proof.Proof.Gen.ReferenceIdeal
import proofs.«410706_j32547262169719_1_alg».proof.Proof.Gen.Pre_finite_inputs
import proofs.«410706_j32547262169719_1_alg».proof.Proof.Gen.ReferenceIdeal.Run
import proofs.«410706_j32547262169719_1_alg».proof.Proof.Gen.ReferenceIdeal.Read
import proofs.«410706_j32547262169719_1_alg».proof.Proof.K.Launch
import proofs.«410706_j32547262169719_1_alg».proof.Proof.KI.Launch
import proofs.«410706_j32547262169719_1_alg».proof.Proof.KI.Value
import proofs.«410706_j32547262169719_1_alg».proof.Proof.RefValue
import proofs.«410706_j32547262169719_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

section
open Cert.KernelIdeal Cert.KernelIdeal.Gen Cert.KernelIdeal.Fr Cert.KernelSide Cert.Contrast

/-- The idealized kernel's result buffer holds the loss of its arguments, when the labels lie in the class mask's rows: the stretches
    after the region compute the loss from the two result columns, which hold the rows' two sums. -/
theorem kernel_result (m : (ℓ : Loc nD τ sig) → Buf (Elt Ideal) ℓ) (c : Dev nD)
    (hlab : LabelsInRange (m ((c : Thread nD τ).loc main_arg3))) :
    (Wend m c (Proc.devRef .tc main_v24) : S_.Idx → EReal)
      = fun _ => loss (m ((c : Thread nD τ).loc main_arg0)) (m ((c : Thread nD τ).loc main_arg1)) (m ((c : Thread nD τ).loc main_arg2))
          (m ((c : Thread nD τ).loc main_arg3)) ((m ((c : Thread nD τ).loc main_arg4) : S_.Idx → EReal) (fun a => a.elim0)) := by
  have h5 : (fun i : Fin 4096 => (Wout m c (Proc.devRef .tc main_v4_0) : S4096x1.Idx → EReal) (ix2 i 0))
      = S1 (m ((c : Thread nD τ).loc main_arg0)) ((m ((c : Thread nD τ).loc main_arg4) : S_.Idx → EReal) (fun a => a.elim0)) :=
    funext fun i => (congrFun (hWout m c 5).symm (ix2 i 0)).trans (final5_at m c i)
  have h6 : (fun i : Fin 4096 => (Wout m c (Proc.devRef .tc main_v4_1) : S4096x1.Idx → EReal) (ix2 i 0))
      = S2 (m ((c : Thread nD τ).loc main_arg0)) ((m ((c : Thread nD τ).loc main_arg4) : S_.Idx → EReal) (fun a => a.elim0))
          (m ((c : Thread nD τ).loc main_arg2)) (m ((c : Thread nD τ).loc main_arg3)) :=
    funext fun i => (congrFun (hWout m c 6).symm (ix2 i 0)).trans (final6_at m c hlab i)
  have h0 : Wout m c (Proc.devRef .tc main_arg0) = m ((c : Thread nD τ).loc main_arg0) :=
    (Wout_of_ne m c main_arg0 (by decide) (by decide)).trans (V_arg0 m c)
  have h1 : Wout m c (Proc.devRef .tc main_arg1) = m ((c : Thread nD τ).loc main_arg1) :=
    (Wout_of_ne m c main_arg1 (by decide) (by decide)).trans (V_arg1 m c)
  have h4 : Wout m c (Proc.devRef .tc main_arg4) = m ((c : Thread nD τ).loc main_arg4) :=
    (Wout_of_ne m c main_arg4 (by decide) (by decide)).trans (V_arg4 m c)
  unfold Wend
  rw [tail_value (Wout m c), h5, h6, h0, h1, h4]
  funext _
  exact (loss_eq_lossOf _ _ _ _ _).symm

end

/-! ## The claims -/

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: nothing to preserve. -/
theorem preserves : Cert.preserves_Kernel_KernelIdeal := trivial

/-- From memories that agree on the arguments the two idealized programs end with one result, the loss of the arguments; the labels'
    range is the precondition's integer conjunct. -/
theorem algebraic : Cert.algebraic_KernelIdeal_ReferenceIdeal := by
  intro m ρ m' ρ' hpre hagree
  have hlab : ∀ c : Dev Cert.KernelIdeal.nD, Cert.Contrast.LabelsInRange
      (m ((c.tc : Thread Cert.KernelIdeal.nD Cert.KernelIdeal.τ).loc Cert.KernelIdeal.main_arg3)) :=
    fun c => Cert.PreSide.labels_in_range (F := Ideal) _ _ _ _ _ (hpre c)
  refine ⟨_, (θ_run Cert.KernelIdeal.defs _ _).mono (fun _ h c => ⟨(h c).1.trans (kernel_result m c (hlab c)), (h c).2⟩)
      (Cert.KernelIdeal.Fr.run_res (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2.1, (hagree c).2.2.2.2]
  exact Cert.RefSide.result_eq _ _ _ _ _ (hlab c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
